-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x260 : Shape := ⟨2, ![65536, 260]⟩
abbrev S65536x100 : Shape := ⟨2, ![65536, 100]⟩
abbrev S100x50 : Shape := ⟨2, ![100, 50]⟩
abbrev S50 : Shape := ⟨1, ![50]⟩
abbrev S50x256 : Shape := ⟨2, ![50, 256]⟩
abbrev S256 : Shape := ⟨1, ![256]⟩
abbrev S256x400 : Shape := ⟨2, ![256, 400]⟩
abbrev S400 : Shape := ⟨1, ![400]⟩
abbrev S400x256 : Shape := ⟨2, ![400, 256]⟩
abbrev S256x256 : Shape := ⟨2, ![256, 256]⟩
abbrev S256x8 : Shape := ⟨2, ![256, 8]⟩
abbrev S8 : Shape := ⟨1, ![8]⟩
abbrev S_ : Shape := ⟨0, ![]⟩

class Facts : Prop where
  bcast_S_S65536x260 : S_.BroadcastsInDim S65536x260 (![] : Fin 0 → Fin S65536x260.rank)
  reducesTo_S65536x260_S_d0_1 : S65536x260.ReducesTo [0, 1] S_
  h_S_ : 0 < S_.numel
  bcast_S_S65536x100 : S_.BroadcastsInDim S65536x100 (![] : Fin 0 → Fin S65536x100.rank)
  reducesTo_S65536x100_S_d0_1 : S65536x100.ReducesTo [0, 1] S_
  bcast_S_S100x50 : S_.BroadcastsInDim S100x50 (![] : Fin 0 → Fin S100x50.rank)
  reducesTo_S100x50_S_d0_1 : S100x50.ReducesTo [0, 1] S_
  bcast_S_S50 : S_.BroadcastsInDim S50 (![] : Fin 0 → Fin S50.rank)
  reducesTo_S50_S_d0 : S50.ReducesTo [0] S_
  bcast_S_S50x256 : S_.BroadcastsInDim S50x256 (![] : Fin 0 → Fin S50x256.rank)
  reducesTo_S50x256_S_d0_1 : S50x256.ReducesTo [0, 1] S_
  bcast_S_S256 : S_.BroadcastsInDim S256 (![] : Fin 0 → Fin S256.rank)
  reducesTo_S256_S_d0 : S256.ReducesTo [0] S_
  bcast_S_S256x400 : S_.BroadcastsInDim S256x400 (![] : Fin 0 → Fin S256x400.rank)
  reducesTo_S256x400_S_d0_1 : S256x400.ReducesTo [0, 1] S_
  bcast_S_S400 : S_.BroadcastsInDim S400 (![] : Fin 0 → Fin S400.rank)
  reducesTo_S400_S_d0 : S400.ReducesTo [0] S_
  bcast_S_S400x256 : S_.BroadcastsInDim S400x256 (![] : Fin 0 → Fin S400x256.rank)
  reducesTo_S400x256_S_d0_1 : S400x256.ReducesTo [0, 1] S_
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x8 .f32) (main_arg13 : FVec F S8 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x8 .f32 := Host.absf main_arg12
  let main_cst_22 : FVec F S_ .f32 := constant S_ .f32 0x7F800000#32
  let main_v60 : FVec F S256x8 .f32 := broadcastInDim S256x8 ![] bcast_S_S256x8 main_cst_22
  let main_v61 : IVec S256x8 1 := cmpf .olt main_v59 main_v60
  let main_c_23 : IVec S_ 1 := constantI S_ 1 1#1
  let main_v62 : IVec S_ 1 := (fun x v => Host.reduce IntOp.andi x v reducesTo_S256x8_S_d0_1 h_S_) main_v61 main_c_23
  let main_v63 : IVec S_ 1 := andi main_v58 main_v62
  let main_v64 : FVec F S8 .f32 := Host.absf main_arg13
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg7 : FVec F S400 .f32) (main_arg8 : FVec F S400x256 .f32) (main_arg9 : FVec F S256 .f32) (main_arg10 : FVec F S256x256 .f32) (main_arg11 : FVec F S256 .f32) (main_arg12 : FVec F S256x8 .f32) (main_arg13 : FVec F S8 .f32) (main_v33 : IVec S_ 1) : IVec S_ 1 :=
  let main_v34 : FVec F S400 .f32 := Host.absf main_arg7
  let main_cst_12 : FVec F S_ .f32 := constant S_ .f32 0x7F800000#32
  let main_v35 : FVec F S400 .f32 := broadcastInDim S400 ![] bcast_S_S400 main_cst_12
  let main_v36 : IVec S400 1 := cmpf .olt main_v34 main_v35
  let main_c_13 : IVec S_ 1 := constantI S_ 1 1#1
  let main_v37 : IVec S_ 1 := (fun x v => Host.reduce IntOp.andi x v reducesTo_S400_S_d0 h_S_) main_v36 main_c_13
  let main_v38 : IVec S_ 1 := andi main_v33 main_v37
  let main_v39 : FVec F S400x256 .f32 := Host.absf main_arg8
  let main_cst_14 : FVec F S_ .f32 := constant S_ .f32 0x7F800000#32
  let main_v40 : FVec F S400x256 .f32 := broadcastInDim S400x256 ![] bcast_S_S400x256 main_cst_14
  let main_v41 : IVec S400x256 1 := cmpf .olt main_v39 main_v40
  let main_c_15 : IVec S_ 1 := constantI S_ 1 1#1
  let main_v42 : IVec S_ 1 := (fun x v => Host.reduce IntOp.andi x v reducesTo_S400x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S50x256 .f32) (main_arg5 : FVec F S256 .f32) (main_arg6 : FVec F S256x400 .f32) (main_arg7 : FVec F S400 .f32) (main_arg8 : FVec F S400x256 .f32) (main_arg9 : FVec F S256 .f32) (main_arg10 : FVec F S256x256 .f32) (main_arg11 : FVec F S256 .f32) (main_arg12 : FVec F S256x8 .f32) (main_arg13 : FVec F S8 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50x256 .f32 := Host.absf main_arg4
  let main_cst_6 : FVec F S_ .f32 := constant S_ .f32 0x7F800000#32
  let main_v20 : FVec F S50x256 .f32 := broadcastInDim S50x256 ![] bcast_S_S50x256 main_cst_6
  let main_v21 : IVec S50x256 1 := cmpf .olt main_v19 main_v20
  let main_c_7 : IVec S_ 1 := constantI S_ 1 1#1
  let main_v22 : IVec S_ 1 := (fun x v => Host.reduce IntOp.andi x v reducesTo_S50x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x400 .f32 := Host.absf main_arg6
  let main_cst_10 : FVec F S_ .f32 := constant S_ .f32 0x7F800000#32
  let main_v30 : FVec F S256x400 .f32 := broadcastInDim S256x400 ![] bcast_S_S256x400 main_cst_10
  let main_v31 : IVec S256x400 1 := cmpf .olt main_v29 main_v30
  let main_c_11 : IVec S_ 1 := constantI S_ 1 1#1
  let main_v32 : IVec S_ 1 := (fun x v => Host.reduce IntOp.andi x v reducesTo_S256x400_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x260 .f32) (main_arg1 : FVec F S65536x100 .f32) (main_arg2 : FVec F S100x50 .f32) (main_arg3 : FVec F S50 .f32) (main_arg4 : FVec F S50x256 .f32) (main_arg5 : FVec F S256 .f32) (main_arg6 : FVec F S256x400 .f32) (main_arg7 : FVec F S400 .f32) (main_arg8 : FVec F S400x256 .f32) (main_arg9 : FVec F S256 .f32) (main_arg10 : FVec F S256x256 .f32) (main_arg11 : FVec F S256 .f32) (main_arg12 : FVec F S256x8 .f32) (main_arg13 : FVec F S8 .f32) : IVec S_ 1 :=
  let main_v0 : FVec F S65536x260 .f32 := Host.absf main_arg0
  let main_cst : FVec F S_ .f32 := constant S_ .f32 0x7F800000#32
  let main_v1 : FVec F S65536x260 .f32 := broadcastInDim S65536x260 ![] bcast_S_S65536x260 main_cst
  let main_v2 : IVec S65536x260 1 := cmpf .olt main_v0 main_v1
  let main_c : IVec S_ 1 := constantI S_ 1 1#1
  let main_v3 : IVec S_ 1 := (fun x v => Host.reduce IntOp.andi x v reducesTo_S65536x260_S_d0_1 h_S_) main_v2 main_c
  let main_v4 : FVec F S65536x100 .f32 := Host.absf main_arg1
  let main_cst_0 : FVec F S_ .f32 := constant S_ .f32 0x7F800000#32
  let main_v5 : FVec F S65536x100 .f32 := broadcastInDim S65536x100 ![] bcast_S_S65536x100 main_cst_0
  let main_v6 : IVec S65536x100 1 := cmpf .olt main_v4 main_v5
  let main_c_1 : IVec S_ 1 := constantI S_ 1 1#1
  let main_v7 : IVec S_ 1 := (fun x v => Host.reduce IntOp.andi x v reducesTo_S65536x100_S_d0_1 h_S_) main_v6 main_c_1
  let main_v8 : IVec S_ 1 := andi main_v3 main_v7
  let main_v9 : FVec F S100x50 .f32 := Host.absf main_arg2
  let main_cst_2 : FVec F S_ .f32 := constant S_ .f32 0x7F800000#32
  let main_v10 : FVec F S100x50 .f32 := broadcastInDim S100x50 ![] bcast_S_S100x50 main_cst_2
  let main_v11 : IVec S100x50 1 := cmpf .olt main_v9 main_v10
  let main_c_3 : IVec S_ 1 := constantI S_ 1 1#1
  let main_v12 : IVec S_ 1 := (fun x v => Host.reduce IntOp.andi x v reducesTo_S100x50_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x260 : Shape := ⟨2, ![65536, 260]⟩
abbrev S65536x100 : Shape := ⟨2, ![65536, 100]⟩
abbrev S100x50 : Shape := ⟨2, ![100, 50]⟩
abbrev S50 : Shape := ⟨1, ![50]⟩
abbrev S50x256 : Shape := ⟨2, ![50, 256]⟩
abbrev S256 : Shape := ⟨1, ![256]⟩
abbrev S256x400 : Shape := ⟨2, ![256, 400]⟩
abbrev S400 : Shape := ⟨1, ![400]⟩
abbrev S400x256 : Shape := ⟨2, ![400, 256]⟩
abbrev S256x256 : Shape := ⟨2, ![256, 256]⟩
abbrev S256x8 : Shape := ⟨2, ![256, 8]⟩
abbrev S8 : Shape := ⟨1, ![8]⟩
abbrev S65536x8 : Shape := ⟨2, ![65536, 8]⟩
abbrev S1024x260 : Shape := ⟨2, ![1024, 260]⟩
abbrev S1024x100 : Shape := ⟨2, ![1024, 100]⟩
abbrev S1024x8 : Shape := ⟨2, ![1024, 8]⟩
abbrev S1024x50 : Shape := ⟨2, ![1024, 50]⟩
abbrev S1x50 : Shape := ⟨2, ![1, 50]⟩
abbrev S1024x10 : Shape := ⟨2, ![1024, 10]⟩
abbrev S1024x20 : Shape := ⟨2, ![1024, 20]⟩
abbrev S1x256 : Shape := ⟨2, ![1, 256]⟩
abbrev S1x400 : Shape := ⟨2, ![1, 400]⟩
abbrev S1024x400 : Shape := ⟨2, ![1024, 400]⟩
abbrev S1024x15 : Shape := ⟨2, ![1024, 15]⟩
abbrev S1024x256 : Shape := ⟨2, ![1024, 256]⟩
abbrev S1x8 : Shape := ⟨2, ![1, 8]⟩

abbrev nBuf : Space → Nat
  | .hbm => 15
  | .vmem => 18
  | .smem => 0
  | _ => 0

abbrev bufTy : (tb : Table) → Fin (tcTables nBuf tb) → BufTy
  | .hbm, ⟨0, _⟩ => ⟨S65536x260, .f32⟩
  | .hbm, ⟨1, _⟩ => ⟨S65536x100, .f32⟩
  | .hbm, ⟨2, _⟩ => ⟨S100x50, .f32⟩
  | .hbm, ⟨3, _⟩ => ⟨S50, .f32⟩
  | .hbm, ⟨4, _⟩ => ⟨S50x256, .f32⟩
  | .hbm, ⟨5, _⟩ => ⟨S256, .f32⟩
  | .hbm, ⟨6, _⟩ => ⟨S256x400, .f32⟩
  | .hbm, ⟨7, _⟩ => ⟨S400, .f32⟩
  | .hbm, ⟨8, _⟩ => ⟨S400x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x8, .f32⟩
  | .hbm, ⟨13, _⟩ => ⟨S8, .f32⟩
  | .hbm, ⟨14, _⟩ => ⟨S65536x8, .f32⟩
  | .local _ .vmem, ⟨0, _⟩ => ⟨S1024x260, .f32⟩
  | .local _ .vmem, ⟨1, _⟩ => ⟨S1024x260, .f32⟩
  | .local _ .vmem, ⟨2, _⟩ => ⟨S1024x100, .f32⟩
  | .local _ .vmem, ⟨3, _⟩ => ⟨S1024x100, .f32⟩
  | .local _ .vmem, ⟨4, _⟩ => ⟨S100x50, .f32⟩
  | .local _ .vmem, ⟨5, _⟩ => ⟨S50, .f32⟩
  | .local _ .vmem, ⟨6, _⟩ => ⟨S50x256, .f32⟩
  | .local _ .vmem, ⟨7, _⟩ => ⟨S256, .f32⟩
  | .local _ .vmem, ⟨8, _⟩ => ⟨S256x400, .f32⟩
  | .local _ .vmem, ⟨9, _⟩ => ⟨S400, .f32⟩
  | .local _ .vmem, ⟨10, _⟩ => ⟨S400x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x8, .f32⟩
  | .local _ .vmem, ⟨15, _⟩ => ⟨S8, .f32⟩
  | .local _ .vmem, ⟨16, _⟩ => ⟨S1024x8, .f32⟩
  | .local _ .vmem, ⟨17, _⟩ => ⟨S1024x8, .f32⟩
  | _, _ => ⟨S65536x260, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  inb_S1024x260_S1024x260_0_0 : ∀ a, (![0, 0] : Fin 2 → Nat) a + S1024x260.size a ≤ S1024x260.size a
  h_S1024x260 : 0 < S1024x260.numel
  inb_S1024x100_S1024x100_0_0 : ∀ a, (![0, 0] : Fin 2 → Nat) a + S1024x100.size a ≤ S1024x100.size a
  h_S1024x100 : 0 < S1024x100.numel
  bitsLt_bf16_f32 : FTy.bits .bf16 < FTy.bits .f32
  inb_S100x50_S100x50_0_0 : ∀ a, (![0, 0] : Fin 2 → Nat) a + S100x50.size a ≤ S100x50.size a
  h_S100x50 : 0 < S100x50.numel
  inb_S50_S50_0 : ∀ a, (![0] : Fin 1 → Nat) a + S50.size a ≤ S50.size a
  h_S50 : 0 < S50.numel
  shapeCasts_S50_S1x50 : S50.ShapeCasts S1x50
  broadcasts_S1x50_S1024x50 : S1x50.Broadcasts S1024x50
  slices_S1024x260_o0_0_S1024x10 : S1024x260.Slices ![0, 0] S1024x10
  slices_S1024x260_o0_130_S1024x10 : S1024x260.Slices ![0, 130] S1024x10
  concatenates_S1024x10_S1024x10_S1024x20_d1 : Shape.Concatenates [S1024x10, S1024x10] S1024x20 1
  inb_S50x256_S50x256_0_0 : ∀ a, (![0, 0] : Fin 2 → Nat) a + S50x256.size a ≤ S50x256.size a
  h_S50x256 : 0 < S50x256.numel
  inb_S256_S256_0 : ∀ a, (![0] : Fin 1 → Nat) a + S256.size a ≤ S256.size a
  h_S256 : 0 < S256.numel
  shapeCasts_S256_S1x256 : S256.ShapeCasts S1x256
  inb_S256x400_S256x400_0_0 : ∀ a, (![0, 0] : Fin 2 → Nat) a + S256x400.size a ≤ S256x400.size a
  h_S256x400 : 0 < S256x400.numel
  inb_S400_S400_0 : ∀ a, (![0] : Fin 1 → Nat) a + S400.size a ≤ S400.size a
  h_S400 : 0 < S400.numel
  shapeCasts_S400_S1x400 : S400.ShapeCasts S1x400
  slices_S1024x260_o0_10_S1024x15 : S1024x260.Slices ![0, 10] S1024x15
  slices_S1024x260_o0_140_S1024x15 : S1024x260.Slices ![0, 140] S1024x15
  concatenates_S1024x20_S1024x15_S1024x15_S1024x50_d1 : Shape.Concatenates [S1024x20, S1024x15, S1024x15] S1024x50 1
  broadcasts_S1x256_S1024x256 : S1x256.Broadcasts S1024x256
  broadcasts_S1x400_S1024x400 : S1x400.Broadcasts S1024x400
  slices_S1024x260_o0_25_S1024x15 : S1024x260.Slices ![0, 25] S1024x15
  slices_S1024x260_o0_155_S1024x15 : S1024x260.Slices ![0, 155] S1024x15
  slices_S1024x260_o0_40_S1024x15 : S1024x260.Slices ![0, 40] S1024x15
  slices_S1024x260_o0_170_S1024x15 : S1024x260.Slices ![0, 170] S1024x15
  slices_S1024x260_o0_55_S1024x15 : S1024x260.Slices ![0, 55] S1024x15
  slices_S1024x260_o0_185_S1024x15 : S1024x260.Slices ![0, 185] S1024x15
  slices_S1024x260_o0_70_S1024x15 : S1024x260.Slices ![0, 70] S1024x15
  slices_S1024x260_o0_200_S1024x15 : S1024x260.Slices ![0, 200] S1024x15
  slices_S1024x260_o0_85_S1024x15 : S1024x260.Slices ![0, 85] S1024x15
  slices_S1024x260_o0_215_S1024x15 : S1024x260.Slices ![0, 215] S1024x15
  slices_S1024x260_o0_100_S1024x15 : S1024x260.Slices ![0, 100] S1024x15
  slices_S1024x260_o0_230_S1024x15 : S1024x260.Slices ![0, 230] S1024x15
  slices_S1024x260_o0_115_S1024x15 : S1024x260.Slices ![0, 115] S1024x15
  slices_S1024x260_o0_245_S1024x15 : S1024x260.Slices ![0, 245] S1024x15
  inb_S400x256_S400x256_0_0 : ∀ a, (![0, 0] : Fin 2 → Nat) a + S400x256.size a ≤ S400x256.size a
  h_S400x256 : 0 < S400x256.numel
  inb_S256x256_S256x256_0_0 : ∀ a, (![0, 0] : Fin 2 → Nat) a + S256x256.size a ≤ S256x256.size a
  h_S256x256 : 0 < S256x256.numel
  inb_S256x8_S256x8_0_0 : ∀ a, (![0, 0] : Fin 2 → Nat) a + S256x8.size a ≤ S256x8.size a
  h_S256x8 : 0 < S256x8.numel
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S1024x8_S1024x8_0_0 : ∀ a, (![0, 0] : Fin 2 → Nat) a + S1024x8.size a ≤ S1024x8.size a
  h_S1024x8 : 0 < S1024x8.numel
  dot_S1024x100_S100x50_S1024x50_1_0_0_1_n_n_wf : DotDims.WF S1024x100 S100x50 S1024x50 [1] [0] [0] [1] [] []
  dot_S1024x50_S50x256_S1024x256_1_0_0_1_n_n_wf : DotDims.WF S1024x50 S50x256 S1024x256 [1] [0] [0] [1] [] []
  dot_S1024x256_S256x400_S1024x400_1_0_0_1_n_n_wf : DotDims.WF S1024x256 S256x400 S1024x400 [1] [0] [0] [1] [] []
  dot_S1024x400_S400x256_S1024x256_1_0_0_1_n_n_wf : DotDims.WF S1024x400 S400x256 S1024x256 [1] [0] [0] [1] [] []
  dot_S1024x256_S256x256_S1024x256_1_0_0_1_n_n_wf : DotDims.WF S1024x256 S256x256 S1024x256 [1] [0] [0] [1] [] []
  dot_S1024x256_S256x8_S1024x8_1_0_0_1_n_n_wf : DotDims.WF S1024x256 S256x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x260.size a ≤ S65536x260.size a
  hwx0_0 : ∀ i : grid0.Coords, EltTy.bits .f32 = 32 ∨ (Rect.block (s := S65536x260) S1024x260.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x100.size a ≤ S65536x100.size a
  hwx0_1 : ∀ i : grid0.Coords, EltTy.bits .f32 = 32 ∨ (Rect.block (s := S65536x100) S1024x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x50.size a ≤ S100x50.size a
  hwx0_2 : ∀ i : grid0.Coords, EltTy.bits .f32 = 32 ∨ (Rect.block (s := S100x50) S100x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x256.size a ≤ S50x256.size a
  hwx0_4 : ∀ i : grid0.Coords, EltTy.bits .f32 = 32 ∨ (Rect.block (s := S50x256) S50x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x400.size a ≤ S256x400.size a
  hwx0_6 : ∀ i : grid0.Coords, EltTy.bits .f32 = 32 ∨ (Rect.block (s := S256x400) S256x400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400.size a ≤ S400.size a
  hwx0_7 : ∀ i : grid0.Coords, EltTy.bits .f32 = 32 ∨ (Rect.block (s := S400) S400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400x256.size a ≤ S400x256.size a
  hwx0_8 : ∀ i : grid0.Coords, EltTy.bits .f32 = 32 ∨ (Rect.block (s := S400x256) S400x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x8.size a ≤ S256x8.size a
  hwx0_12 : ∀ i : grid0.Coords, EltTy.bits .f32 = 32 ∨ (Rect.block (s := S256x8) S256x8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8.size a ≤ S8.size a
  hwx0_13 : ∀ i : grid0.Coords, EltTy.bits .f32 = 32 ∨ (Rect.block (s := S8) S8.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x8.size a ≤ S65536x8.size a
  hwx0_14 : ∀ i : grid0.Coords, EltTy.bits .f32 = 32 ∨ (Rect.block (s := S65536x8) S1024x8.size (cc0_transform_14 i) (hinb0_14 i)).WholeWords (EltTy.packing .f32)

variable [Facts₀]

def dot_S1024x100_S100x50_S1024x50_1_0_0_1_n_n : DotDims S1024x100 S100x50 S1024x50 where
  lhsContracting := [1]
  rhsContracting := [0]
  lhsNonContracting := [0]
  rhsNonContracting := [1]
  lhsBatch := []
  rhsBatch := []
  wf := dot_S1024x100_S100x50_S1024x50_1_0_0_1_n_n_wf
def dot_S1024x50_S50x256_S1024x256_1_0_0_1_n_n : DotDims S1024x50 S50x256 S1024x256 where
  lhsContracting := [1]
  rhsContracting := [0]
  lhsNonContracting := [0]
  rhsNonContracting := [1]
  lhsBatch := []
  rhsBatch := []
  wf := dot_S1024x50_S50x256_S1024x256_1_0_0_1_n_n_wf
def dot_S1024x256_S256x400_S1024x400_1_0_0_1_n_n : DotDims S1024x256 S256x400 S1024x400 where
  lhsContracting := [1]
  rhsContracting := [0]
  lhsNonContracting := [0]
  rhsNonContracting := [1]
  lhsBatch := []
  rhsBatch := []
  wf := dot_S1024x256_S256x400_S1024x400_1_0_0_1_n_n_wf
def dot_S1024x400_S400x256_S1024x256_1_0_0_1_n_n : DotDims S1024x400 S400x256 S1024x256 where
  lhsContracting := [1]
  rhsContracting := [0]
  lhsNonContracting := [0]
  rhsNonContracting := [1]
  lhsBatch := []
  rhsBatch := []
  wf := dot_S1024x400_S400x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x8_S1024x8_1_0_0_1_n_n : DotDims S1024x256 S256x8 S1024x8 where
  lhsContracting := [1]
  rhsContracting := [0]
  lhsNonContracting := [0]
  rhsNonContracting := [1]
  lhsBatch := []
  rhsBatch := []
  wf := dot_S1024x256_S256x8_S1024x8_1_0_0_1_n_n_wf

abbrev win0_0 : Pipeline.Window sig grid0 :=
  Pipeline.Window.ofSpec (Memref.whole main_arg0) S1024x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S400x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v0) S1024x8.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x260 : Shape := ⟨2, ![65536, 260]⟩
abbrev S65536x100 : Shape := ⟨2, ![65536, 100]⟩
abbrev S100x50 : Shape := ⟨2, ![100, 50]⟩
abbrev S50 : Shape := ⟨1, ![50]⟩
abbrev S50x256 : Shape := ⟨2, ![50, 256]⟩
abbrev S256 : Shape := ⟨1, ![256]⟩
abbrev S256x400 : Shape := ⟨2, ![256, 400]⟩
abbrev S400 : Shape := ⟨1, ![400]⟩
abbrev S400x256 : Shape := ⟨2, ![400, 256]⟩
abbrev S256x256 : Shape := ⟨2, ![256, 256]⟩
abbrev S256x8 : Shape := ⟨2, ![256, 8]⟩
abbrev S8 : Shape := ⟨1, ![8]⟩
abbrev S8x30 : Shape := ⟨2, ![8, 30]⟩
abbrev S65536x50 : Shape := ⟨2, ![65536, 50]⟩
abbrev S1x50 : Shape := ⟨2, ![1, 50]⟩
abbrev S_ : Shape := ⟨0, ![]⟩
abbrev S65536x10 : Shape := ⟨2, ![65536, 10]⟩
abbrev S65536x20 : Shape := ⟨2, ![65536, 20]⟩
abbrev S8x30x1 : Shape := ⟨3, ![8, 30, 1]⟩
abbrev S65536x8x30 : Shape := ⟨3, ![65536, 8, 30]⟩
abbrev S65536x1x20 : Shape := ⟨3, ![65536, 1, 20]⟩
abbrev S65536x8x20 : Shape := ⟨3, ![65536, 8, 20]⟩
abbrev S65536x8x50 : Shape := ⟨3, ![65536, 8, 50]⟩
abbrev S65536x1x50 : Shape := ⟨3, ![65536, 1, 50]⟩
abbrev S65536x8x256 : Shape := ⟨3, ![65536, 8, 256]⟩
abbrev S1x1x256 : Shape := ⟨3, ![1, 1, 256]⟩
abbrev S65536x8x400 : Shape := ⟨3, ![65536, 8, 400]⟩
abbrev S1x1x400 : Shape := ⟨3, ![1, 1, 400]⟩
abbrev S65536x400 : Shape := ⟨2, ![65536, 400]⟩
abbrev S65536x256 : Shape := ⟨2, ![65536, 256]⟩
abbrev S1x256 : Shape := ⟨2, ![1, 256]⟩
abbrev S65536x8 : Shape := ⟨2, ![65536, 8]⟩
abbrev S1x8 : Shape := ⟨2, ![1, 8]⟩

abbrev nBuf : Space → Nat
  | .hbm => 80
  | .vmem => 0
  | .smem => 0
  | _ => 0

abbrev bufTy : (tb : Table) → Fin (tcTables nBuf tb) → BufTy
  | .hbm, ⟨0, _⟩ => ⟨S65536x260, .f32⟩
  | .hbm, ⟨1, _⟩ => ⟨S65536x100, .f32⟩
  | .hbm, ⟨2, _⟩ => ⟨S100x50, .f32⟩
  | .hbm, ⟨3, _⟩ => ⟨S50, .f32⟩
  | .hbm, ⟨4, _⟩ => ⟨S50x256, .f32⟩
  | .hbm, ⟨5, _⟩ => ⟨S256, .f32⟩
  | .hbm, ⟨6, _⟩ => ⟨S256x400, .f32⟩
  | .hbm, ⟨7, _⟩ => ⟨S400, .f32⟩
  | .hbm, ⟨8, _⟩ => ⟨S400x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x8, .f32⟩
  | .hbm, ⟨13, _⟩ => ⟨S8, .f32⟩
  | .hbm, ⟨14, _⟩ => ⟨S8x30, .i32⟩
  | .hbm, ⟨15, _⟩ => ⟨S65536x50, .f32⟩
  | .hbm, ⟨16, _⟩ => ⟨S1x50, .f32⟩
  | .hbm, ⟨17, _⟩ => ⟨S65536x50, .f32⟩
  | .hbm, ⟨18, _⟩ => ⟨S65536x50, .f32⟩
  | .hbm, ⟨19, _⟩ => ⟨S65536x50, .f32⟩
  | .hbm, ⟨20, _⟩ => ⟨S65536x50, .f32⟩
  | .hbm, ⟨21, _⟩ => ⟨S_, .f32⟩
  | .hbm, ⟨22, _⟩ => ⟨S65536x50, .f32⟩
  | .hbm, ⟨23, _⟩ => ⟨S65536x50, .f32⟩
  | .hbm, ⟨24, _⟩ => ⟨S_, .f32⟩
  | .hbm, ⟨25, _⟩ => ⟨S65536x50, .f32⟩
  | .hbm, ⟨26, _⟩ => ⟨S65536x50, .f32⟩
  | .hbm, ⟨27, _⟩ => ⟨S65536x10, .f32⟩
  | .hbm, ⟨28, _⟩ => ⟨S65536x10, .f32⟩
  | .hbm, ⟨29, _⟩ => ⟨S65536x20, .f32⟩
  | .hbm, ⟨30, _⟩ => ⟨S_, .i32⟩
  | .hbm, ⟨31, _⟩ => ⟨S8x30, .i32⟩
  | .hbm, ⟨32, _⟩ => ⟨S8x30, .i1⟩
  | .hbm, ⟨33, _⟩ => ⟨S_, .i32⟩
  | .hbm, ⟨34, _⟩ => ⟨S8x30, .i32⟩
  | .hbm, ⟨35, _⟩ => ⟨S8x30, .i32⟩
  | .hbm, ⟨36, _⟩ => ⟨S8x30, .i32⟩
  | .hbm, ⟨37, _⟩ => ⟨S8x30x1, .i32⟩
  | .hbm, ⟨38, _⟩ => ⟨S65536x8x30, .f32⟩
  | .hbm, ⟨39, _⟩ => ⟨S65536x1x20, .f32⟩
  | .hbm, ⟨40, _⟩ => ⟨S65536x8x20, .f32⟩
  | .hbm, ⟨41, _⟩ => ⟨S65536x8x50, .f32⟩
  | .hbm, ⟨42, _⟩ => ⟨S65536x1x50, .f32⟩
  | .hbm, ⟨43, _⟩ => ⟨S65536x8x50, .f32⟩
  | .hbm, ⟨44, _⟩ => ⟨S65536x8x50, .f32⟩
  | .hbm, ⟨45, _⟩ => ⟨S65536x8x256, .f32⟩
  | .hbm, ⟨46, _⟩ => ⟨S1x1x256, .f32⟩
  | .hbm, ⟨47, _⟩ => ⟨S65536x8x256, .f32⟩
  | .hbm, ⟨48, _⟩ => ⟨S65536x8x256, .f32⟩
  | .hbm, ⟨49, _⟩ => ⟨S_, .f32⟩
  | .hbm, ⟨50, _⟩ => ⟨S65536x8x256, .f32⟩
  | .hbm, ⟨51, _⟩ => ⟨S65536x8x256, .f32⟩
  | .hbm, ⟨52, _⟩ => ⟨S65536x8x400, .f32⟩
  | .hbm, ⟨53, _⟩ => ⟨S1x1x400, .f32⟩
  | .hbm, ⟨54, _⟩ => ⟨S65536x8x400, .f32⟩
  | .hbm, ⟨55, _⟩ => ⟨S65536x8x400, .f32⟩
  | .hbm, ⟨56, _⟩ => ⟨S_, .f32⟩
  | .hbm, ⟨57, _⟩ => ⟨S65536x8x400, .f32⟩
  | .hbm, ⟨58, _⟩ => ⟨S65536x8x400, .f32⟩
  | .hbm, ⟨59, _⟩ => ⟨S_, .f32⟩
  | .hbm, ⟨60, _⟩ => ⟨S65536x400, .f32⟩
  | .hbm, ⟨61, _⟩ => ⟨S65536x256, .f32⟩
  | .hbm, ⟨62, _⟩ => ⟨S1x256, .f32⟩
  | .hbm, ⟨63, _⟩ => ⟨S65536x256, .f32⟩
  | .hbm, ⟨64, _⟩ => ⟨S65536x256, .f32⟩
  | .hbm, ⟨65, _⟩ => ⟨S_, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S1x256, .f32⟩
  | .hbm, ⟨70, _⟩ => ⟨S65536x256, .f32⟩
  | .hbm, ⟨71, _⟩ => ⟨S65536x256, .f32⟩
  | .hbm, ⟨72, _⟩ => ⟨S_, .f32⟩
  | .hbm, ⟨73, _⟩ => ⟨S65536x256, .f32⟩
  | .hbm, ⟨74, _⟩ => ⟨S65536x256, .f32⟩
  | .hbm, ⟨75, _⟩ => ⟨S65536x8, .f32⟩
  | .hbm, ⟨76, _⟩ => ⟨S1x8, .f32⟩
  | .hbm, ⟨77, _⟩ => ⟨S65536x8, .f32⟩
  | .hbm, ⟨78, _⟩ => ⟨S65536x8, .f32⟩
  | .hbm, ⟨79, _⟩ => ⟨S65536x8, .f32⟩
  | _, _ => ⟨S65536x260, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call2_cst : Ref sig .tc := ⟨.hbm, 65, rfl⟩
abbrev main_call2_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call3_cst : Ref sig .tc := ⟨.hbm, 72, rfl⟩
abbrev main_call3_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S65536x50_0_1 : S1x50.BroadcastsInDim S65536x50 (![0, 1] : Fin 2 → Fin S65536x50.rank)
  bcast_S_S65536x50 : S_.BroadcastsInDim S65536x50 (![] : Fin 0 → Fin S65536x50.rank)
  slices_S65536x260_S65536x10_0_0 : S65536x260.Slices ![0, 0] S65536x10
  slices_S65536x260_S65536x10_0_130 : S65536x260.Slices ![0, 130] S65536x10
  concatenates_S65536x10_S65536x10_S65536x20_d1 : Shape.Concatenates [S65536x10, S65536x10] S65536x20 1
  bcast_S_S8x30 : S_.BroadcastsInDim S8x30 (![] : Fin 0 → Fin S8x30.rank)
  bcast_S8x30_S8x30x1_0_1 : S8x30.BroadcastsInDim S8x30x1 (![0, 1] : Fin 2 → Fin S8x30x1.rank)
  bcast_S65536x20_S65536x1x20_0_2 : S65536x20.BroadcastsInDim S65536x1x20 (![0, 2] : Fin 2 → Fin S65536x1x20.rank)
  bcast_S65536x1x20_S65536x8x20_0_1_2 : S65536x1x20.BroadcastsInDim S65536x8x20 (![0, 1, 2] : Fin 3 → Fin S65536x8x20.rank)
  concatenates_S65536x8x20_S65536x8x30_S65536x8x50_d2 : Shape.Concatenates [S65536x8x20, S65536x8x30] S65536x8x50 2
  bcast_S65536x50_S65536x1x50_0_2 : S65536x50.BroadcastsInDim S65536x1x50 (![0, 2] : Fin 2 → Fin S65536x1x50.rank)
  bcast_S65536x1x50_S65536x8x50_0_1_2 : S65536x1x50.BroadcastsInDim S65536x8x50 (![0, 1, 2] : Fin 3 → Fin S65536x8x50.rank)
  bcast_S256_S1x1x256_2 : S256.BroadcastsInDim S1x1x256 (![2] : Fin 1 → Fin S1x1x256.rank)
  bcast_S1x1x256_S65536x8x256_0_1_2 : S1x1x256.BroadcastsInDim S65536x8x256 (![0, 1, 2] : Fin 3 → Fin S65536x8x256.rank)
  bcast_S_S65536x8x256 : S_.BroadcastsInDim S65536x8x256 (![] : Fin 0 → Fin S65536x8x256.rank)
  bcast_S400_S1x1x400_2 : S400.BroadcastsInDim S1x1x400 (![2] : Fin 1 → Fin S1x1x400.rank)
  bcast_S1x1x400_S65536x8x400_0_1_2 : S1x1x400.BroadcastsInDim S65536x8x400 (![0, 1, 2] : Fin 3 → Fin S65536x8x400.rank)
  bcast_S_S65536x8x400 : S_.BroadcastsInDim S65536x8x400 (![] : Fin 0 → Fin S65536x8x400.rank)
  reducesTo_S65536x8x400_S65536x400_d1 : S65536x8x400.ReducesTo [1] S65536x400
  h_S_ : 0 < S_.numel
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  dot_S65536x100_S100x50_S65536x50_1_0_0_1_n_n_wf : DotDims.WF S65536x100 S100x50 S65536x50 [1] [0] [0] [1] [] []
  gather_S65536x260_S8x30x1_S65536x8x30_0_1_n_n_1_2_655361_wf : GatherDims.WF S65536x260 S8x30x1 S65536x8x30 [0] [1] [] [1] [] 2 ![65536, 1]
  dot_S65536x8x50_S50x256_S65536x8x256_2_0_01_1_n_n_wf : DotDims.WF S65536x8x50 S50x256 S65536x8x256 [2] [0] [0, 1] [1] [] []
  dot_S65536x8x256_S256x400_S65536x8x400_2_0_01_1_n_n_wf : DotDims.WF S65536x8x256 S256x400 S65536x8x400 [2] [0] [0, 1] [1] [] []
  dot_S65536x400_S400x256_S65536x256_1_0_0_1_n_n_wf : DotDims.WF S65536x400 S400x256 S65536x256 [1] [0] [0] [1] [] []
  dot_S65536x256_S256x256_S65536x256_1_0_0_1_n_n_wf : DotDims.WF S65536x256 S256x256 S65536x256 [1] [0] [0] [1] [] []
  dot_S65536x256_S256x8_S65536x8_1_0_0_1_n_n_wf : DotDims.WF S65536x256 S256x8 S65536x8 [1] [0] [0] [1] [] []

variable [Facts₀]

def dot_S65536x100_S100x50_S65536x50_1_0_0_1_n_n : DotDims S65536x100 S100x50 S65536x50 where
  lhsContracting := [1]
  rhsContracting := [0]
  lhsNonContracting := [0]
  rhsNonContracting := [1]
  lhsBatch := []
  rhsBatch := []
  wf := dot_S65536x100_S100x50_S65536x50_1_0_0_1_n_n_wf
def gather_S65536x260_S8x30x1_S65536x8x30_0_1_n_n_1_2_655361 : GatherDims S65536x260 S8x30x1 S65536x8x30 where
  offsetDims := [0]
  collapsedSliceDims := [1]
  operandBatchingDims := []
  startIndicesBatchingDims := []
  startIndexMap := [1]
  indexVectorDim := 2
  sliceSizes := ![65536, 1]
  wf := gather_S65536x260_S8x30x1_S65536x8x30_0_1_n_n_1_2_655361_wf
def dot_S65536x8x50_S50x256_S65536x8x256_2_0_01_1_n_n : DotDims S65536x8x50 S50x256 S65536x8x256 where
  lhsContracting := [2]
  rhsContracting := [0]
  lhsNonContracting := [0, 1]
  rhsNonContracting := [1]
  lhsBatch := []
  rhsBatch := []
  wf := dot_S65536x8x50_S50x256_S65536x8x256_2_0_01_1_n_n_wf
def dot_S65536x8x256_S256x400_S65536x8x400_2_0_01_1_n_n : DotDims S65536x8x256 S256x400 S65536x8x400 where
  lhsContracting := [2]
  rhsContracting := [0]
  lhsNonContracting := [0, 1]
  rhsNonContracting := [1]
  lhsBatch := []
  rhsBatch := []
  wf := dot_S65536x8x256_S256x400_S65536x8x400_2_0_01_1_n_n_wf
def dot_S65536x400_S400x256_S65536x256_1_0_0_1_n_n : DotDims S65536x400 S400x256 S65536x256 where
  lhsContracting := [1]
  rhsContracting := [0]
  lhsNonContracting := [0]
  rhsNonContracting := [1]
  lhsBatch := []
  rhsBatch := []
  wf := dot_S65536x400_S400x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x8_S65536x8_1_0_0_1_n_n : DotDims S65536x256 S256x8 S65536x8 where
  lhsContracting := [1]
  rhsContracting := [0]
  lhsNonContracting := [0]
  rhsNonContracting := [1]
  lhsBatch := []
  rhsBatch := []
  wf := dot_S65536x256_S256x8_S65536x8_1_0_0_1_n_n_wf

class Facts : Prop extends Facts₀ where

variable [Facts]
-- ==== Proof.KernelLayers.lean ====
/-
  The kernel's matrix products and bias rows read at an index.

  On the extended reals a product of a [1024 × K] block with a [K × N] matrix, accumulated from zero, holds at
  (r, e) the sum over k of X(r, k) · W(k, e); a bias vector laid out as one row and repeated down the 1024 rows
  holds at (r, e) the vector's entry e.
-/
import proofs.«177284_j28552942584470_1_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx

/-! ## The six products

  Each product contracts the left operand's axis 1 with the right operand's axis 0 and has no batch axis, so at the
  result index (r, e) and contraction index k the operands are read at (r, k) and (k, e): one lemma per operand axis,
  then the sum re-indexed through the one contracted coordinate. -/

/-- The left operand's row coordinate is the result's row. -/
private theorem lhs_100_50_0 (i : S1024x50.Idx) (q : dot_S1024x100_S100x50_S1024x50_1_0_0_1_n_n.contr.Idx) :
    (dot_S1024x100_S100x50_S1024x50_1_0_0_1_n_n.lhsIdx i q 0).val = (i 0).val := by
  unfold DotDims.lhsIdx
  rw [dif_neg (show ¬(0 : Fin S1024x100.rank) ∈ dot_S1024x100_S100x50_S1024x50_1_0_0_1_n_n.lhsBatch by decide),
    dif_pos (show (0 : Fin S1024x100.rank) ∈ dot_S1024x100_S100x50_S1024x50_1_0_0_1_n_n.lhsNonContracting by decide)]
  rfl
/-- The left operand's column coordinate is the contraction index. -/
private theorem lhs_100_50_1 (i : S1024x50.Idx) (q : dot_S1024x100_S100x50_S1024x50_1_0_0_1_n_n.contr.Idx) :
    (dot_S1024x100_S100x50_S1024x50_1_0_0_1_n_n.lhsIdx i q 1).val = (q ⟨0, by decide⟩).val :=
  dot_S1024x100_S100x50_S1024x50_1_0_0_1_n_n.lhsIdx_val_of_single rfl i q
/-- The right operand's row coordinate is the contraction index. -/
private theorem rhs_100_50_0 (i : S1024x50.Idx) (q : dot_S1024x100_S100x50_S1024x50_1_0_0_1_n_n.contr.Idx) :
    (dot_S1024x100_S100x50_S1024x50_1_0_0_1_n_n.rhsIdx i q 0).val = (q ⟨0, by decide⟩).val :=
  dot_S1024x100_S100x50_S1024x50_1_0_0_1_n_n.rhsIdx_val_of_single rfl i q
/-- The right operand's column coordinate is the result's column. -/
private theorem rhs_100_50_1 (i : S1024x50.Idx) (q : dot_S1024x100_S100x50_S1024x50_1_0_0_1_n_n.contr.Idx) :
    (dot_S1024x100_S100x50_S1024x50_1_0_0_1_n_n.rhsIdx i q 1).val = (i 1).val := by
  unfold DotDims.rhsIdx
  rw [dif_neg (show ¬(1 : Fin S100x50.rank) ∈ dot_S1024x100_S100x50_S1024x50_1_0_0_1_n_n.rhsBatch by decide),
    dif_pos (show (1 : Fin S100x50.rank) ∈ dot_S1024x100_S100x50_S1024x50_1_0_0_1_n_n.rhsNonContracting by decide)]
  rfl

/-- The gate's product: [1024 × 100] by [100 × 50]. -/
theorem mm_100_50 (X : FVec Ideal S1024x100 .bf16) (W : FVec Ideal S100x50 .bf16) (r : Fin 1024) (e : Fin 50) :
    matmul dot_S1024x100_S100x50_S1024x50_1_0_0_1_n_n none X W (constant S1024x50 .f32 0x00000000#32) (ix2 r e)
      = ∑ k : Fin 100, X (ix2 r k) * W (ix2 k e) := by
  simp only [matmul]
  rw [Ideal.matmul_constant_zero_apply, ← Equiv.sum_comp (ValueIdx.contrEquiv1 dot_S1024x100_S100x50_S1024x50_1_0_0_1_n_n 100 rfl rfl).symm]
  refine Finset.sum_congr rfl fun k _ => ?_
  have hk := ValueIdx.contrEquiv1_symm_val dot_S1024x100_S100x50_S1024x50_1_0_0_1_n_n 100 rfl rfl k
  have el : dot_S1024x100_S100x50_S1024x50_1_0_0_1_n_n.lhsIdx (ix2 r e) ((ValueIdx.contrEquiv1 dot_S1024x100_S100x50_S1024x50_1_0_0_1_n_n 100 rfl rfl).symm k) = ix2 r k :=
    funext fun a => Fin.ext (by
      match a with
      | ⟨0, _⟩ => exact lhs_100_50_0 _ _
      | ⟨1, _⟩ => exact (lhs_100_50_1 _ _).trans hk)
  have er : dot_S1024x100_S100x50_S1024x50_1_0_0_1_n_n.rhsIdx (ix2 r e) ((ValueIdx.contrEquiv1 dot_S1024x100_S100x50_S1024x50_1_0_0_1_n_n 100 rfl rfl).symm k) = ix2 k e :=
    funext fun a => Fin.ext (by
      match a with
      | ⟨0, _⟩ => exact (rhs_100_50_0 _ _).trans hk
      | ⟨1, _⟩ => exact rhs_100_50_1 _ _)
  rw [el, er]

/-- The left operand's row coordinate is the result's row. -/
private theorem lhs_50_256_0 (i : S1024x256.Idx) (q : dot_S1024x50_S50x256_S1024x256_1_0_0_1_n_n.contr.Idx) :
    (dot_S1024x50_S50x256_S1024x256_1_0_0_1_n_n.lhsIdx i q 0).val = (i 0).val := by
  unfold DotDims.lhsIdx
  rw [dif_neg (show ¬(0 : Fin S1024x50.rank) ∈ dot_S1024x50_S50x256_S1024x256_1_0_0_1_n_n.lhsBatch by decide),
    dif_pos (show (0 : Fin S1024x50.rank) ∈ dot_S1024x50_S50x256_S1024x256_1_0_0_1_n_n.lhsNonContracting by decide)]
  rfl
/-- The left operand's column coordinate is the contraction index. -/
private theorem lhs_50_256_1 (i : S1024x256.Idx) (q : dot_S1024x50_S50x256_S1024x256_1_0_0_1_n_n.contr.Idx) :
    (dot_S1024x50_S50x256_S1024x256_1_0_0_1_n_n.lhsIdx i q 1).val = (q ⟨0, by decide⟩).val :=
  dot_S1024x50_S50x256_S1024x256_1_0_0_1_n_n.lhsIdx_val_of_single rfl i q
/-- The right operand's row coordinate is the contraction index. -/
private theorem rhs_50_256_0 (i : S1024x256.Idx) (q : dot_S1024x50_S50x256_S1024x256_1_0_0_1_n_n.contr.Idx) :
    (dot_S1024x50_S50x256_S1024x256_1_0_0_1_n_n.rhsIdx i q 0).val = (q ⟨0, by decide⟩).val :=
  dot_S1024x50_S50x256_S1024x256_1_0_0_1_n_n.rhsIdx_val_of_single rfl i q
/-- The right operand's column coordinate is the result's column. -/
private theorem rhs_50_256_1 (i : S1024x256.Idx) (q : dot_S1024x50_S50x256_S1024x256_1_0_0_1_n_n.contr.Idx) :
    (dot_S1024x50_S50x256_S1024x256_1_0_0_1_n_n.rhsIdx i q 1).val = (i 1).val := by
  unfold DotDims.rhsIdx
  rw [dif_neg (show ¬(1 : Fin S50x256.rank) ∈ dot_S1024x50_S50x256_S1024x256_1_0_0_1_n_n.rhsBatch by decide),
    dif_pos (show (1 : Fin S50x256.rank) ∈ dot_S1024x50_S50x256_S1024x256_1_0_0_1_n_n.rhsNonContracting by decide)]
  rfl

/-- The actor's first product: [1024 × 50] by [50 × 256]. -/
theorem mm_50_256 (X : FVec Ideal S1024x50 .bf16) (W : FVec Ideal S50x256 .bf16) (r : Fin 1024) (e : Fin 256) :
    matmul dot_S1024x50_S50x256_S1024x256_1_0_0_1_n_n none X W (constant S1024x256 .f32 0x00000000#32) (ix2 r e)
      = ∑ k : Fin 50, X (ix2 r k) * W (ix2 k e) := by
  simp only [matmul]
  rw [Ideal.matmul_constant_zero_apply, ← Equiv.sum_comp (ValueIdx.contrEquiv1 dot_S1024x50_S50x256_S1024x256_1_0_0_1_n_n 50 rfl rfl).symm]
  refine Finset.sum_congr rfl fun k _ => ?_
  have hk := ValueIdx.contrEquiv1_symm_val dot_S1024x50_S50x256_S1024x256_1_0_0_1_n_n 50 rfl rfl k
  have el : dot_S1024x50_S50x256_S1024x256_1_0_0_1_n_n.lhsIdx (ix2 r e) ((ValueIdx.contrEquiv1 dot_S1024x50_S50x256_S1024x256_1_0_0_1_n_n 50 rfl rfl).symm k) = ix2 r k :=
    funext fun a => Fin.ext (by
      match a with
      | ⟨0, _⟩ => exact lhs_50_256_0 _ _
      | ⟨1, _⟩ => exact (lhs_50_256_1 _ _).trans hk)
  have er : dot_S1024x50_S50x256_S1024x256_1_0_0_1_n_n.rhsIdx (ix2 r e) ((ValueIdx.contrEquiv1 dot_S1024x50_S50x256_S1024x256_1_0_0_1_n_n 50 rfl rfl).symm k) = ix2 k e :=
    funext fun a => Fin.ext (by
      match a with
      | ⟨0, _⟩ => exact (rhs_50_256_0 _ _).trans hk
      | ⟨1, _⟩ => exact rhs_50_256_1 _ _)
  rw [el, er]

/-- The left operand's row coordinate is the result's row. -/
private theorem lhs_256_400_0 (i : S1024x400.Idx) (q : dot_S1024x256_S256x400_S1024x400_1_0_0_1_n_n.contr.Idx) :
    (dot_S1024x256_S256x400_S1024x400_1_0_0_1_n_n.lhsIdx i q 0).val = (i 0).val := by
  unfold DotDims.lhsIdx
  rw [dif_neg (show ¬(0 : Fin S1024x256.rank) ∈ dot_S1024x256_S256x400_S1024x400_1_0_0_1_n_n.lhsBatch by decide),
    dif_pos (show (0 : Fin S1024x256.rank) ∈ dot_S1024x256_S256x400_S1024x400_1_0_0_1_n_n.lhsNonContracting by decide)]
  rfl
/-- The left operand's column coordinate is the contraction index. -/
private theorem lhs_256_400_1 (i : S1024x400.Idx) (q : dot_S1024x256_S256x400_S1024x400_1_0_0_1_n_n.contr.Idx) :
    (dot_S1024x256_S256x400_S1024x400_1_0_0_1_n_n.lhsIdx i q 1).val = (q ⟨0, by decide⟩).val :=
  dot_S1024x256_S256x400_S1024x400_1_0_0_1_n_n.lhsIdx_val_of_single rfl i q
/-- The right operand's row coordinate is the contraction index. -/
private theorem rhs_256_400_0 (i : S1024x400.Idx) (q : dot_S1024x256_S256x400_S1024x400_1_0_0_1_n_n.contr.Idx) :
    (dot_S1024x256_S256x400_S1024x400_1_0_0_1_n_n.rhsIdx i q 0).val = (q ⟨0, by decide⟩).val :=
  dot_S1024x256_S256x400_S1024x400_1_0_0_1_n_n.rhsIdx_val_of_single rfl i q
/-- The right operand's column coordinate is the result's column. -/
private theorem rhs_256_400_1 (i : S1024x400.Idx) (q : dot_S1024x256_S256x400_S1024x400_1_0_0_1_n_n.contr.Idx) :
    (dot_S1024x256_S256x400_S1024x400_1_0_0_1_n_n.rhsIdx i q 1).val = (i 1).val := by
  unfold DotDims.rhsIdx
  rw [dif_neg (show ¬(1 : Fin S256x400.rank) ∈ dot_S1024x256_S256x400_S1024x400_1_0_0_1_n_n.rhsBatch by decide),
    dif_pos (show (1 : Fin S256x400.rank) ∈ dot_S1024x256_S256x400_S1024x400_1_0_0_1_n_n.rhsNonContracting by decide)]
  rfl

/-- The actor's second product: [1024 × 256] by [256 × 400]. -/
theorem mm_256_400 (X : FVec Ideal S1024x256 .bf16) (W : FVec Ideal S256x400 .bf16) (r : Fin 1024) (e : Fin 400) :
    matmul dot_S1024x256_S256x400_S1024x400_1_0_0_1_n_n none X W (constant S1024x400 .f32 0x00000000#32) (ix2 r e)
      = ∑ k : Fin 256, X (ix2 r k) * W (ix2 k e) := by
  simp only [matmul]
  rw [Ideal.matmul_constant_zero_apply, ← Equiv.sum_comp (ValueIdx.contrEquiv1 dot_S1024x256_S256x400_S1024x400_1_0_0_1_n_n 256 rfl rfl).symm]
  refine Finset.sum_congr rfl fun k _ => ?_
  have hk := ValueIdx.contrEquiv1_symm_val dot_S1024x256_S256x400_S1024x400_1_0_0_1_n_n 256 rfl rfl k
  have el : dot_S1024x256_S256x400_S1024x400_1_0_0_1_n_n.lhsIdx (ix2 r e) ((ValueIdx.contrEquiv1 dot_S1024x256_S256x400_S1024x400_1_0_0_1_n_n 256 rfl rfl).symm k) = ix2 r k :=
    funext fun a => Fin.ext (by
      match a with
      | ⟨0, _⟩ => exact lhs_256_400_0 _ _
      | ⟨1, _⟩ => exact (lhs_256_400_1 _ _).trans hk)
  have er : dot_S1024x256_S256x400_S1024x400_1_0_0_1_n_n.rhsIdx (ix2 r e) ((ValueIdx.contrEquiv1 dot_S1024x256_S256x400_S1024x400_1_0_0_1_n_n 256 rfl rfl).symm k) = ix2 k e :=
    funext fun a => Fin.ext (by
      match a with
      | ⟨0, _⟩ => exact (rhs_256_400_0 _ _).trans hk
      | ⟨1, _⟩ => exact rhs_256_400_1 _ _)
  rw [el, er]

/-- The left operand's row coordinate is the result's row. -/
private theorem lhs_400_256_0 (i : S1024x256.Idx) (q : dot_S1024x400_S400x256_S1024x256_1_0_0_1_n_n.contr.Idx) :
    (dot_S1024x400_S400x256_S1024x256_1_0_0_1_n_n.lhsIdx i q 0).val = (i 0).val := by
  unfold DotDims.lhsIdx
  rw [dif_neg (show ¬(0 : Fin S1024x400.rank) ∈ dot_S1024x400_S400x256_S1024x256_1_0_0_1_n_n.lhsBatch by decide),
    dif_pos (show (0 : Fin S1024x400.rank) ∈ dot_S1024x400_S400x256_S1024x256_1_0_0_1_n_n.lhsNonContracting by decide)]
  rfl
/-- The left operand's column coordinate is the contraction index. -/
private theorem lhs_400_256_1 (i : S1024x256.Idx) (q : dot_S1024x400_S400x256_S1024x256_1_0_0_1_n_n.contr.Idx) :
    (dot_S1024x400_S400x256_S1024x256_1_0_0_1_n_n.lhsIdx i q 1).val = (q ⟨0, by decide⟩).val :=
  dot_S1024x400_S400x256_S1024x256_1_0_0_1_n_n.lhsIdx_val_of_single rfl i q
/-- The right operand's row coordinate is the contraction index. -/
private theorem rhs_400_256_0 (i : S1024x256.Idx) (q : dot_S1024x400_S400x256_S1024x256_1_0_0_1_n_n.contr.Idx) :
    (dot_S1024x400_S400x256_S1024x256_1_0_0_1_n_n.rhsIdx i q 0).val = (q ⟨0, by decide⟩).val :=
  dot_S1024x400_S400x256_S1024x256_1_0_0_1_n_n.rhsIdx_val_of_single rfl i q
/-- The right operand's column coordinate is the result's column. -/
private theorem rhs_400_256_1 (i : S1024x256.Idx) (q : dot_S1024x400_S400x256_S1024x256_1_0_0_1_n_n.contr.Idx) :
    (dot_S1024x400_S400x256_S1024x256_1_0_0_1_n_n.rhsIdx i q 1).val = (i 1).val := by
  unfold DotDims.rhsIdx
  rw [dif_neg (show ¬(1 : Fin S400x256.rank) ∈ dot_S1024x400_S400x256_S1024x256_1_0_0_1_n_n.rhsBatch by decide),
    dif_pos (show (1 : Fin S400x256.rank) ∈ dot_S1024x400_S400x256_S1024x256_1_0_0_1_n_n.rhsNonContracting by decide)]
  rfl

/-- The policy head's first product: [1024 × 400] by [400 × 256]. -/
theorem mm_400_256 (X : FVec Ideal S1024x400 .bf16) (W : FVec Ideal S400x256 .bf16) (r : Fin 1024) (e : Fin 256) :
    matmul dot_S1024x400_S400x256_S1024x256_1_0_0_1_n_n none X W (constant S1024x256 .f32 0x00000000#32) (ix2 r e)
      = ∑ k : Fin 400, X (ix2 r k) * W (ix2 k e) := by
  simp only [matmul]
  rw [Ideal.matmul_constant_zero_apply, ← Equiv.sum_comp (ValueIdx.contrEquiv1 dot_S1024x400_S400x256_S1024x256_1_0_0_1_n_n 400 rfl rfl).symm]
  refine Finset.sum_congr rfl fun k _ => ?_
  have hk := ValueIdx.contrEquiv1_symm_val dot_S1024x400_S400x256_S1024x256_1_0_0_1_n_n 400 rfl rfl k
  have el : dot_S1024x400_S400x256_S1024x256_1_0_0_1_n_n.lhsIdx (ix2 r e) ((ValueIdx.contrEquiv1 dot_S1024x400_S400x256_S1024x256_1_0_0_1_n_n 400 rfl rfl).symm k) = ix2 r k :=
    funext fun a => Fin.ext (by
      match a with
      | ⟨0, _⟩ => exact lhs_400_256_0 _ _
      | ⟨1, _⟩ => exact (lhs_400_256_1 _ _).trans hk)
  have er : dot_S1024x400_S400x256_S1024x256_1_0_0_1_n_n.rhsIdx (ix2 r e) ((ValueIdx.contrEquiv1 dot_S1024x400_S400x256_S1024x256_1_0_0_1_n_n 400 rfl rfl).symm k) = ix2 k e :=
    funext fun a => Fin.ext (by
      match a with
      | ⟨0, _⟩ => exact (rhs_400_256_0 _ _).trans hk
      | ⟨1, _⟩ => exact rhs_400_256_1 _ _)
  rw [el, er]

/-- The left operand's row coordinate is the result's row. -/
private theorem lhs_256_256_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
/-- The left operand's column coordinate is the contraction index. -/
private theorem lhs_256_256_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's row coordinate is the contraction index. -/
private theorem rhs_256_256_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- The right operand's column coordinate is the result's column. -/
private theorem rhs_256_256_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The policy head's second product: [1024 × 256] by [256 × 256]. -/
theorem mm_256_256 (X : FVec Ideal S1024x256 .bf16) (W : FVec Ideal S256x256 .bf16) (r : Fin 1024) (e : Fin 256) :
    matmul dot_S1024x256_S256x256_S1024x256_1_0_0_1_n_n none X W (constant S1024x256 .f32 0x00000000#32) (ix2 r e)
      = ∑ k : Fin 256, X (ix2 r k) * W (ix2 k e) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r e) ((ValueIdx.contrEquiv1 dot_S1024x256_S256x256_S1024x256_1_0_0_1_n_n 256 rfl rfl).symm k) = ix2 r k :=
    funext fun a => Fin.ext (by
      match a with
      | ⟨0, _⟩ => exact lhs_256_256_0 _ _
      | ⟨1, _⟩ => exact (lhs_256_256_1 _ _).trans hk)
  have er : dot_S1024x256_S256x256_S1024x256_1_0_0_1_n_n.rhsIdx (ix2 r e) ((ValueIdx.contrEquiv1 dot_S1024x256_S256x256_S1024x256_1_0_0_1_n_n 256 rfl rfl).symm k) = ix2 k e :=
    funext fun a => Fin.ext (by
      match a with
      | ⟨0, _⟩ => exact (rhs_256_256_0 _ _).trans hk
      | ⟨1, _⟩ => exact rhs_256_256_1 _ _)
  rw [el, er]

/-- The left operand's row coordinate is the result's row. -/
private theorem lhs_256_8_0 (i : S1024x8.Idx) (q : dot_S1024x256_S256x8_S1024x8_1_0_0_1_n_n.contr.Idx) :
    (dot_S1024x256_S256x8_S1024x8_1_0_0_1_n_n.lhsIdx i q 0).val = (i 0).val := by
  unfold DotDims.lhsIdx
  rw [dif_neg (show ¬(0 : Fin S1024x256.rank) ∈ dot_S1024x256_S256x8_S1024x8_1_0_0_1_n_n.lhsBatch by decide),
    dif_pos (show (0 : Fin S1024x256.rank) ∈ dot_S1024x256_S256x8_S1024x8_1_0_0_1_n_n.lhsNonContracting by decide)]
  rfl
/-- The left operand's column coordinate is the contraction index. -/
private theorem lhs_256_8_1 (i : S1024x8.Idx) (q : dot_S1024x256_S256x8_S1024x8_1_0_0_1_n_n.contr.Idx) :
    (dot_S1024x256_S256x8_S1024x8_1_0_0_1_n_n.lhsIdx i q 1).val = (q ⟨0, by decide⟩).val :=
  dot_S1024x256_S256x8_S1024x8_1_0_0_1_n_n.lhsIdx_val_of_single rfl i q
/-- The right operand's row coordinate is the contraction index. -/
private theorem rhs_256_8_0 (i : S1024x8.Idx) (q : dot_S1024x256_S256x8_S1024x8_1_0_0_1_n_n.contr.Idx) :
    (dot_S1024x256_S256x8_S1024x8_1_0_0_1_n_n.rhsIdx i q 0).val = (q ⟨0, by decide⟩).val :=
  dot_S1024x256_S256x8_S1024x8_1_0_0_1_n_n.rhsIdx_val_of_single rfl i q
/-- The right operand's column coordinate is the result's column. -/
private theorem rhs_256_8_1 (i : S1024x8.Idx) (q : dot_S1024x256_S256x8_S1024x8_1_0_0_1_n_n.contr.Idx) :
    (dot_S1024x256_S256x8_S1024x8_1_0_0_1_n_n.rhsIdx i q 1).val = (i 1).val := by
  unfold DotDims.rhsIdx
  rw [dif_neg (show ¬(1 : Fin S256x8.rank) ∈ dot_S1024x256_S256x8_S1024x8_1_0_0_1_n_n.rhsBatch by decide),
    dif_pos (show (1 : Fin S256x8.rank) ∈ dot_S1024x256_S256x8_S1024x8_1_0_0_1_n_n.rhsNonContracting by decide)]
  rfl

/-- The policy head's last product: [1024 × 256] by [256 × 8]. -/
theorem mm_256_8 (X : FVec Ideal S1024x256 .bf16) (W : FVec Ideal S256x8 .bf16) (r : Fin 1024) (e : Fin 8) :
    matmul dot_S1024x256_S256x8_S1024x8_1_0_0_1_n_n none X W (constant S1024x8 .f32 0x00000000#32) (ix2 r e)
      = ∑ k : Fin 256, X (ix2 r k) * W (ix2 k e) := by
  simp only [matmul]
  rw [Ideal.matmul_constant_zero_apply, ← Equiv.sum_comp (ValueIdx.contrEquiv1 dot_S1024x256_S256x8_S1024x8_1_0_0_1_n_n 256 rfl rfl).symm]
  refine Finset.sum_congr rfl fun k _ => ?_
  have hk := ValueIdx.contrEquiv1_symm_val dot_S1024x256_S256x8_S1024x8_1_0_0_1_n_n 256 rfl rfl k
  have el : dot_S1024x256_S256x8_S1024x8_1_0_0_1_n_n.lhsIdx (ix2 r e) ((ValueIdx.contrEquiv1 dot_S1024x256_S256x8_S1024x8_1_0_0_1_n_n 256 rfl rfl).symm k) = ix2 r k :=
    funext fun a => Fin.ext (by
      match a with
      | ⟨0, _⟩ => exact lhs_256_8_0 _ _
      | ⟨1, _⟩ => exact (lhs_256_8_1 _ _).trans hk)
  have er : dot_S1024x256_S256x8_S1024x8_1_0_0_1_n_n.rhsIdx (ix2 r e) ((ValueIdx.contrEquiv1 dot_S1024x256_S256x8_S1024x8_1_0_0_1_n_n 256 rfl rfl).symm k) = ix2 k e :=
    funext fun a => Fin.ext (by
      match a with
      | ⟨0, _⟩ => exact (rhs_256_8_0 _ _).trans hk
      | ⟨1, _⟩ => exact rhs_256_8_1 _ _)
  rw [el, er]

/-! ## The four bias rows

  The vector laid out as a [1 × N] row keeps its entries in order, and repeating that row down the 1024 rows reads it
  at row 0 whatever the result's row. -/

/-- A 50-entry bias as a row, repeated down the rows. -/
theorem bias_50 (b : Vec Ideal S50 .f32) (r : Fin 1024) (e : Fin 50) :
    broadcastTo S1024x50 (shapeCast S1x50 b shapeCasts_S50_S1x50) broadcasts_S1x50_S1024x50 (ix2 r e) = b (ix1 e) :=
  (broadcastTo_1b_ab_apply _ _ r e).trans (shapeCast_a_1a_apply b _ 0 e)

/-- A 256-entry bias as a row, repeated down the rows. -/
theorem bias_256 (b : Vec Ideal S256 .f32) (r : Fin 1024) (e : Fin 256) :
    broadcastTo S1024x256 (shapeCast S1x256 b shapeCasts_S256_S1x256) broadcasts_S1x256_S1024x256 (ix2 r e) = b (ix1 e) :=
  (broadcastTo_1b_ab_apply _ _ r e).trans (shapeCast_a_1a_apply b _ 0 e)

/-- A 400-entry bias as a row, repeated down the rows. -/
theorem bias_400 (b : Vec Ideal S400 .f32) (r : Fin 1024) (e : Fin 400) :
    broadcastTo S1024x400 (shapeCast S1x400 b shapeCasts_S400_S1x400) broadcasts_S1x400_S1024x400 (ix2 r e) = b (ix1 e) :=
  (broadcastTo_1b_ab_apply _ _ r e).trans (shapeCast_a_1a_apply b _ 0 e)

/-- An 8-entry bias as a row, repeated down the rows. -/
theorem bias_8 (b : Vec Ideal S8 .f32) (r : Fin 1024) (e : Fin 8) :
    broadcastTo S1024x8 (shapeCast S1x8 b shapeCasts_S8_S1x8) broadcasts_S1x8_S1024x8 (ix2 r e) = b (ix1 e) :=
  (broadcastTo_1b_ab_apply _ _ r e).trans (shapeCast_a_1a_apply b _ 0 e)

end Cert.KernelIdeal.KValue

end
-- ==== Proof.RowSpec.lean ====
/-
  One row of the network, as a function on the extended reals.

  The network maps a row `o ∈ ℝ^260` of observations and a row `g ∈ ℝ^100` of goal features to eight outputs:
    gate   = σ(g · W_c + b_c)                                        (50 entries, σ the logistic function)
    xₙ     = (o restricted to the 50 columns of object n) ⊙ gate     (n = 0 … 7)
    hₙ     = relu(xₙ · W_a0 + b_a0),   yₙ = relu(hₙ · W_a1 + b_a1)
    pooled = Σₙ yₙ                                                   (the sum over the eight objects)
    out    = tanh(relu(relu(pooled · W_p0 + b_p0) · W_p1 + b_p1) · W_p2 + b_p2)
  Object n's 50 columns are: the 10 body-position columns 0 … 9, the 10 body-velocity columns 130 … 139, the
  object's 15 position columns 10 + 15 n … 24 + 15 n and its 15 velocity columns 140 + 15 n … 154 + 15 n.
  Every row of the batch is treated alike, so a whole array of outputs is this function row by row
  (`arrayOut`). Both programs are shown to compute `arrayOut`.
-/
import Idealize.ShloMosaic.PureOps.Ideal
import Idealize.ShloMosaic.PureOps.Ideal.Laws
import Idealize.ShloMosaic.Lib.ValueIdx

noncomputable section

namespace Cert.RowSpec

open Idealize.ShloMosaic Idealize.ShloMosaic.ValueIdx

/-- The column of the observation row that entry `d` (of 50) of object `n`'s input reads. -/
def featCol (n : Fin 8) (d : Fin 50) : Fin 260 :=
  if h0 : d.val < 10 then ⟨d.val, by omega⟩
  else if h1 : d.val < 20 then ⟨d.val + 120, by omega⟩
  else if h2 : d.val < 35 then ⟨15 * n.val + d.val - 10, by have := n.isLt; omega⟩
  else ⟨15 * n.val + d.val + 105, by have := n.isLt; have := d.isLt; omega⟩

/-- The weights and biases, each as a function of its coordinates. -/
structure Params where
  Wc : Fin 100 → Fin 50 → EReal
  bc : Fin 50 → EReal
  Wa0 : Fin 50 → Fin 256 → EReal
  ba0 : Fin 256 → EReal
  Wa1 : Fin 256 → Fin 400 → EReal
  ba1 : Fin 400 → EReal
  Wp0 : Fin 400 → Fin 256 → EReal
  bp0 : Fin 256 → EReal
  Wp1 : Fin 256 → Fin 256 → EReal
  bp1 : Fin 256 → EReal
  Wp2 : Fin 256 → Fin 8 → EReal
  bp2 : Fin 8 → EReal

/-- The weights and biases read off their arrays. -/
def paramsOf (Wc : (⟨2, ![100, 50]⟩ : Shape).Idx → EReal) (bc : (⟨1, ![50]⟩ : Shape).Idx → EReal)
    (Wa0 : (⟨2, ![50, 256]⟩ : Shape).Idx → EReal) (ba0 : (⟨1, ![256]⟩ : Shape).Idx → EReal)
    (Wa1 : (⟨2, ![256, 400]⟩ : Shape).Idx → EReal) (ba1 : (⟨1, ![400]⟩ : Shape).Idx → EReal)
    (Wp0 : (⟨2, ![400, 256]⟩ : Shape).Idx → EReal) (bp0 : (⟨1, ![256]⟩ : Shape).Idx → EReal)
    (Wp1 : (⟨2, ![256, 256]⟩ : Shape).Idx → EReal) (bp1 : (⟨1, ![256]⟩ : Shape).Idx → EReal)
    (Wp2 : (⟨2, ![256, 8]⟩ : Shape).Idx → EReal) (bp2 : (⟨1, ![8]⟩ : Shape).Idx → EReal) : Params where
  Wc := fun k d => Wc (ix2 k d)
  bc := fun d => bc (ix1 d)
  Wa0 := fun d e => Wa0 (ix2 d e)
  ba0 := fun e => ba0 (ix1 e)
  Wa1 := fun e k => Wa1 (ix2 e k)
  ba1 := fun k => ba1 (ix1 k)
  Wp0 := fun k e => Wp0 (ix2 k e)
  bp0 := fun e => bp0 (ix1 e)
  Wp1 := fun k e => Wp1 (ix2 k e)
  bp1 := fun e => bp1 (ix1 e)
  Wp2 := fun k j => Wp2 (ix2 k j)
  bp2 := fun j => bp2 (ix1 j)

/-- An affine layer at one output coordinate: `x · W + b` at `e`. -/
def dense {K N : Nat} (x : Fin K → EReal) (W : Fin K → Fin N → EReal) (b : Fin N → EReal) (e : Fin N) : EReal :=
  (∑ k : Fin K, x k * W k e) + b e

variable (P : Params) (orow : Fin 260 → EReal) (grow : Fin 100 → EReal)

/-- The attention gate: the logistic function of the goal row's affine image. -/
def gate (d : Fin 50) : EReal := Ideal.logistic (dense grow P.Wc P.bc d)

/-- Object `n`'s gated input: its 50 observation columns times the gate. -/
def objIn (n : Fin 8) (d : Fin 50) : EReal := orow (featCol n d) * gate P grow d

/-- The actor's first layer for object `n`, after its relu. -/
def hidden (n : Fin 8) (e : Fin 256) : EReal := max (dense (objIn P orow grow n) P.Wa0 P.ba0 e) 0

/-- The actor's second layer for object `n`, after its relu. -/
def actor (n : Fin 8) (k : Fin 400) : EReal := max (dense (hidden P orow grow n) P.Wa1 P.ba1 k) 0

/-- The deep-set pooling: the sum over the eight objects. -/
def pooled (k : Fin 400) : EReal := ∑ n : Fin 8, actor P orow grow n k

/-- The policy head's first layer, after its relu. -/
def pi0 (e : Fin 256) : EReal := max (dense (pooled P orow grow) P.Wp0 P.bp0 e) 0

/-- The policy head's second layer, after its relu. -/
def pi1 (e : Fin 256) : EReal := max (dense (pi0 P orow grow) P.Wp1 P.bp1 e) 0

/-- One output row: `tanh` of the policy head's last affine layer. -/
def rowOut (j : Fin 8) : EReal := Ideal.tanh (dense (pi1 P orow grow) P.Wp2 P.bp2 j)

/-- A whole array of outputs over a batch of `B` rows: row `b` of the result is `rowOut` of row `b` of the
    observations and row `b` of the goal features. -/
def arrayOut {B : Nat} (o : (⟨2, ![B, 260]⟩ : Shape).Idx → EReal) (g : (⟨2, ![B, 100]⟩ : Shape).Idx → EReal) :
    (⟨2, ![B, 8]⟩ : Shape).Idx → EReal :=
  fun i => rowOut P (fun c => o (ix2 (i 0) c)) (fun c => g (ix2 (i 0) c)) (i 1)

theorem arrayOut_apply {B : Nat} (o : (⟨2, ![B, 260]⟩ : Shape).Idx → EReal) (g : (⟨2, ![B, 100]⟩ : Shape).Idx → EReal)
    (b : Fin B) (j : Fin 8) :
    arrayOut P o g (ix2 b j) = rowOut P (fun c => o (ix2 b c)) (fun c => g (ix2 b c)) j := rfl

/-- The word of the float `1.0` denotes the extended real `1`. -/
theorem one_f32 : Ideal.ofBits .f32 0x3F800000#32 = 1 := by
  simp [Ideal.ofBits, Ideal.ieee, -EReal.coe_mul]; norm_num

/-- The logistic function written out as the quotient `1 / (1 + e^(-x))`, as a host program spells it. -/
theorem logistic_eq_div (x : EReal) : Ideal.logistic x = Ideal.div 1 (1 + Ideal.exp (-x)) := rfl

end Cert.RowSpec

end
-- ==== Proof.KernelCols.lean ====
/-
  The kernel's per-object input columns read at an index.

  For object n the kernel lays side by side the 20 body columns (columns 0 … 9 and 130 … 139 of the observation
  block), the 15 columns starting at 10 + 15 n and the 15 columns starting at 140 + 15 n. Entry (r, d) of that
  [1024 × 50] block is the observation block at row r and column `featCol n d`.
-/
import proofs.«177284_j28552942584470_1_alg».proof.Proof.Gen.KernelIdeal.Skeleton
import proofs.«177284_j28552942584470_1_alg».proof.Proof.RowSpec
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx

/-- The body columns: entry (r, q) is the observation block at row r, column q for q < 10 and column q + 120 for q ≥ 10. -/
theorem body_apply (x0 : Vec Ideal S1024x260 .f32) (r : Fin 1024) (q : Fin 20) :
    k0_pay3 (F := Ideal) x0 (ix2 r q)
      = x0 (ix2 r ⟨if q.val < 10 then q.val else q.val + 120, by have := q.isLt; split <;> omega⟩) := by
  have hq20 := q.isLt
  unfold k0_pay3
  by_cases hq : q.val < 10
  · -- the first piece: columns 0 … 9
    refine (concatenate_pair_apply_left (t := S1024x20) (s₁ := S1024x10) (s₂ := S1024x10) (1 : Fin 2) _ _ concatenates_S1024x10_S1024x10_S1024x20_d1 (ix2 r q) rfl
      (ix2 r (⟨q.val, hq⟩ : Fin 10)) (fun b => ?_)).trans ?_
    · match b with
      | ⟨0, _⟩ => rfl
      | ⟨1, _⟩ => rfl
    · refine (slice2_axis1_apply 0 x0 slices_S1024x260_o0_0_S1024x10 r (⟨q.val, hq⟩ : Fin 10)
        (⟨q.val, by omega⟩ : Fin 260) (by simp)).trans ?_
      refine congrArg x0 (congrArg (ix2 r) (Fin.ext ?_))
      simp only [if_pos hq]
  · -- the second piece: columns 130 … 139
    refine (concatenate_pair_apply_right (t := S1024x20) (s₁ := S1024x10) (s₂ := S1024x10) (1 : Fin 2) _ _ concatenates_S1024x10_S1024x10_S1024x20_d1 (ix2 r q) rfl rfl
      (ix2 r (⟨q.val - 10, by omega⟩ : Fin 10)) (fun b hb => ?_) ?_).trans ?_
    · match b, hb with
      | ⟨0, _⟩, _ => rfl
      | ⟨1, _⟩, hb => exact absurd rfl hb
    · show q.val - 10 + 10 = q.val
      omega
    · refine (slice2_axis1_apply 130 x0 slices_S1024x260_o0_130_S1024x10 r (⟨q.val - 10, by omega⟩ : Fin 10)
        (⟨q.val + 120, by omega⟩ : Fin 260) (by show q.val + 120 = 130 + (q.val - 10); omega)).trans ?_
      refine congrArg x0 (congrArg (ix2 r) (Fin.ext ?_))
      simp only [if_neg hq]

/-- Object n's 50 input columns: body columns, then its position columns, then its velocity columns. -/
theorem objCols_apply (n : Fin 8) (off0 off1 : Nat) (h0 : off0 = 10 + 15 * n.val) (h1 : off1 = 140 + 15 * n.val)
    (hs0 : S1024x260.Slices ![0, off0] S1024x15) (hs1 : S1024x260.Slices ![0, off1] S1024x15)
    (x0 : Vec Ideal S1024x260 .f32) (r : Fin 1024) (d : Fin 50) :
    concatenate S1024x50 1 [⟨S1024x20, k0_pay3 (F := Ideal) x0⟩, ⟨S1024x15, extractStridedSlice S1024x15 ![0, off0] x0 hs0⟩,
        ⟨S1024x15, extractStridedSlice S1024x15 ![0, off1] x0 hs1⟩] concatenates_S1024x20_S1024x15_S1024x15_S1024x50_d1 (ix2 r d)
      = x0 (ix2 r (RowSpec.featCol n d)) := by
  subst h0; subst h1
  have hn := n.isLt
  have hd := d.isLt
  by_cases hd10 : d.val < 10
  · -- a body column among 0 … 9
    refine (concatenate_apply_piece (t := S1024x50) (1 : Fin 2)
        [⟨S1024x20, k0_pay3 (F := Ideal) x0⟩, ⟨S1024x15, extractStridedSlice S1024x15 ![0, 10 + 15 * n.val] x0 hs0⟩,
        ⟨S1024x15, extractStridedSlice S1024x15 ![0, 140 + 15 * n.val] x0 hs1⟩]
        concatenates_S1024x20_S1024x15_S1024x15_S1024x50_d1
      (ix2 r d) 0 (by show 0 < 3; omega) S1024x20 (k0_pay3 (F := Ideal) x0) rfl rfl 0 rfl
      (ix2 r (⟨d.val, by omega⟩ : Fin 20)) (fun b hb => ?_) ?_).trans ?_
    · match b, hb with
      | ⟨0, _⟩, _ => rfl
      | ⟨1, _⟩, hb => exact absurd rfl hb
    · show 0 + d.val = d.val
      omega
    · refine (body_apply x0 r _).trans (congrArg x0 (congrArg (ix2 r) (Fin.ext ?_)))
      show (if d.val < 10 then d.val else d.val + 120) = (RowSpec.featCol n d).val
      rw [RowSpec.featCol, dif_pos hd10, if_pos hd10]
  · by_cases hd20 : d.val < 20
    · -- a body column among 130 … 139
      refine (concatenate_apply_piece (t := S1024x50) (1 : Fin 2)
        [⟨S1024x20, k0_pay3 (F := Ideal) x0⟩, ⟨S1024x15, extractStridedSlice S1024x15 ![0, 10 + 15 * n.val] x0 hs0⟩,
        ⟨S1024x15, extractStridedSlice S1024x15 ![0, 140 + 15 * n.val] x0 hs1⟩]
        concatenates_S1024x20_S1024x15_S1024x15_S1024x50_d1
        (ix2 r d) 0 (by show 0 < 3; omega) S1024x20 (k0_pay3 (F := Ideal) x0) rfl rfl 0 rfl
        (ix2 r (⟨d.val, by omega⟩ : Fin 20)) (fun b hb => ?_) ?_).trans ?_
      · match b, hb with
        | ⟨0, _⟩, _ => rfl
        | ⟨1, _⟩, hb => exact absurd rfl hb
      · show 0 + d.val = d.val
        omega
      · refine (body_apply x0 r _).trans (congrArg x0 (congrArg (ix2 r) (Fin.ext ?_)))
        show (if d.val < 10 then d.val else d.val + 120) = (RowSpec.featCol n d).val
        rw [RowSpec.featCol, dif_neg hd10, dif_pos hd20, if_neg hd10]
    · by_cases hd35 : d.val < 35
      · -- a position column of object n
        refine (concatenate_apply_piece (t := S1024x50) (1 : Fin 2)
        [⟨S1024x20, k0_pay3 (F := Ideal) x0⟩, ⟨S1024x15, extractStridedSlice S1024x15 ![0, 10 + 15 * n.val] x0 hs0⟩,
        ⟨S1024x15, extractStridedSlice S1024x15 ![0, 140 + 15 * n.val] x0 hs1⟩]
        concatenates_S1024x20_S1024x15_S1024x15_S1024x50_d1
          (ix2 r d) 1 (by show 1 < 3; omega) S1024x15 (extractStridedSlice S1024x15 ![0, 10 + 15 * n.val] x0 hs0) rfl rfl 20 rfl
          (ix2 r (⟨d.val - 20, by omega⟩ : Fin 15)) (fun b hb => ?_) ?_).trans ?_
        · match b, hb with
          | ⟨0, _⟩, _ => rfl
          | ⟨1, _⟩, hb => exact absurd rfl hb
        · show 20 + (d.val - 20) = d.val
          omega
        · refine (slice2_axis1_apply (10 + 15 * n.val) x0 hs0 r (⟨d.val - 20, by omega⟩ : Fin 15)
            (RowSpec.featCol n d) ?_)
          rw [RowSpec.featCol, dif_neg hd10, dif_neg hd20, dif_pos hd35]
          show 15 * n.val + d.val - 10 = 10 + 15 * n.val + (d.val - 20)
          omega
      · -- a velocity column of object n
        refine (concatenate_apply_piece (t := S1024x50) (1 : Fin 2)
        [⟨S1024x20, k0_pay3 (F := Ideal) x0⟩, ⟨S1024x15, extractStridedSlice S1024x15 ![0, 10 + 15 * n.val] x0 hs0⟩,
        ⟨S1024x15, extractStridedSlice S1024x15 ![0, 140 + 15 * n.val] x0 hs1⟩]
        concatenates_S1024x20_S1024x15_S1024x15_S1024x50_d1
          (ix2 r d) 2 (by show 2 < 3; omega) S1024x15 (extractStridedSlice S1024x15 ![0, 140 + 15 * n.val] x0 hs1) rfl rfl 35 rfl
          (ix2 r (⟨d.val - 35, by omega⟩ : Fin 15)) (fun b hb => ?_) ?_).trans ?_
        · match b, hb with
          | ⟨0, _⟩, _ => rfl
          | ⟨1, _⟩, hb => exact absurd rfl hb
        · show 35 + (d.val - 35) = d.val
          omega
        · refine (slice2_axis1_apply (140 + 15 * n.val) x0 hs1 r (⟨d.val - 35, by omega⟩ : Fin 15)
            (RowSpec.featCol n d) ?_)
          rw [RowSpec.featCol, dif_neg hd10, dif_neg hd20, dif_neg hd35]
          show 15 * n.val + d.val + 105 = 140 + 15 * n.val + (d.val - 35)
          omega

end Cert.KernelIdeal.KValue

end
-- ==== Proof.KernelRow.lean ====
/-
  The value the kernel's body stores, read at an index, is the row function.

  `stored` is the body's one stored value as a term of the fourteen blocks it loads (the observation block, the goal
  block, and the twelve weight and bias arrays). Row r of it depends only on row r of the observation block and row r
  of the goal block, and is `RowSpec.rowOut` of those rows: `stored_eq`.
-/
import proofs.«177284_j28552942584470_1_alg».proof.Proof.Gen.KernelIdeal.Skeleton
import proofs.«177284_j28552942584470_1_alg».proof.Proof.KernelLayers
import proofs.«177284_j28552942584470_1_alg».proof.Proof.KernelCols
import proofs.«177284_j28552942584470_1_alg».proof.Proof.RowSpec

noncomputable section

namespace Cert.KernelIdeal.KValue

open Cert.KernelIdeal Cert.KernelIdeal.Gen Idealize.ShloMosaic Idealize.ShloMosaic.ValueIdx

variable {F : FTy → Type} [FloatOps F]

/-- The value the body stores into the output block, from the fourteen blocks it loads. -/
def stored (x0 : Vec F S1024x260 .f32) (x1 : Vec F S1024x100 .f32) (x2 : Vec F S100x50 .f32) (x3 : Vec F S50 .f32)
    (x4 : Vec F S50x256 .f32) (x5 : Vec F S256 .f32) (x6 : Vec F S256x400 .f32) (x7 : Vec F S400 .f32)
    (x8 : Vec F S400x256 .f32) (x9 : Vec F S256 .f32) (x10 : Vec F S256x256 .f32) (x11 : Vec F S256 .f32)
    (x12 : Vec F S256x8 .f32) (x13 : Vec F S8 .f32) : FVec F S1024x8 .f32 :=
  k0_pay1 (k0_pay13 x12) (k0_pay14 x13) (k0_pay15 x0 (k0_pay2 x1 x2 x3) (k0_pay3 x0) (k0_pay4 x4) (k0_pay5 x5) (k0_pay6 x6) (k0_pay7 x7) (k0_pay11 x0 (k0_pay2 x1 x2 x3) (k0_pay3 x0) (k0_pay4 x4) (k0_pay5 x5) (k0_pay6 x6) (k0_pay7 x7) (k0_pay9 x0 (k0_pay2 x1 x2 x3) (k0_pay3 x0) (k0_pay4 x4) (k0_pay5 x5) (k0_pay6 x6) (k0_pay7 x7) (k0_pay8 x0 x1 x2 x3 x4 x5 x6 x7)) (k0_pay10 x0 (k0_pay2 x1 x2 x3) (k0_pay3 x0) (k0_pay4 x4) (k0_pay5 x5) (k0_pay6 x6) (k0_pay7 x7)) (Scalar.ofBits .f32 0x00000000#32)) (k0_pay12 x0 (k0_pay2 x1 x2 x3) (k0_pay3 x0) (k0_pay4 x4) (k0_pay5 x5) (k0_pay6 x6)) x8 x9 x10) (k0_pay16 x11)

section AtIdeal

variable (x0 : Vec Ideal S1024x260 .f32) (x1 : Vec Ideal S1024x100 .f32) (x2 : Vec Ideal S100x50 .f32) (x3 : Vec Ideal S50 .f32)
    (x4 : Vec Ideal S50x256 .f32) (x5 : Vec Ideal S256 .f32) (x6 : Vec Ideal S256x400 .f32) (x7 : Vec Ideal S400 .f32)
    (x8 : Vec Ideal S400x256 .f32) (x9 : Vec Ideal S256 .f32) (x10 : Vec Ideal S256x256 .f32) (x11 : Vec Ideal S256 .f32)
    (x12 : Vec Ideal S256x8 .f32) (x13 : Vec Ideal S8 .f32)

local notation "Pm" => RowSpec.paramsOf x2 x3 x4 x5 x6 x7 x8 x9 x10 x11 x12 x13

/-! ### One object's pass, generic in its two slice offsets -/

/-- An object's gated input block: its 50 observation columns times the gate. -/
def objX (off0 off1 : Nat) (hs0 : S1024x260.Slices ![0, off0] S1024x15) (hs1 : S1024x260.Slices ![0, off1] S1024x15) :
    FVec Ideal S1024x50 .bf16 :=
  truncf .bf16 (mulf (concatenate S1024x50 1 [⟨S1024x20, k0_pay3 (F := Ideal) x0⟩,
      ⟨S1024x15, extractStridedSlice S1024x15 ![0, off0] x0 hs0⟩, ⟨S1024x15, extractStridedSlice S1024x15 ![0, off1] x0 hs1⟩]
      concatenates_S1024x20_S1024x15_S1024x15_S1024x50_d1) (k0_pay2 x1 x2 x3)) bitsLt_bf16_f32

/-- The first layer of an object's pass, after its relu. -/
def hid (off0 off1 : Nat) (hs0 : S1024x260.Slices ![0, off0] S1024x15) (hs1 : S1024x260.Slices ![0, off1] S1024x15) :
    FVec Ideal S1024x256 .bf16 :=
  truncf .bf16 (maximumf (addf (matmul dot_S1024x50_S50x256_S1024x256_1_0_0_1_n_n none (objX x0 x1 x2 x3 off0 off1 hs0 hs1)
      (k0_pay4 x4) (constant (F := Ideal) S1024x256 .f32 0x00000000#32))
      (broadcastTo S1024x256 (k0_pay5 x5) broadcasts_S1x256_S1024x256))
      (broadcast S1024x256 (Scalar.ofBits .f32 0x00000000#32))) bitsLt_bf16_f32

/-- The second layer's product, before its bias. -/
def passMM (off0 off1 : Nat) (hs0 : S1024x260.Slices ![0, off0] S1024x15) (hs1 : S1024x260.Slices ![0, off1] S1024x15) :
    FVec Ideal S1024x400 .f32 :=
  matmul dot_S1024x256_S256x400_S1024x400_1_0_0_1_n_n none (hid x0 x1 x2 x3 x4 x5 off0 off1 hs0 hs1) (k0_pay6 x6)
    (constant (F := Ideal) S1024x400 .f32 0x00000000#32)

/-- The second layer with its bias, before its relu. -/
def passLin (off0 off1 : Nat) (hs0 : S1024x260.Slices ![0, off0] S1024x15) (hs1 : S1024x260.Slices ![0, off1] S1024x15) :
    FVec Ideal S1024x400 .f32 :=
  addf (passMM x0 x1 x2 x3 x4 x5 x6 off0 off1 hs0 hs1) (broadcastTo S1024x400 (k0_pay7 x7) broadcasts_S1x400_S1024x400)

/-- The whole pass of one object. -/
def passAct (off0 off1 : Nat) (hs0 : S1024x260.Slices ![0, off0] S1024x15) (hs1 : S1024x260.Slices ![0, off1] S1024x15) :
    FVec Ideal S1024x400 .f32 :=
  maximumf (passLin x0 x1 x2 x3 x4 x5 x6 x7 off0 off1 hs0 hs1) (broadcast S1024x400 (Scalar.ofBits .f32 0x00000000#32))

/-- The gate block at (r, d) is the gate of the goal block's row r. -/
theorem gate_apply (r : Fin 1024) (d : Fin 50) :
    k0_pay2 x1 x2 x3 (ix2 r d) = RowSpec.gate Pm (fun c => x1 (ix2 r c)) d :=
  congrArg Ideal.logistic (congrArg₂ (· + ·)
    (mm_100_50 (truncf .bf16 x1 bitsLt_bf16_f32) (truncf .bf16 x2 bitsLt_bf16_f32) r d) (bias_50 x3 r d))

/-- An object's gated input at (r, d). -/
theorem objX_apply (n : Fin 8) (off0 off1 : Nat) (h0 : off0 = 10 + 15 * n.val) (h1 : off1 = 140 + 15 * n.val)
    (hs0 : S1024x260.Slices ![0, off0] S1024x15) (hs1 : S1024x260.Slices ![0, off1] S1024x15) (r : Fin 1024) (d : Fin 50) :
    objX x0 x1 x2 x3 off0 off1 hs0 hs1 (ix2 r d)
      = RowSpec.objIn Pm (fun c => x0 (ix2 r c)) (fun c => x1 (ix2 r c)) n d :=
  congrArg₂ (· * ·) (objCols_apply n off0 off1 h0 h1 hs0 hs1 x0 r d)
    (gate_apply x1 x2 x3 x4 x5 x6 x7 x8 x9 x10 x11 x12 x13 r d)

/-- An object's first layer at (r, e). -/
theorem hid_apply (n : Fin 8) (off0 off1 : Nat) (h0 : off0 = 10 + 15 * n.val) (h1 : off1 = 140 + 15 * n.val)
    (hs0 : S1024x260.Slices ![0, off0] S1024x15) (hs1 : S1024x260.Slices ![0, off1] S1024x15) (r : Fin 1024) (e : Fin 256) :
    hid x0 x1 x2 x3 x4 x5 off0 off1 hs0 hs1 (ix2 r e)
      = RowSpec.hidden Pm (fun c => x0 (ix2 r c)) (fun c => x1 (ix2 r c)) n e := by
  refine (congrArg₂ max (congrArg₂ (· + ·)
    (mm_50_256 (objX x0 x1 x2 x3 off0 off1 hs0 hs1) (k0_pay4 x4) r e) (bias_256 x5 r e)) Ideal.ofBits_zero_f32).trans ?_
  show _ = max ((∑ d : Fin 50, RowSpec.objIn Pm (fun c => x0 (ix2 r c)) (fun c => x1 (ix2 r c)) n d * x4 (ix2 d e))
    + x5 (ix1 e)) 0
  refine congrArg (fun s => max (s + x5 (ix1 e)) 0) (Finset.sum_congr rfl fun d _ => ?_)
  exact congrArg (· * x4 (ix2 d e)) (objX_apply x0 x1 x2 x3 x4 x5 x6 x7 x8 x9 x10 x11 x12 x13 n off0 off1 h0 h1 hs0 hs1 r d)

/-- An object's second layer, before its relu, at (r, k). -/
theorem passLin_apply (n : Fin 8) (off0 off1 : Nat) (h0 : off0 = 10 + 15 * n.val) (h1 : off1 = 140 + 15 * n.val)
    (hs0 : S1024x260.Slices ![0, off0] S1024x15) (hs1 : S1024x260.Slices ![0, off1] S1024x15) (r : Fin 1024) (k : Fin 400) :
    passLin x0 x1 x2 x3 x4 x5 x6 x7 off0 off1 hs0 hs1 (ix2 r k)
      = RowSpec.dense (RowSpec.hidden Pm (fun c => x0 (ix2 r c)) (fun c => x1 (ix2 r c)) n) (Pm).Wa1 (Pm).ba1 k := by
  refine (congrArg₂ (· + ·)
    (mm_256_400 (hid x0 x1 x2 x3 x4 x5 off0 off1 hs0 hs1) (k0_pay6 x6) r k) (bias_400 x7 r k)).trans ?_
  show _ = (∑ e : Fin 256, RowSpec.hidden Pm (fun c => x0 (ix2 r c)) (fun c => x1 (ix2 r c)) n e * x6 (ix2 e k))
    + x7 (ix1 k)
  refine congrArg (fun s => s + x7 (ix1 k)) (Finset.sum_congr rfl fun e _ => ?_)
  exact congrArg (· * x6 (ix2 e k)) (hid_apply x0 x1 x2 x3 x4 x5 x6 x7 x8 x9 x10 x11 x12 x13 n off0 off1 h0 h1 hs0 hs1 r e)

/-- An object's whole pass at (r, k) is the actor's output for that object. -/
theorem passAct_apply (n : Fin 8) (off0 off1 : Nat) (h0 : off0 = 10 + 15 * n.val) (h1 : off1 = 140 + 15 * n.val)
    (hs0 : S1024x260.Slices ![0, off0] S1024x15) (hs1 : S1024x260.Slices ![0, off1] S1024x15) (r : Fin 1024) (k : Fin 400) :
    passAct x0 x1 x2 x3 x4 x5 x6 x7 off0 off1 hs0 hs1 (ix2 r k)
      = RowSpec.actor Pm (fun c => x0 (ix2 r c)) (fun c => x1 (ix2 r c)) n k :=
  congrArg₂ max (passLin_apply x0 x1 x2 x3 x4 x5 x6 x7 x8 x9 x10 x11 x12 x13 n off0 off1 h0 h1 hs0 hs1 r k)
    Ideal.ofBits_zero_f32

/-! ### The sum over the eight objects -/

/-- The accumulator after the eight passes, as the body adds them up from the zero splat. -/
def accAll : FVec Ideal S1024x400 .f32 :=
  addf (addf (addf (addf (addf (addf (addf (addf (broadcast S1024x400 (Scalar.ofBits .f32 0x00000000#32))
    (passAct x0 x1 x2 x3 x4 x5 x6 x7 10 140 slices_S1024x260_o0_10_S1024x15 slices_S1024x260_o0_140_S1024x15))
    (passAct x0 x1 x2 x3 x4 x5 x6 x7 25 155 slices_S1024x260_o0_25_S1024x15 slices_S1024x260_o0_155_S1024x15))
    (passAct x0 x1 x2 x3 x4 x5 x6 x7 40 170 slices_S1024x260_o0_40_S1024x15 slices_S1024x260_o0_170_S1024x15))
    (passAct x0 x1 x2 x3 x4 x5 x6 x7 55 185 slices_S1024x260_o0_55_S1024x15 slices_S1024x260_o0_185_S1024x15))
    (passAct x0 x1 x2 x3 x4 x5 x6 x7 70 200 slices_S1024x260_o0_70_S1024x15 slices_S1024x260_o0_200_S1024x15))
    (passAct x0 x1 x2 x3 x4 x5 x6 x7 85 215 slices_S1024x260_o0_85_S1024x15 slices_S1024x260_o0_215_S1024x15))
    (passAct x0 x1 x2 x3 x4 x5 x6 x7 100 230 slices_S1024x260_o0_100_S1024x15 slices_S1024x260_o0_230_S1024x15))
    (passAct x0 x1 x2 x3 x4 x5 x6 x7 115 245 slices_S1024x260_o0_115_S1024x15 slices_S1024x260_o0_245_S1024x15)

/-- The accumulator at (r, k) is the pooled sum of the eight objects' outputs. -/
theorem accAll_apply (r : Fin 1024) (k : Fin 400) :
    accAll x0 x1 x2 x3 x4 x5 x6 x7 (ix2 r k)
      = RowSpec.pooled Pm (fun c => x0 (ix2 r c)) (fun c => x1 (ix2 r c)) k := by
  have e0 := passAct_apply x0 x1 x2 x3 x4 x5 x6 x7 x8 x9 x10 x11 x12 x13 0 10 140 (by decide) (by decide)
    slices_S1024x260_o0_10_S1024x15 slices_S1024x260_o0_140_S1024x15 r k
  have e1 := passAct_apply x0 x1 x2 x3 x4 x5 x6 x7 x8 x9 x10 x11 x12 x13 1 25 155 (by decide) (by decide)
    slices_S1024x260_o0_25_S1024x15 slices_S1024x260_o0_155_S1024x15 r k
  have e2 := passAct_apply x0 x1 x2 x3 x4 x5 x6 x7 x8 x9 x10 x11 x12 x13 2 40 170 (by decide) (by decide)
    slices_S1024x260_o0_40_S1024x15 slices_S1024x260_o0_170_S1024x15 r k
  have e3 := passAct_apply x0 x1 x2 x3 x4 x5 x6 x7 x8 x9 x10 x11 x12 x13 3 55 185 (by decide) (by decide)
    slices_S1024x260_o0_55_S1024x15 slices_S1024x260_o0_185_S1024x15 r k
  have e4 := passAct_apply x0 x1 x2 x3 x4 x5 x6 x7 x8 x9 x10 x11 x12 x13 4 70 200 (by decide) (by decide)
    slices_S1024x260_o0_70_S1024x15 slices_S1024x260_o0_200_S1024x15 r k
  have e5 := passAct_apply x0 x1 x2 x3 x4 x5 x6 x7 x8 x9 x10 x11 x12 x13 5 85 215 (by decide) (by decide)
    slices_S1024x260_o0_85_S1024x15 slices_S1024x260_o0_215_S1024x15 r k
  have e6 := passAct_apply x0 x1 x2 x3 x4 x5 x6 x7 x8 x9 x10 x11 x12 x13 6 100 230 (by decide) (by decide)
    slices_S1024x260_o0_100_S1024x15 slices_S1024x260_o0_230_S1024x15 r k
  have e7 := passAct_apply x0 x1 x2 x3 x4 x5 x6 x7 x8 x9 x10 x11 x12 x13 7 115 245 (by decide) (by decide)
    slices_S1024x260_o0_115_S1024x15 slices_S1024x260_o0_245_S1024x15 r k
  have hz : Ideal.ofBits .f32 0x00000000#32 = 0 := Ideal.ofBits_zero_f32
  refine (congrArg₂ (· + ·) (congrArg₂ (· + ·) (congrArg₂ (· + ·) (congrArg₂ (· + ·) (congrArg₂ (· + ·)
    (congrArg₂ (· + ·) (congrArg₂ (· + ·) (congrArg₂ (· + ·) hz e0) e1) e2) e3) e4) e5) e6) e7).trans ?_
  rw [zero_add]
  show _ = ∑ n : Fin 8, RowSpec.actor Pm (fun c => x0 (ix2 r c)) (fun c => x1 (ix2 r c)) n k
  rw [Fin.sum_univ_eight]

/-! ### The policy head -/

/-- The head's first layer, after its relu, over an accumulator block. -/
def head0 (acc : FVec Ideal S1024x400 .f32) : FVec Ideal S1024x256 .bf16 :=
  truncf .bf16 (maximumf (addf (matmul dot_S1024x400_S400x256_S1024x256_1_0_0_1_n_n none (truncf .bf16 acc bitsLt_bf16_f32)
      (truncf .bf16 x8 bitsLt_bf16_f32) (constant (F := Ideal) S1024x256 .f32 0x00000000#32))
      (broadcastTo S1024x256 (shapeCast S1x256 x9 shapeCasts_S256_S1x256) broadcasts_S1x256_S1024x256))
      (broadcast S1024x256 (Scalar.ofBits .f32 0x00000000#32))) bitsLt_bf16_f32

/-- The head's second layer, after its relu. -/
def head1 (h : FVec Ideal S1024x256 .bf16) : FVec Ideal S1024x256 .bf16 :=
  truncf .bf16 (maximumf (addf (matmul dot_S1024x256_S256x256_S1024x256_1_0_0_1_n_n none h
      (truncf .bf16 x10 bitsLt_bf16_f32) (constant (F := Ideal) S1024x256 .f32 0x00000000#32)) (k0_pay16 x11))
      (broadcast S1024x256 (Scalar.ofBits .f32 0x00000000#32))) bitsLt_bf16_f32

/-- The head's last layer and its tanh. -/
def head2 (h : FVec Ideal S1024x256 .bf16) : FVec Ideal S1024x8 .f32 :=
  tanh (addf (matmul dot_S1024x256_S256x8_S1024x8_1_0_0_1_n_n none h (k0_pay13 x12)
      (constant (F := Ideal) S1024x8 .f32 0x00000000#32)) (broadcastTo S1024x8 (k0_pay14 x13) broadcasts_S1x8_S1024x8))

variable (orow : Fin 260 → EReal) (grow : Fin 100 → EReal)

/-- The head's first layer at (r, e), over an accumulator whose row r is the pooled sum. -/
theorem head0_apply (acc : FVec Ideal S1024x400 .f32) (r : Fin 1024)
    (hacc : ∀ k : Fin 400, acc (ix2 r k) = RowSpec.pooled Pm orow grow k) (e : Fin 256) :
    head0 x8 x9 acc (ix2 r e) = RowSpec.pi0 Pm orow grow e := by
  refine (congrArg₂ max (congrArg₂ (· + ·)
    (mm_400_256 (truncf .bf16 acc bitsLt_bf16_f32) (truncf .bf16 x8 bitsLt_bf16_f32) r e) (bias_256 x9 r e))
    Ideal.ofBits_zero_f32).trans ?_
  show _ = max ((∑ k : Fin 400, RowSpec.pooled Pm orow grow k * x8 (ix2 k e)) + x9 (ix1 e)) 0
  refine congrArg (fun s => max (s + x9 (ix1 e)) 0) (Finset.sum_congr rfl fun k _ => ?_)
  exact congrArg (· * x8 (ix2 k e)) (hacc k)

/-- The head's second layer at (r, e), over a block whose row r is the first layer. -/
theorem head1_apply (h : FVec Ideal S1024x256 .bf16) (r : Fin 1024)
    (hh : ∀ e : Fin 256, h (ix2 r e) = RowSpec.pi0 Pm orow grow e) (e : Fin 256) :
    head1 x10 x11 h (ix2 r e) = RowSpec.pi1 Pm orow grow e := by
  refine (congrArg₂ max (congrArg₂ (· + ·)
    (mm_256_256 h (truncf .bf16 x10 bitsLt_bf16_f32) r e) (bias_256 x11 r e))
    Ideal.ofBits_zero_f32).trans ?_
  show _ = max ((∑ k : Fin 256, RowSpec.pi0 Pm orow grow k * x10 (ix2 k e)) + x11 (ix1 e)) 0
  refine congrArg (fun s => max (s + x11 (ix1 e)) 0) (Finset.sum_congr rfl fun k _ => ?_)
  exact congrArg (· * x10 (ix2 k e)) (hh k)

/-- The head's output at (r, j), over a block whose row r is the second layer. -/
theorem head2_apply (h : FVec Ideal S1024x256 .bf16) (r : Fin 1024)
    (hh : ∀ e : Fin 256, h (ix2 r e) = RowSpec.pi1 Pm orow grow e) (j : Fin 8) :
    head2 x12 x13 h (ix2 r j) = RowSpec.rowOut Pm orow grow j := by
  refine (congrArg Ideal.tanh (congrArg₂ (· + ·)
    (mm_256_8 h (k0_pay13 x12) r j) (bias_8 x13 r j))).trans ?_
  show _ = Ideal.tanh ((∑ k : Fin 256, RowSpec.pi1 Pm orow grow k * x12 (ix2 k j)) + x13 (ix1 j))
  refine congrArg (fun s => Ideal.tanh (s + x13 (ix1 j))) (Finset.sum_congr rfl fun k _ => ?_)
  exact congrArg (· * x12 (ix2 k j)) (hh k)

/-- The stored value is the head over the accumulator: the payloads unfold to exactly this term. -/
theorem stored_flat :
    stored x0 x1 x2 x3 x4 x5 x6 x7 x8 x9 x10 x11 x12 x13
      = head2 x12 x13 (head1 x10 x11 (head0 x8 x9 (accAll x0 x1 x2 x3 x4 x5 x6 x7))) := rfl

end AtIdeal

/-- The stored block is the row function, row by row. -/
theorem stored_eq (x0 : Vec Ideal S1024x260 .f32) (x1 : Vec Ideal S1024x100 .f32) (x2 : Vec Ideal S100x50 .f32) (x3 : Vec Ideal S50 .f32)
    (x4 : Vec Ideal S50x256 .f32) (x5 : Vec Ideal S256 .f32) (x6 : Vec Ideal S256x400 .f32) (x7 : Vec Ideal S400 .f32)
    (x8 : Vec Ideal S400x256 .f32) (x9 : Vec Ideal S256 .f32) (x10 : Vec Ideal S256x256 .f32) (x11 : Vec Ideal S256 .f32)
    (x12 : Vec Ideal S256x8 .f32) (x13 : Vec Ideal S8 .f32) :
    stored x0 x1 x2 x3 x4 x5 x6 x7 x8 x9 x10 x11 x12 x13
      = RowSpec.arrayOut (RowSpec.paramsOf x2 x3 x4 x5 x6 x7 x8 x9 x10 x11 x12 x13) x0 x1 := by
  funext i
  obtain ⟨r, j, rfl⟩ : ∃ (r : Fin 1024) (j : Fin 8), i = ix2 r j := ⟨i 0, i 1, eq_ix2 i⟩
  rw [stored_flat, RowSpec.arrayOut_apply]
  exact head2_apply x2 x3 x4 x5 x6 x7 x8 x9 x10 x11 x12 x13 (fun c => x0 (ix2 r c)) (fun c => x1 (ix2 r c)) _ r
    (head1_apply x2 x3 x4 x5 x6 x7 x8 x9 x10 x11 x12 x13 _ _ _ r
      (head0_apply x2 x3 x4 x5 x6 x7 x8 x9 x10 x11 x12 x13 _ _ _ r
        (accAll_apply x0 x1 x2 x3 x4 x5 x6 x7 x8 x9 x10 x11 x12 x13 r))) j

end Cert.KernelIdeal.KValue

end
-- ==== Proof.KernelArray.lean ====
/-
  From the kernel's blocks to its whole output array.

  The grid has 64 points; point t works on rows 1024 t … 1024 t + 1023 of the observations and of the goal features,
  with every weight and bias array whole, and writes rows 1024 t … 1024 t + 1023 of the output. What it writes is
  the row function of its blocks' rows (Proof/KernelRow.lean), which are the arrays' rows; the 64 blocks cover the
  output array; so after the run the output array is `RowSpec.arrayOut` of the argument arrays.
-/
import proofs.«177284_j28552942584470_1_alg».proof.Proof.Gen.KernelIdeal.Value
import proofs.«177284_j28552942584470_1_alg».proof.Proof.KernelRow
import proofs.«177284_j28552942584470_1_alg».proof.Proof.RowSpec
import Idealize.ShloMosaic.Lib.Pipeline.Value

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Value Idealize.ShloMosaic.ValueIdx

variable (m : (ℓ : Loc nD τ sig) → Buf (Elt Ideal) ℓ) (ρ : Dev nD → PrngReg)

/-- The output array the kernel ends with: the row function of the argument arrays, row by row. -/
abbrev G (c : Dev nD) : S65536x8.Idx → Elt Ideal .f32 :=
  RowSpec.arrayOut (RowSpec.paramsOf (V m c main_arg2) (V m c main_arg3) (V m c main_arg4) (V m c main_arg5) (V m c main_arg6) (V m c main_arg7) (V m c main_arg8) (V m c main_arg9) (V m c main_arg10) (V m c main_arg11) (V m c main_arg12) (V m c main_arg13)) (V m c main_arg0) (V m c main_arg1)

theorem hz2 : (![0, 0] : Fin 2 → Nat) = fun _ => 0 := funext fun a => by fin_cases a <;> rfl
theorem hz1 : (![0] : Fin 1 → Nat) = fun _ => 0 := funext fun a => by fin_cases a; rfl

theorem t_lt (t : Fin cfg0.N) : t.val < 64 := lt_of_lt_of_eq t.isLt N_0

/-! ## The weight and bias windows: one block, the whole array -/

theorem wfacts2 : ∀ t : Fin cfg0.N, win0_2.index t (0 : Fin 2) = 0 ∧ win0_2.index t (1 : Fin 2) = 0 :=
  (by decide +kernel : ∀ t : Fin grid0.N, _)

/-- Window 2 has one block, the whole array. -/
theorem wblk2 (c : Dev nD) (t : Fin cfg0.N) : (iblk m c 2 t : Vec Ideal S100x50 .f32) = V m c main_arg2 := by
  funext x
  unfold iblk
  rw [View.read_apply]
  show V m c main_arg2 _ = V m c main_arg2 x
  congr 1
  funext a
  apply Fin.ext
  match a with
    | ⟨0, _⟩ => show win0_2.index t (0 : Fin 2) * S100x50.size 0 + 1 * (x 0).val = (x 0).val; rw [(wfacts2 t).1]; omega
    | ⟨1, _⟩ => show win0_2.index t (1 : Fin 2) * S100x50.size 1 + 1 * (x 1).val = (x 1).val; rw [(wfacts2 t).2]; omega

theorem wfacts3 : ∀ t : Fin cfg0.N, win0_3.index t (0 : Fin 1) = 0 :=
  (by decide +kernel : ∀ t : Fin grid0.N, _)

/-- Window 3 has one block, the whole array. -/
theorem wblk3 (c : Dev nD) (t : Fin cfg0.N) : (iblk m c 3 t : Vec Ideal S50 .f32) = V m c main_arg3 := by
  funext x
  unfold iblk
  rw [View.read_apply]
  show V m c main_arg3 _ = V m c main_arg3 x
  congr 1
  funext a
  apply Fin.ext
  match a with
    | ⟨0, _⟩ => show win0_3.index t (0 : Fin 1) * S50.size 0 + 1 * (x 0).val = (x 0).val; rw [wfacts3 t]; omega

theorem wfacts4 : ∀ t : Fin cfg0.N, win0_4.index t (0 : Fin 2) = 0 ∧ win0_4.index t (1 : Fin 2) = 0 :=
  (by decide +kernel : ∀ t : Fin grid0.N, _)

/-- Window 4 has one block, the whole array. -/
theorem wblk4 (c : Dev nD) (t : Fin cfg0.N) : (iblk m c 4 t : Vec Ideal S50x256 .f32) = V m c main_arg4 := by
  funext x
  unfold iblk
  rw [View.read_apply]
  show V m c main_arg4 _ = V m c main_arg4 x
  congr 1
  funext a
  apply Fin.ext
  match a with
    | ⟨0, _⟩ => show win0_4.index t (0 : Fin 2) * S50x256.size 0 + 1 * (x 0).val = (x 0).val; rw [(wfacts4 t).1]; omega
    | ⟨1, _⟩ => show win0_4.index t (1 : Fin 2) * S50x256.size 1 + 1 * (x 1).val = (x 1).val; rw [(wfacts4 t).2]; omega

theorem wfacts5 : ∀ t : Fin cfg0.N, win0_5.index t (0 : Fin 1) = 0 :=
  (by decide +kernel : ∀ t : Fin grid0.N, _)

/-- Window 5 has one block, the whole array. -/
theorem wblk5 (c : Dev nD) (t : Fin cfg0.N) : (iblk m c 5 t : Vec Ideal S256 .f32) = V m c main_arg5 := by
  funext x
  unfold iblk
  rw [View.read_apply]
  show V m c main_arg5 _ = V m c main_arg5 x
  congr 1
  funext a
  apply Fin.ext
  match a with
    | ⟨0, _⟩ => show win0_5.index t (0 : Fin 1) * S256.size 0 + 1 * (x 0).val = (x 0).val; rw [wfacts5 t]; omega

theorem wfacts6 : ∀ t : Fin cfg0.N, win0_6.index t (0 : Fin 2) = 0 ∧ win0_6.index t (1 : Fin 2) = 0 :=
  (by decide +kernel : ∀ t : Fin grid0.N, _)

/-- Window 6 has one block, the whole array. -/
theorem wblk6 (c : Dev nD) (t : Fin cfg0.N) : (iblk m c 6 t : Vec Ideal S256x400 .f32) = V m c main_arg6 := by
  funext x
  unfold iblk
  rw [View.read_apply]
  show V m c main_arg6 _ = V m c main_arg6 x
  congr 1
  funext a
  apply Fin.ext
  match a with
    | ⟨0, _⟩ => show win0_6.index t (0 : Fin 2) * S256x400.size 0 + 1 * (x 0).val = (x 0).val; rw [(wfacts6 t).1]; omega
    | ⟨1, _⟩ => show win0_6.index t (1 : Fin 2) * S256x400.size 1 + 1 * (x 1).val = (x 1).val; rw [(wfacts6 t).2]; omega

theorem wfacts7 : ∀ t : Fin cfg0.N, win0_7.index t (0 : Fin 1) = 0 :=
  (by decide +kernel : ∀ t : Fin grid0.N, _)

/-- Window 7 has one block, the whole array. -/
theorem wblk7 (c : Dev nD) (t : Fin cfg0.N) : (iblk m c 7 t : Vec Ideal S400 .f32) = V m c main_arg7 := by
  funext x
  unfold iblk
  rw [View.read_apply]
  show V m c main_arg7 _ = V m c main_arg7 x
  congr 1
  funext a
  apply Fin.ext
  match a with
    | ⟨0, _⟩ => show win0_7.index t (0 : Fin 1) * S400.size 0 + 1 * (x 0).val = (x 0).val; rw [wfacts7 t]; omega

theorem wfacts8 : ∀ t : Fin cfg0.N, win0_8.index t (0 : Fin 2) = 0 ∧ win0_8.index t (1 : Fin 2) = 0 :=
  (by decide +kernel : ∀ t : Fin grid0.N, _)

/-- Window 8 has one block, the whole array. -/
theorem wblk8 (c : Dev nD) (t : Fin cfg0.N) : (iblk m c 8 t : Vec Ideal S400x256 .f32) = V m c main_arg8 := by
  funext x
  unfold iblk
  rw [View.read_apply]
  show V m c main_arg8 _ = V m c main_arg8 x
  congr 1
  funext a
  apply Fin.ext
  match a with
    | ⟨0, _⟩ => show win0_8.index t (0 : Fin 2) * S400x256.size 0 + 1 * (x 0).val = (x 0).val; rw [(wfacts8 t).1]; omega
    | ⟨1, _⟩ => show win0_8.index t (1 : Fin 2) * S400x256.size 1 + 1 * (x 1).val = (x 1).val; rw [(wfacts8 t).2]; omega

theorem wfacts9 : ∀ t : Fin cfg0.N, win0_9.index t (0 : Fin 1) = 0 :=
  (by decide +kernel : ∀ t : Fin grid0.N, _)

/-- Window 9 has one block, the whole array. -/
theorem wblk9 (c : Dev nD) (t : Fin cfg0.N) : (iblk m c 9 t : Vec Ideal S256 .f32) = V m c main_arg9 := by
  funext x
  unfold iblk
  rw [View.read_apply]
  show V m c main_arg9 _ = V m c main_arg9 x
  congr 1
  funext a
  apply Fin.ext
  match a with
    | ⟨0, _⟩ => show win0_9.index t (0 : Fin 1) * S256.size 0 + 1 * (x 0).val = (x 0).val; rw [wfacts9 t]; omega

theorem wfacts10 : ∀ t : Fin cfg0.N, win0_10.index t (0 : Fin 2) = 0 ∧ win0_10.index t (1 : Fin 2) = 0 :=
  (by decide +kernel : ∀ t : Fin grid0.N, _)

/-- Window 10 has one block, the whole array. -/
theorem wblk10 (c : Dev nD) (t : Fin cfg0.N) : (iblk m c 10 t : Vec Ideal S256x256 .f32) = V m c main_arg10 := by
  funext x
  unfold iblk
  rw [View.read_apply]
  show V m c main_arg10 _ = V m c main_arg10 x
  congr 1
  funext a
  apply Fin.ext
  match a with
    | ⟨0, _⟩ => show win0_10.index t (0 : Fin 2) * S256x256.size 0 + 1 * (x 0).val = (x 0).val; rw [(wfacts10 t).1]; omega
    | ⟨1, _⟩ => show win0_10.index t (1 : Fin 2) * S256x256.size 1 + 1 * (x 1).val = (x 1).val; rw [(wfacts10 t).2]; omega

theorem wfacts11 : ∀ t : Fin cfg0.N, win0_11.index t (0 : Fin 1) = 0 :=
  (by decide +kernel : ∀ t : Fin grid0.N, _)

/-- Window 11 has one block, the whole array. -/
theorem wblk11 (c : Dev nD) (t : Fin cfg0.N) : (iblk m c 11 t : Vec Ideal S256 .f32) = V m c main_arg11 := by
  funext x
  unfold iblk
  rw [View.read_apply]
  show V m c main_arg11 _ = V m c main_arg11 x
  congr 1
  funext a
  apply Fin.ext
  match a with
    | ⟨0, _⟩ => show win0_11.index t (0 : Fin 1) * S256.size 0 + 1 * (x 0).val = (x 0).val; rw [wfacts11 t]; omega

theorem wfacts12 : ∀ t : Fin cfg0.N, win0_12.index t (0 : Fin 2) = 0 ∧ win0_12.index t (1 : Fin 2) = 0 :=
  (by decide +kernel : ∀ t : Fin grid0.N, _)

/-- Window 12 has one block, the whole array. -/
theorem wblk12 (c : Dev nD) (t : Fin cfg0.N) : (iblk m c 12 t : Vec Ideal S256x8 .f32) = V m c main_arg12 := by
  funext x
  unfold iblk
  rw [View.read_apply]
  show V m c main_arg12 _ = V m c main_arg12 x
  congr 1
  funext a
  apply Fin.ext
  match a with
    | ⟨0, _⟩ => show win0_12.index t (0 : Fin 2) * S256x8.size 0 + 1 * (x 0).val = (x 0).val; rw [(wfacts12 t).1]; omega
    | ⟨1, _⟩ => show win0_12.index t (1 : Fin 2) * S256x8.size 1 + 1 * (x 1).val = (x 1).val; rw [(wfacts12 t).2]; omega

theorem wfacts13 : ∀ t : Fin cfg0.N, win0_13.index t (0 : Fin 1) = 0 :=
  (by decide +kernel : ∀ t : Fin grid0.N, _)

/-- Window 13 has one block, the whole array. -/
theorem wblk13 (c : Dev nD) (t : Fin cfg0.N) : (iblk m c 13 t : Vec Ideal S8 .f32) = V m c main_arg13 := by
  funext x
  unfold iblk
  rw [View.read_apply]
  show V m c main_arg13 _ = V m c main_arg13 x
  congr 1
  funext a
  apply Fin.ext
  match a with
    | ⟨0, _⟩ => show win0_13.index t (0 : Fin 1) * S8.size 0 + 1 * (x 0).val = (x 0).val; rw [wfacts13 t]; omega

/-! ## The row windows: block t is rows 1024 t … 1024 t + 1023 -/

/-- The printed index maps of the three row windows, decided over the grid: block row t, block column 0. -/
theorem rfacts : ∀ t : Fin cfg0.N, win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

/-- Row r of the observation block at point t is row 1024 t + r of the observations. -/
theorem oblk_apply (c : Dev nD) (t : Fin cfg0.N) (r : Fin 1024) (q : Fin 260) (R : Fin 65536) (hR : R.val = 1024 * t.val + r.val) :
    (iblk m c 0 t : Vec Ideal S1024x260 .f32) (ix2 r q) = (V m c main_arg0 : Vec Ideal S65536x260 .f32) (ix2 R q) := by
  obtain ⟨e0, e1, -, -, -, -⟩ := rfacts t
  unfold iblk
  rw [View.read_apply]
  show V m c main_arg0 _ = V m c main_arg0 _
  congr 1
  funext a
  apply Fin.ext
  match a with
  | ⟨0, _⟩ => show win0_0.index t (0 : Fin 2) * S1024x260.size 0 + 1 * r.val = R.val; rw [e0, hR]; show t.val * 1024 + 1 * r.val = _; omega
  | ⟨1, _⟩ => show win0_0.index t (1 : Fin 2) * S1024x260.size 1 + 1 * q.val = q.val; rw [e1]; omega

/-- Row r of the goal block at point t is row 1024 t + r of the goal features. -/
theorem gblk_apply (c : Dev nD) (t : Fin cfg0.N) (r : Fin 1024) (q : Fin 100) (R : Fin 65536) (hR : R.val = 1024 * t.val + r.val) :
    (iblk m c 1 t : Vec Ideal S1024x100 .f32) (ix2 r q) = (V m c main_arg1 : Vec Ideal S65536x100 .f32) (ix2 R q) := by
  obtain ⟨-, -, e0, e1, -, -⟩ := rfacts t
  unfold iblk
  rw [View.read_apply]
  show V m c main_arg1 _ = V m c main_arg1 _
  congr 1
  funext a
  apply Fin.ext
  match a with
  | ⟨0, _⟩ => show win0_1.index t (0 : Fin 2) * S1024x100.size 0 + 1 * r.val = R.val; rw [e0, hR]; show t.val * 1024 + 1 * r.val = _; omega
  | ⟨1, _⟩ => show win0_1.index t (1 : Fin 2) * S1024x100.size 1 + 1 * q.val = q.val; rw [e1]; omega

/-! ## What each point writes back, and the whole array -/

/-- Point t writes back block t of `G`. -/
theorem flushed_eq (c : Dev nD) (t : Fin cfg0.N) :
    (dats m 0 c).flushed 14 t = ((cfg0.win 14).blk t).view.read (Elt Ideal) (G m c) := by
  rw [Value.flushed14]
  unfold out0_14
  rw [View.canon_unit_zero hz2]
  simp only [View.ld_unit_zero (S := S1024x260) hz2, View.ld_unit_zero (S := S1024x100) hz2, View.ld_unit_zero (S := S100x50) hz2, View.ld_unit_zero (S := S50x256) hz2, View.ld_unit_zero (S := S256x400) hz2, View.ld_unit_zero (S := S400x256) hz2, View.ld_unit_zero (S := S256x256) hz2, View.ld_unit_zero (S := S256x8) hz2, View.ld_unit_zero (S := S50) hz1, View.ld_unit_zero (S := S256) hz1, View.ld_unit_zero (S := S400) hz1, View.ld_unit_zero (S := S8) hz1]
  obtain ⟨-, -, -, -, e0, e1⟩ := rfacts t
  funext y
  show stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = G m c (((cfg0.win 14).blk t).view.emb y)
  rw [stored_eq, wblk2, wblk3, wblk4, wblk5, wblk6, wblk7, wblk8, wblk9, wblk10, wblk11, wblk12, wblk13]
  obtain ⟨r, j, rfl⟩ : ∃ (r : Fin 1024) (j : Fin 8), y = ix2 r j := ⟨y 0, y 1, eq_ix2 y⟩
  have hlt := t_lt t
  obtain ⟨R, hR⟩ : ∃ R : Fin 65536, R.val = 1024 * t.val + r.val := ⟨⟨1024 * t.val + r.val, by have := r.isLt; omega⟩, rfl⟩
  have hemb : ((cfg0.win 14).blk t).view.emb (ix2 r j) = ix2 R j := by
    funext a
    apply Fin.ext
    match a with
    | ⟨0, _⟩ => show win0_14.index t (0 : Fin 2) * S1024x8.size 0 + 1 * r.val = R.val; rw [e0, hR]; show t.val * 1024 + 1 * r.val = _; omega
    | ⟨1, _⟩ => show win0_14.index t (1 : Fin 2) * S1024x8.size 1 + 1 * j.val = j.val; rw [e1]; omega
  rw [hemb, RowSpec.arrayOut_apply]
  refine Eq.trans ?_ (RowSpec.arrayOut_apply _ _ _ R j).symm
  congr 1
  · funext q; exact oblk_apply m c t r q R hR
  · funext q; exact gblk_apply m c t r q R hR

/-- An index of the output array is in point t's block iff its row is one of t's 1024 rows. -/
theorem mem_blk (t : Fin cfg0.N) (i : S65536x8.Idx) :
    i ∈ ((cfg0.win 14).blk t).view.set ↔ ∀ a : Fin 2, win0_14.index t a * S1024x8.size a ≤ (i a).val ∧ (i a).val < win0_14.index t a * S1024x8.size a + S1024x8.size a := by
  show i ∈ ((View.whole main_v0).slice (win0_14.rect t)).set ↔ _
  rw [View.set_slice_whole, Rect.mem_set_unit]
  exact Iff.rfl

/-- Every index of the output array lies in the block of the point its row belongs to. -/
theorem covered (i : S65536x8.Idx) : ∃ t : Fin cfg0.N, (cfg0.win 14).flush t = true ∧ i ∈ ((cfg0.win 14).blk t).view.set := by
  have hi0 : (i 0).val < 65536 := (i 0).isLt
  have hi1 : (i 1).val < 8 := (i 1).isLt
  let t : Fin cfg0.N := ⟨(i 0).val / 1024, by rw [show cfg0.N = 64 from N_0]; omega⟩
  obtain ⟨-, -, -, -, e0, e1⟩ := rfacts t
  refine ⟨t, flush0_14 t, ?_⟩
  rw [mem_blk]
  intro a
  match a with
  | ⟨0, _⟩ => show win0_14.index t (0 : Fin 2) * 1024 ≤ (i 0).val ∧ (i 0).val < win0_14.index t (0 : Fin 2) * 1024 + 1024; rw [e0]; show (i 0).val / 1024 * 1024 ≤ (i 0).val ∧ (i 0).val < (i 0).val / 1024 * 1024 + 1024; omega
  | ⟨1, _⟩ => show win0_14.index t (1 : Fin 2) * 8 ≤ (i 1).val ∧ (i 1).val < win0_14.index t (1 : Fin 2) * 8 + 8; rw [e1]; omega

/-- After the run the output array is `G`. -/
theorem final (c : Dev nD) : (dats m 0 c).arrAt 14 cfg0.N = G m c :=
  (dats m 0 c).arrAt_eq_of_cover 14 (G m c) (fun t _ => flushed_eq m c t) (covered)

/-- The kernel's run, read: the output array at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.KValue

end
-- ==== Proof.RefTerm.lean ====
/-
  The reference's result as ONE term of its argument arrays, stage by stage.

  Each definition below is the pure value the reference program leaves in one of its buffers, as a function of the
  values it was computed from, spelt with the program's own whole-array operations:
    gateArr   — the attention gate  1 / (1 + exp(-(g · W_c + b_c)))            [65536 × 50]
    bodyArr   — the body columns 0 … 9 and 130 … 139 of the observations        [65536 × 20]
    startIdx  — the table of the objects' column numbers, as gather start indices [8 × 30 × 1]
    featArr   — per object, the body columns followed by the object's 30 gathered columns [65536 × 8 × 50]
    gatedArr  — featArr times the gate, the gate repeated along the object axis
    hiddenArr, actorArr — the actor's two affine layers, each followed by max(·, 0)
    pooledArr — the sum over the object axis
    pi0Arr, pi1Arr — the policy head's two hidden layers, each followed by max(·, 0)
    outArr    — tanh of the last affine layer                                   [65536 × 8]
  `refOut` composes them. The program's run ends with its result buffer at `refOut` of the arguments, and read at
  an index `refOut` is the row function of Proof/RowSpec.lean.
-/
import proofs.«177284_j28552942584470_1_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The contents of a float buffer of shape `s`. -/
abbrev Arr (F : FTy → Type) (s : Shape) : Type := FVec F s .f32

/-- The table of column numbers: row `n` lists object `n`'s 15 position columns, then its 15 velocity columns. -/
def colTable : IVec S8x30 32 := fun i => lit0 (S8x30.rowMajor i)

/-- The attention gate, as the host spells the logistic function: `1 / (1 + exp (-(g · W_c + b_c)))`. -/
def gateArr (g : Arr F S65536x100) (Wc : Arr F S100x50) (bc : Arr F S50) : Arr F S65536x50 :=
  Host.divf (broadcastInDim S65536x50 ![] bcast_S_S65536x50 (constant S_ .f32 0x3F800000#32))
    (addf (broadcastInDim S65536x50 ![] bcast_S_S65536x50 (constant S_ .f32 0x3F800000#32))
      (Host.exp (Host.negf (addf (Host.dotGeneral dot_S65536x100_S100x50_S65536x50_1_0_0_1_n_n none g Wc)
        (broadcastInDim S65536x50 ![0, 1] bcast_S1x50_S65536x50_0_1 (broadcastInDim S1x50 ![1] bcast_S50_S1x50_1 bc))))))

/-- The body's position and velocity columns side by side. -/
def bodyArr (o : Arr F S65536x260) : Arr F S65536x20 :=
  concatenate S65536x20 1 [⟨S65536x10, extractStridedSlice S65536x10 ![0, 0] o slices_S65536x260_S65536x10_0_0⟩,
    ⟨S65536x10, extractStridedSlice S65536x10 ![0, 130] o slices_S65536x260_S65536x10_0_130⟩]
    concatenates_S65536x10_S65536x10_S65536x20_d1

/-- The gather's start indices: the column table with negative entries wrapped by 260 (there are none), as a column
    of one-entry index vectors. -/
def startIdx : IVec S8x30x1 32 :=
  broadcastInDim S8x30x1 ![0, 1] bcast_S8x30_S8x30x1_0_1
    (select (cmpi .slt colTable (broadcastInDim S8x30 ![] bcast_S_S8x30 (constantI S_ 32 0#32)))
      (addi colTable (broadcastInDim S8x30 ![] bcast_S_S8x30 (constantI S_ 32 260#32))) colTable)

/-- Per object: the 20 body columns, then the object's 30 gathered columns. -/
def featArr (o : Arr F S65536x260) : Arr F S65536x8x50 :=
  concatenate S65536x8x50 2 [⟨S65536x8x20, broadcastInDim S65536x8x20 ![0, 1, 2] bcast_S65536x1x20_S65536x8x20_0_1_2
      (broadcastInDim S65536x1x20 ![0, 2] bcast_S65536x20_S65536x1x20_0_2 (bodyArr o))⟩,
    ⟨S65536x8x30, Host.gather gather_S65536x260_S8x30x1_S65536x8x30_0_1_n_n_1_2_655361 o startIdx⟩]
    concatenates_S65536x8x20_S65536x8x30_S65536x8x50_d2

/-- The objects' inputs times the gate, the gate shared by the eight objects. -/
def gatedArr (o : Arr F S65536x260) (g : Arr F S65536x100) (Wc : Arr F S100x50) (bc : Arr F S50) : Arr F S65536x8x50 :=
  mulf (featArr o) (broadcastInDim S65536x8x50 ![0, 1, 2] bcast_S65536x1x50_S65536x8x50_0_1_2
    (broadcastInDim S65536x1x50 ![0, 2] bcast_S65536x50_S65536x1x50_0_2 (gateArr g Wc bc)))

/-- The actor's first layer: `max (x · W_a0 + b_a0) 0`. -/
def hiddenArr (x : Arr F S65536x8x50) (Wa0 : Arr F S50x256) (ba0 : Arr F S256) : Arr F S65536x8x256 :=
  maximumf (addf (Host.dotGeneral dot_S65536x8x50_S50x256_S65536x8x256_2_0_01_1_n_n none x Wa0)
      (broadcastInDim S65536x8x256 ![0, 1, 2] bcast_S1x1x256_S65536x8x256_0_1_2 (broadcastInDim S1x1x256 ![2] bcast_S256_S1x1x256_2 ba0)))
    (broadcastInDim S65536x8x256 ![] bcast_S_S65536x8x256 (constant S_ .f32 0x00000000#32))

/-- The actor's second layer: `max (h · W_a1 + b_a1) 0`. -/
def actorArr (h : Arr F S65536x8x256) (Wa1 : Arr F S256x400) (ba1 : Arr F S400) : Arr F S65536x8x400 :=
  maximumf (addf (Host.dotGeneral dot_S65536x8x256_S256x400_S65536x8x400_2_0_01_1_n_n none h Wa1)
      (broadcastInDim S65536x8x400 ![0, 1, 2] bcast_S1x1x400_S65536x8x400_0_1_2 (broadcastInDim S1x1x400 ![2] bcast_S400_S1x1x400_2 ba1)))
    (broadcastInDim S65536x8x400 ![] bcast_S_S65536x8x400 (constant S_ .f32 0x00000000#32))

/-- The sum over the eight objects, from zero. -/
def pooledArr (y : Arr F S65536x8x400) : Arr F S65536x400 :=
  Host.reduceAdd y (constant S_ .f32 0x00000000#32) reducesTo_S65536x8x400_S65536x400_d1 h_S_

/-- The policy head's first layer: `max (a · W_p0 + b_p0) 0`. -/
def pi0Arr (a : Arr F S65536x400) (Wp0 : Arr F S400x256) (bp0 : Arr F S256) : Arr F S65536x256 :=
  maximumf (addf (Host.dotGeneral dot_S65536x400_S400x256_S65536x256_1_0_0_1_n_n none a Wp0)
      (broadcastInDim S65536x256 ![0, 1] bcast_S1x256_S65536x256_0_1 (broadcastInDim S1x256 ![1] bcast_S256_S1x256_1 bp0)))
    (broadcastInDim S65536x256 ![] bcast_S_S65536x256 (constant S_ .f32 0x00000000#32))

/-- The policy head's second layer: `max (p · W_p1 + b_p1) 0`. -/
def pi1Arr (p : Arr F S65536x256) (Wp1 : Arr F S256x256) (bp1 : Arr F S256) : Arr F S65536x256 :=
  maximumf (addf (Host.dotGeneral dot_S65536x256_S256x256_S65536x256_1_0_0_1_n_n none p Wp1)
      (broadcastInDim S65536x256 ![0, 1] bcast_S1x256_S65536x256_0_1 (broadcastInDim S1x256 ![1] bcast_S256_S1x256_1 bp1)))
    (broadcastInDim S65536x256 ![] bcast_S_S65536x256 (constant S_ .f32 0x00000000#32))

/-- The output: `tanh (p · W_p2 + b_p2)`. -/
def outArr (p : Arr F S65536x256) (Wp2 : Arr F S256x8) (bp2 : Arr F S8) : Arr F S65536x8 :=
  Host.tanh (addf (Host.dotGeneral dot_S65536x256_S256x8_S65536x8_1_0_0_1_n_n none p Wp2)
    (broadcastInDim S65536x8 ![0, 1] bcast_S1x8_S65536x8_0_1 (broadcastInDim S1x8 ![1] bcast_S8_S1x8_1 bp2)))

/-- The reference's result as one function of its fourteen arguments. -/
def refOut (o : Arr F S65536x260) (g : Arr F S65536x100) (Wc : Arr F S100x50) (bc : Arr F S50)
    (Wa0 : Arr F S50x256) (ba0 : Arr F S256) (Wa1 : Arr F S256x400) (ba1 : Arr F S400)
    (Wp0 : Arr F S400x256) (bp0 : Arr F S256) (Wp1 : Arr F S256x256) (bp1 : Arr F S256)
    (Wp2 : Arr F S256x8) (bp2 : Arr F S8) : Arr F S65536x8 :=
  outArr (pi1Arr (pi0Arr (pooledArr (actorArr (hiddenArr (gatedArr o g Wc bc) Wa0 ba0) Wa1 ba1)) Wp0 bp0) Wp1 bp1) Wp2 bp2

end Cert.ReferenceIdeal.RefValue

end
-- ==== Proof.RefRun.lean ====
/-
  The reference program's run.

  The program is a straight line of host operations (its three outlined relu functions are three operations each at their call
  sites). Every weakly fair execution terminates with the result buffer holding `refOut` of the arguments and the
  arguments unchanged.
-/
import proofs.«177284_j28552942584470_1_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 66 operations in order, each relu call listed as its three operations over the call's own buffers. -/
abbrev ops : List (HloOp τ sig (Elt F)) :=
  [ StableHlo.nullary main_c (fun i => lit0 (S8x30.rowMajor i)),
    StableHlo.binary main_arg1 main_arg2 main_v0 ((fun l r => Host.dotGeneral dot_S65536x100_S100x50_S65536x50_1_0_0_1_n_n none l r) : (⟨S65536x100, .f32⟩ : BufTy).Contents (Elt F) → (⟨S100x50, .f32⟩ : BufTy).Contents (Elt F) → (⟨S65536x50, .f32⟩ : BufTy).Contents (Elt F)),
    StableHlo.unary main_arg3 main_v1 (broadcastInDim S1x50 ![1] bcast_S50_S1x50_1 : (⟨S50, .f32⟩ : BufTy).Contents (Elt F) → (⟨S1x50, .f32⟩ : BufTy).Contents (Elt F)),
    StableHlo.unary main_v1 main_v2 (broadcastInDim S65536x50 ![0, 1] bcast_S1x50_S65536x50_0_1 : (⟨S1x50, .f32⟩ : BufTy).Contents (Elt F) → (⟨S65536x50, .f32⟩ : BufTy).Contents (Elt F)),
    StableHlo.binary main_v0 main_v2 main_v3 (addf : (⟨S65536x50, .f32⟩ : BufTy).Contents (Elt F) → (⟨S65536x50, .f32⟩ : BufTy).Contents (Elt F) → (⟨S65536x50, .f32⟩ : BufTy).Contents (Elt F)),
    StableHlo.unary main_v3 main_v4 (Host.negf : (⟨S65536x50, .f32⟩ : BufTy).Contents (Elt F) → (⟨S65536x50, .f32⟩ : BufTy).Contents (Elt F)),
    StableHlo.unary main_v4 main_v5 (Host.exp : (⟨S65536x50, .f32⟩ : BufTy).Contents (Elt F) → (⟨S65536x50, .f32⟩ : BufTy).Contents (Elt F)),
    StableHlo.nullary main_cst (constant S_ .f32 0x3F800000#32),
    StableHlo.unary main_cst main_v6 (broadcastInDim S65536x50 ![] bcast_S_S65536x50 : (⟨S_, .f32⟩ : BufTy).Contents (Elt F) → (⟨S65536x50, .f32⟩ : BufTy).Contents (Elt F)),
    StableHlo.binary main_v6 main_v5 main_v7 (addf : (⟨S65536x50, .f32⟩ : BufTy).Contents (Elt F) → (⟨S65536x50, .f32⟩ : BufTy).Contents (Elt F) → (⟨S65536x50, .f32⟩ : BufTy).Contents (Elt F)),
    StableHlo.nullary main_cst_0 (constant S_ .f32 0x3F800000#32),
    StableHlo.unary main_cst_0 main_v8 (broadcastInDim S65536x50 ![] bcast_S_S65536x50 : (⟨S_, .f32⟩ : BufTy).Contents (Elt F) → (⟨S65536x50, .f32⟩ : BufTy).Contents (Elt F)),
    StableHlo.binary main_v8 main_v7 main_v9 (Host.divf : (⟨S65536x50, .f32⟩ : BufTy).Contents (Elt F) → (⟨S65536x50, .f32⟩ : BufTy).Contents (Elt F) → (⟨S65536x50, .f32⟩ : BufTy).Contents (Elt F)),
    StableHlo.unary main_arg0 main_v10 ((extractStridedSlice S65536x10 ![0, 0] · slices_S65536x260_S65536x10_0_0) : (⟨S65536x260, .f32⟩ : BufTy).Contents (Elt F) → (⟨S65536x10, .f32⟩ : BufTy).Contents (Elt F)),
    StableHlo.unary main_arg0 main_v11 ((extractStridedSlice S65536x10 ![0, 130] · slices_S65536x260_S65536x10_0_130) : (⟨S65536x260, .f32⟩ : BufTy).Contents (Elt F) → (⟨S65536x10, .f32⟩ : BufTy).Contents (Elt F)),
    StableHlo.binary main_v10 main_v11 main_v12 ((fun a b => concatenate S65536x20 1 [⟨S65536x10, a⟩, ⟨S65536x10, b⟩] concatenates_S65536x10_S65536x10_S65536x20_d1) : (⟨S65536x10, .f32⟩ : BufTy).Contents (Elt F) → (⟨S65536x10, .f32⟩ : BufTy).Contents (Elt F) → (⟨S65536x20, .f32⟩ : BufTy).Contents (Elt F)),
    StableHlo.nullary main_c_1 (constantI S_ 32 0#32),
    StableHlo.unary main_c_1 main_v13 (broadcastInDim S8x30 ![] bcast_S_S8x30 : (⟨S_, .i32⟩ : BufTy).Contents (Elt F) → (⟨S8x30, .i32⟩ : BufTy).Contents (Elt F)),
    StableHlo.binary main_c main_v13 main_v14 (cmpi .slt : (⟨S8x30, .i32⟩ : BufTy).Contents (Elt F) → (⟨S8x30, .i32⟩ : BufTy).Contents (Elt F) → (⟨S8x30, .i1⟩ : BufTy).Contents (Elt F)),
    StableHlo.nullary main_c_2 (constantI S_ 32 260#32),
    StableHlo.unary main_c_2 main_v15 (broadcastInDim S8x30 ![] bcast_S_S8x30 : (⟨S_, .i32⟩ : BufTy).Contents (Elt F) → (⟨S8x30, .i32⟩ : BufTy).Contents (Elt F)),
    StableHlo.binary main_c main_v15 main_v16 (addi : (⟨S8x30, .i32⟩ : BufTy).Contents (Elt F) → (⟨S8x30, .i32⟩ : BufTy).Contents (Elt F) → (⟨S8x30, .i32⟩ : BufTy).Contents (Elt F)),
    StableHlo.ternary main_v14 main_v16 main_c main_v17 (select : (⟨S8x30, .i1⟩ : BufTy).Contents (Elt F) → (⟨S8x30, .i32⟩ : BufTy).Contents (Elt F) → (⟨S8x30, .i32⟩ : BufTy).Contents (Elt F) → (⟨S8x30, .i32⟩ : BufTy).Contents (Elt F)),
    StableHlo.unary main_v17 main_v18 (broadcastInDim S8x30x1 ![0, 1] bcast_S8x30_S8x30x1_0_1 : (⟨S8x30, .i32⟩ : BufTy).Contents (Elt F) → (⟨S8x30x1, .i32⟩ : BufTy).Contents (Elt F)),
    StableHlo.binary main_arg0 main_v18 main_v19 ((fun x i => Host.gather gather_S65536x260_S8x30x1_S65536x8x30_0_1_n_n_1_2_655361 x i) : (⟨S65536x260, .f32⟩ : BufTy).Contents (Elt F) → (⟨S8x30x1, .i32⟩ : BufTy).Contents (Elt F) → (⟨S65536x8x30, .f32⟩ : BufTy).Contents (Elt F)),
    StableHlo.unary main_v12 main_v20 (broadcastInDim S65536x1x20 ![0, 2] bcast_S65536x20_S65536x1x20_0_2 : (⟨S65536x20, .f32⟩ : BufTy).Contents (Elt F) → (⟨S65536x1x20, .f32⟩ : BufTy).Contents (Elt F)),
    StableHlo.unary main_v20 main_v21 (broadcastInDim S65536x8x20 ![0, 1, 2] bcast_S65536x1x20_S65536x8x20_0_1_2 : (⟨S65536x1x20, .f32⟩ : BufTy).Contents (Elt F) → (⟨S65536x8x20, .f32⟩ : BufTy).Contents (Elt F)),
    StableHlo.binary main_v21 main_v19 main_v22 ((fun a b => concatenate S65536x8x50 2 [⟨S65536x8x20, a⟩, ⟨S65536x8x30, b⟩] concatenates_S65536x8x20_S65536x8x30_S65536x8x50_d2) : (⟨S65536x8x20, .f32⟩ : BufTy).Contents (Elt F) → (⟨S65536x8x30, .f32⟩ : BufTy).Contents (Elt F) → (⟨S65536x8x50, .f32⟩ : BufTy).Contents (Elt F)),
    StableHlo.unary main_v9 main_v23 (broadcastInDim S65536x1x50 ![0, 2] bcast_S65536x50_S65536x1x50_0_2 : (⟨S65536x50, .f32⟩ : BufTy).Contents (Elt F) → (⟨S65536x1x50, .f32⟩ : BufTy).Contents (Elt F)),
    StableHlo.unary main_v23 main_v24 (broadcastInDim S65536x8x50 ![0, 1, 2] bcast_S65536x1x50_S65536x8x50_0_1_2 : (⟨S65536x1x50, .f32⟩ : BufTy).Contents (Elt F) → (⟨S65536x8x50, .f32⟩ : BufTy).Contents (Elt F)),
    StableHlo.binary main_v22 main_v24 main_v25 (mulf : (⟨S65536x8x50, .f32⟩ : BufTy).Contents (Elt F) → (⟨S65536x8x50, .f32⟩ : BufTy).Contents (Elt F) → (⟨S65536x8x50, .f32⟩ : BufTy).Contents (Elt F)),
    StableHlo.binary main_v25 main_arg4 main_v26 ((fun l r => Host.dotGeneral dot_S65536x8x50_S50x256_S65536x8x256_2_0_01_1_n_n none l r) : (⟨S65536x8x50, .f32⟩ : BufTy).Contents (Elt F) → (⟨S50x256, .f32⟩ : BufTy).Contents (Elt F) → (⟨S65536x8x256, .f32⟩ : BufTy).Contents (Elt F)),
    StableHlo.unary main_arg5 main_v27 (broadcastInDim S1x1x256 ![2] bcast_S256_S1x1x256_2 : (⟨S256, .f32⟩ : BufTy).Contents (Elt F) → (⟨S1x1x256, .f32⟩ : BufTy).Contents (Elt F)),
    StableHlo.unary main_v27 main_v28 (broadcastInDim S65536x8x256 ![0, 1, 2] bcast_S1x1x256_S65536x8x256_0_1_2 : (⟨S1x1x256, .f32⟩ : BufTy).Contents (Elt F) → (⟨S65536x8x256, .f32⟩ : BufTy).Contents (Elt F)),
    StableHlo.binary main_v26 main_v28 main_v29 (addf : (⟨S65536x8x256, .f32⟩ : BufTy).Contents (Elt F) → (⟨S65536x8x256, .f32⟩ : BufTy).Contents (Elt F) → (⟨S65536x8x256, .f32⟩ : BufTy).Contents (Elt F)),
    TRef.nullary main_call0.cst (constant S_ .f32 0x00000000#32),
    TRef.unary main_call0.cst main_call0.v0 (broadcastInDim S65536x8x256 ![] bcast_S_S65536x8x256),
    TRef.binary (.of main_v29) main_call0.v0 main_call0.v1 maximumf,
    StableHlo.binary main_v30 main_arg6 main_v31 ((fun l r => Host.dotGeneral dot_S65536x8x256_S256x400_S65536x8x400_2_0_01_1_n_n none l r) : (⟨S65536x8x256, .f32⟩ : BufTy).Contents (Elt F) → (⟨S256x400, .f32⟩ : BufTy).Contents (Elt F) → (⟨S65536x8x400, .f32⟩ : BufTy).Contents (Elt F)),
    StableHlo.unary main_arg7 main_v32 (broadcastInDim S1x1x400 ![2] bcast_S400_S1x1x400_2 : (⟨S400, .f32⟩ : BufTy).Contents (Elt F) → (⟨S1x1x400, .f32⟩ : BufTy).Contents (Elt F)),
    StableHlo.unary main_v32 main_v33 (broadcastInDim S65536x8x400 ![0, 1, 2] bcast_S1x1x400_S65536x8x400_0_1_2 : (⟨S1x1x400, .f32⟩ : BufTy).Contents (Elt F) → (⟨S65536x8x400, .f32⟩ : BufTy).Contents (Elt F)),
    StableHlo.binary main_v31 main_v33 main_v34 (addf : (⟨S65536x8x400, .f32⟩ : BufTy).Contents (Elt F) → (⟨S65536x8x400, .f32⟩ : BufTy).Contents (Elt F) → (⟨S65536x8x400, .f32⟩ : BufTy).Contents (Elt F)),
    TRef.nullary main_call1.cst (constant S_ .f32 0x00000000#32),
    TRef.unary main_call1.cst main_call1.v0 (broadcastInDim S65536x8x400 ![] bcast_S_S65536x8x400),
    TRef.binary (.of main_v34) main_call1.v0 main_call1.v1 maximumf,
    StableHlo.nullary main_cst_3 (constant S_ .f32 0x00000000#32),
    StableHlo.binary main_v35 main_cst_3 main_v36 ((fun x v => Host.reduceAdd x v reducesTo_S65536x8x400_S65536x400_d1 h_S_) : (⟨S65536x8x400, .f32⟩ : BufTy).Contents (Elt F) → (⟨S_, .f32⟩ : BufTy).Contents (Elt F) → (⟨S65536x400, .f32⟩ : BufTy).Contents (Elt F)),
    StableHlo.binary main_v36 main_arg8 main_v37 ((fun l r => Host.dotGeneral dot_S65536x400_S400x256_S65536x256_1_0_0_1_n_n none l r) : (⟨S65536x400, .f32⟩ : BufTy).Contents (Elt F) → (⟨S400x256, .f32⟩ : BufTy).Contents (Elt F) → (⟨S65536x256, .f32⟩ : BufTy).Contents (Elt F)),
    StableHlo.unary main_arg9 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S65536x256 ![0, 1] bcast_S1x256_S65536x256_0_1 : (⟨S1x256, .f32⟩ : BufTy).Contents (Elt F) → (⟨S65536x256, .f32⟩ : BufTy).Contents (Elt F)),
    StableHlo.binary main_v37 main_v39 main_v40 (addf : (⟨S65536x256, .f32⟩ : BufTy).Contents (Elt F) → (⟨S65536x256, .f32⟩ : BufTy).Contents (Elt F) → (⟨S65536x256, .f32⟩ : BufTy).Contents (Elt F)),
    TRef.nullary main_call2.cst (constant S_ .f32 0x00000000#32),
    TRef.unary main_call2.cst main_call2.v0 (broadcastInDim S65536x256 ![] bcast_S_S65536x256),
    TRef.binary (.of main_v40) main_call2.v0 main_call2.v1 maximumf,
    StableHlo.binary main_v41 main_arg10 main_v42 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg11 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S65536x256 ![0, 1] bcast_S1x256_S65536x256_0_1 : (⟨S1x256, .f32⟩ : BufTy).Contents (Elt F) → (⟨S65536x256, .f32⟩ : BufTy).Contents (Elt F)),
    StableHlo.binary main_v42 main_v44 main_v45 (addf : (⟨S65536x256, .f32⟩ : BufTy).Contents (Elt F) → (⟨S65536x256, .f32⟩ : BufTy).Contents (Elt F) → (⟨S65536x256, .f32⟩ : BufTy).Contents (Elt F)),
    TRef.nullary main_call3.cst (constant S_ .f32 0x00000000#32),
    TRef.unary main_call3.cst main_call3.v0 (broadcastInDim S65536x256 ![] bcast_S_S65536x256),
    TRef.binary (.of main_v45) main_call3.v0 main_call3.v1 maximumf,
    StableHlo.binary main_v46 main_arg12 main_v47 ((fun l r => Host.dotGeneral dot_S65536x256_S256x8_S65536x8_1_0_0_1_n_n none l r) : (⟨S65536x256, .f32⟩ : BufTy).Contents (Elt F) → (⟨S256x8, .f32⟩ : BufTy).Contents (Elt F) → (⟨S65536x8, .f32⟩ : BufTy).Contents (Elt F)),
    StableHlo.unary main_arg13 main_v48 (broadcastInDim S1x8 ![1] bcast_S8_S1x8_1 : (⟨S8, .f32⟩ : BufTy).Contents (Elt F) → (⟨S1x8, .f32⟩ : BufTy).Contents (Elt F)),
    StableHlo.unary main_v48 main_v49 (broadcastInDim S65536x8 ![0, 1] bcast_S1x8_S65536x8_0_1 : (⟨S1x8, .f32⟩ : BufTy).Contents (Elt F) → (⟨S65536x8, .f32⟩ : BufTy).Contents (Elt F)),
    StableHlo.binary main_v47 main_v49 main_v50 (addf : (⟨S65536x8, .f32⟩ : BufTy).Contents (Elt F) → (⟨S65536x8, .f32⟩ : BufTy).Contents (Elt F) → (⟨S65536x8, .f32⟩ : BufTy).Contents (Elt F)),
    StableHlo.unary main_v50 main_v51 (Host.tanh : (⟨S65536x8, .f32⟩ : BufTy).Contents (Elt F) → (⟨S65536x8, .f32⟩ : BufTy).Contents (Elt F)) ]

set_option maxRecDepth 4096 in
/-- The program is that straight line: the outlined functions' definitions unfold at their calls and sequencing reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub ..⟩

attribute [local irreducible] Host.gather Host.reduceAdd in
set_option maxRecDepth 8192 in
set_option maxHeartbeats 1600000 in
/-- The fold of the operations at the result buffer is `refOut` of the arguments' contents, by computation: each
    operation's result is read at the buffer it writes and every other operation leaves that buffer alone; the stage
    definitions then unfold to the same composition. The gather and the sum over an axis stay folded (the equation
    never looks inside them). -/
theorem out_eq (V : Valuation τ sig (Elt F)) :
    after ops V (main_v51 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  unfold refOut outArr pi1Arr pi0Arr pooledArr actorArr hiddenArr gatedArr featArr startIdx colTable bodyArr gateArr
  rfl

/-! No operation writes an argument's buffer: each keeps its contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

theorem arg13_eq (V : Valuation τ sig (Elt F)) :
    after ops V (main_arg13 : DevRef τ sig) = V (main_arg13 : DevRef τ sig) := by
  after_results_simp

/-- Every weakly fair execution of the reference terminates with its result at `refOut` of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v51).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_seq scopedRefs_eq scopedSems_eq defs main (fun _ => ops) main_eq (fun _ => ops_sub) m ρ)

end Cert.ReferenceIdeal.RefValue

end
-- ==== Proof.RefLayers.lean ====
/-
  The reference's matrix products, bias rows, repeated gate and pooling sum, each read at an index.

  On the extended reals the host's `dot_general` with one contracted axis holds at an output index the sum over k of
  the left operand at (…, k) times the right at (k, e); a bias vector broadcast to the layer's shape holds at every
  row its entry e; the gate broadcast along the object axis holds at (b, n, d) the gate at (b, d); a scalar constant
  broadcast to any shape holds that scalar; and the sum over the object axis from zero is the sum of the eight
  entries.
-/
import proofs.«177284_j28552942584470_1_alg».proof.Proof.RefTerm
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx

private theorem lhs_a_0 (i : S65536x50.Idx) (q : dot_S65536x100_S100x50_S65536x50_1_0_0_1_n_n.contr.Idx) :
    (dot_S65536x100_S100x50_S65536x50_1_0_0_1_n_n.lhsIdx i q 0).val = (i 0).val := by
  unfold DotDims.lhsIdx
  rw [dif_neg (show ¬(0 : Fin S65536x100.rank) ∈ dot_S65536x100_S100x50_S65536x50_1_0_0_1_n_n.lhsBatch by decide),
    dif_pos (show (0 : Fin S65536x100.rank) ∈ dot_S65536x100_S100x50_S65536x50_1_0_0_1_n_n.lhsNonContracting by decide)]
  rfl
private theorem lhs_a_1 (i : S65536x50.Idx) (q : dot_S65536x100_S100x50_S65536x50_1_0_0_1_n_n.contr.Idx) :
    (dot_S65536x100_S100x50_S65536x50_1_0_0_1_n_n.lhsIdx i q 1).val = (q ⟨0, by decide⟩).val :=
  dot_S65536x100_S100x50_S65536x50_1_0_0_1_n_n.lhsIdx_val_of_single rfl i q
private theorem rhs_a_0 (i : S65536x50.Idx) (q : dot_S65536x100_S100x50_S65536x50_1_0_0_1_n_n.contr.Idx) :
    (dot_S65536x100_S100x50_S65536x50_1_0_0_1_n_n.rhsIdx i q 0).val = (q ⟨0, by decide⟩).val :=
  dot_S65536x100_S100x50_S65536x50_1_0_0_1_n_n.rhsIdx_val_of_single rfl i q
private theorem rhs_a_1 (i : S65536x50.Idx) (q : dot_S65536x100_S100x50_S65536x50_1_0_0_1_n_n.contr.Idx) :
    (dot_S65536x100_S100x50_S65536x50_1_0_0_1_n_n.rhsIdx i q 1).val = (i 1).val := by
  unfold DotDims.rhsIdx
  rw [dif_neg (show ¬(1 : Fin S100x50.rank) ∈ dot_S65536x100_S100x50_S65536x50_1_0_0_1_n_n.rhsBatch by decide),
    dif_pos (show (1 : Fin S100x50.rank) ∈ dot_S65536x100_S100x50_S65536x50_1_0_0_1_n_n.rhsNonContracting by decide)]
  rfl

/-- The gate's product: [65536 × 100] by [100 × 50]. -/
theorem dot_100_50 (x : Arr Ideal S65536x100) (W : Arr Ideal S100x50) (b : Fin 65536) (e : Fin 50) :
    Host.dotGeneral (F := Ideal) dot_S65536x100_S100x50_S65536x50_1_0_0_1_n_n none x W (ix2 b e)
      = ∑ k : Fin 100, x (ix2 b k) * W (ix2 k e) := by
  simp only [Host.dotGeneral]
  rw [Ideal.dotGeneral_apply, ← Equiv.sum_comp (ValueIdx.contrEquiv1 dot_S65536x100_S100x50_S65536x50_1_0_0_1_n_n 100 rfl rfl).symm]
  refine Finset.sum_congr rfl fun k _ => ?_
  have hk := ValueIdx.contrEquiv1_symm_val dot_S65536x100_S100x50_S65536x50_1_0_0_1_n_n 100 rfl rfl k
  have el : dot_S65536x100_S100x50_S65536x50_1_0_0_1_n_n.lhsIdx (ix2 b e) ((ValueIdx.contrEquiv1 dot_S65536x100_S100x50_S65536x50_1_0_0_1_n_n 100 rfl rfl).symm k) = ix2 b k :=
    funext fun a => Fin.ext (by
      match a with
      | ⟨0, _⟩ => exact lhs_a_0 _ _
      | ⟨1, _⟩ => exact (lhs_a_1 _ _).trans hk)
  have er : dot_S65536x100_S100x50_S65536x50_1_0_0_1_n_n.rhsIdx (ix2 b e) ((ValueIdx.contrEquiv1 dot_S65536x100_S100x50_S65536x50_1_0_0_1_n_n 100 rfl rfl).symm k) = ix2 k e :=
    funext fun a => Fin.ext (by
      match a with
      | ⟨0, _⟩ => exact (rhs_a_0 _ _).trans hk
      | ⟨1, _⟩ => exact rhs_a_1 _ _)
  rw [el, er]

private theorem lhs_b_0 (i : S65536x8x256.Idx) (q : dot_S65536x8x50_S50x256_S65536x8x256_2_0_01_1_n_n.contr.Idx) :
    (dot_S65536x8x50_S50x256_S65536x8x256_2_0_01_1_n_n.lhsIdx i q 0).val = (i 0).val := by
  unfold DotDims.lhsIdx
  rw [dif_neg (show ¬(0 : Fin S65536x8x50.rank) ∈ dot_S65536x8x50_S50x256_S65536x8x256_2_0_01_1_n_n.lhsBatch by decide),
    dif_pos (show (0 : Fin S65536x8x50.rank) ∈ dot_S65536x8x50_S50x256_S65536x8x256_2_0_01_1_n_n.lhsNonContracting by decide)]
  rfl
private theorem lhs_b_1 (i : S65536x8x256.Idx) (q : dot_S65536x8x50_S50x256_S65536x8x256_2_0_01_1_n_n.contr.Idx) :
    (dot_S65536x8x50_S50x256_S65536x8x256_2_0_01_1_n_n.lhsIdx i q 1).val = (i 1).val := by
  unfold DotDims.lhsIdx
  rw [dif_neg (show ¬(1 : Fin S65536x8x50.rank) ∈ dot_S65536x8x50_S50x256_S65536x8x256_2_0_01_1_n_n.lhsBatch by decide),
    dif_pos (show (1 : Fin S65536x8x50.rank) ∈ dot_S65536x8x50_S50x256_S65536x8x256_2_0_01_1_n_n.lhsNonContracting by decide)]
  rfl
private theorem lhs_b_2 (i : S65536x8x256.Idx) (q : dot_S65536x8x50_S50x256_S65536x8x256_2_0_01_1_n_n.contr.Idx) :
    (dot_S65536x8x50_S50x256_S65536x8x256_2_0_01_1_n_n.lhsIdx i q 2).val = (q ⟨0, by decide⟩).val :=
  dot_S65536x8x50_S50x256_S65536x8x256_2_0_01_1_n_n.lhsIdx_val_of_single rfl i q
private theorem rhs_b_0 (i : S65536x8x256.Idx) (q : dot_S65536x8x50_S50x256_S65536x8x256_2_0_01_1_n_n.contr.Idx) :
    (dot_S65536x8x50_S50x256_S65536x8x256_2_0_01_1_n_n.rhsIdx i q 0).val = (q ⟨0, by decide⟩).val :=
  dot_S65536x8x50_S50x256_S65536x8x256_2_0_01_1_n_n.rhsIdx_val_of_single rfl i q
private theorem rhs_b_1 (i : S65536x8x256.Idx) (q : dot_S65536x8x50_S50x256_S65536x8x256_2_0_01_1_n_n.contr.Idx) :
    (dot_S65536x8x50_S50x256_S65536x8x256_2_0_01_1_n_n.rhsIdx i q 1).val = (i 2).val := by
  unfold DotDims.rhsIdx
  rw [dif_neg (show ¬(1 : Fin S50x256.rank) ∈ dot_S65536x8x50_S50x256_S65536x8x256_2_0_01_1_n_n.rhsBatch by decide),
    dif_pos (show (1 : Fin S50x256.rank) ∈ dot_S65536x8x50_S50x256_S65536x8x256_2_0_01_1_n_n.rhsNonContracting by decide)]
  rfl

/-- The actor's first product: [65536 × 8 × 50] by [50 × 256], the last axis contracted. -/
theorem dot_50_256 (x : Arr Ideal S65536x8x50) (W : Arr Ideal S50x256) (b : Fin 65536) (n : Fin 8) (e : Fin 256) :
    Host.dotGeneral (F := Ideal) dot_S65536x8x50_S50x256_S65536x8x256_2_0_01_1_n_n none x W (ix3 b n e)
      = ∑ k : Fin 50, x (ix3 b n k) * W (ix2 k e) := by
  simp only [Host.dotGeneral]
  rw [Ideal.dotGeneral_apply, ← Equiv.sum_comp (ValueIdx.contrEquiv1 dot_S65536x8x50_S50x256_S65536x8x256_2_0_01_1_n_n 50 rfl rfl).symm]
  refine Finset.sum_congr rfl fun k _ => ?_
  have hk := ValueIdx.contrEquiv1_symm_val dot_S65536x8x50_S50x256_S65536x8x256_2_0_01_1_n_n 50 rfl rfl k
  have el : dot_S65536x8x50_S50x256_S65536x8x256_2_0_01_1_n_n.lhsIdx (ix3 b n e) ((ValueIdx.contrEquiv1 dot_S65536x8x50_S50x256_S65536x8x256_2_0_01_1_n_n 50 rfl rfl).symm k) = ix3 b n k :=
    funext fun a => Fin.ext (by
      match a with
      | ⟨0, _⟩ => exact lhs_b_0 _ _
      | ⟨1, _⟩ => exact lhs_b_1 _ _
      | ⟨2, _⟩ => exact (lhs_b_2 _ _).trans hk)
  have er : dot_S65536x8x50_S50x256_S65536x8x256_2_0_01_1_n_n.rhsIdx (ix3 b n e) ((ValueIdx.contrEquiv1 dot_S65536x8x50_S50x256_S65536x8x256_2_0_01_1_n_n 50 rfl rfl).symm k) = ix2 k e :=
    funext fun a => Fin.ext (by
      match a with
      | ⟨0, _⟩ => exact (rhs_b_0 _ _).trans hk
      | ⟨1, _⟩ => exact rhs_b_1 _ _)
  rw [el, er]

private theorem lhs_c_0 (i : S65536x8x400.Idx) (q : dot_S65536x8x256_S256x400_S65536x8x400_2_0_01_1_n_n.contr.Idx) :
    (dot_S65536x8x256_S256x400_S65536x8x400_2_0_01_1_n_n.lhsIdx i q 0).val = (i 0).val := by
  unfold DotDims.lhsIdx
  rw [dif_neg (show ¬(0 : Fin S65536x8x256.rank) ∈ dot_S65536x8x256_S256x400_S65536x8x400_2_0_01_1_n_n.lhsBatch by decide),
    dif_pos (show (0 : Fin S65536x8x256.rank) ∈ dot_S65536x8x256_S256x400_S65536x8x400_2_0_01_1_n_n.lhsNonContracting by decide)]
  rfl
private theorem lhs_c_1 (i : S65536x8x400.Idx) (q : dot_S65536x8x256_S256x400_S65536x8x400_2_0_01_1_n_n.contr.Idx) :
    (dot_S65536x8x256_S256x400_S65536x8x400_2_0_01_1_n_n.lhsIdx i q 1).val = (i 1).val := by
  unfold DotDims.lhsIdx
  rw [dif_neg (show ¬(1 : Fin S65536x8x256.rank) ∈ dot_S65536x8x256_S256x400_S65536x8x400_2_0_01_1_n_n.lhsBatch by decide),
    dif_pos (show (1 : Fin S65536x8x256.rank) ∈ dot_S65536x8x256_S256x400_S65536x8x400_2_0_01_1_n_n.lhsNonContracting by decide)]
  rfl
private theorem lhs_c_2 (i : S65536x8x400.Idx) (q : dot_S65536x8x256_S256x400_S65536x8x400_2_0_01_1_n_n.contr.Idx) :
    (dot_S65536x8x256_S256x400_S65536x8x400_2_0_01_1_n_n.lhsIdx i q 2).val = (q ⟨0, by decide⟩).val :=
  dot_S65536x8x256_S256x400_S65536x8x400_2_0_01_1_n_n.lhsIdx_val_of_single rfl i q
private theorem rhs_c_0 (i : S65536x8x400.Idx) (q : dot_S65536x8x256_S256x400_S65536x8x400_2_0_01_1_n_n.contr.Idx) :
    (dot_S65536x8x256_S256x400_S65536x8x400_2_0_01_1_n_n.rhsIdx i q 0).val = (q ⟨0, by decide⟩).val :=
  dot_S65536x8x256_S256x400_S65536x8x400_2_0_01_1_n_n.rhsIdx_val_of_single rfl i q
private theorem rhs_c_1 (i : S65536x8x400.Idx) (q : dot_S65536x8x256_S256x400_S65536x8x400_2_0_01_1_n_n.contr.Idx) :
    (dot_S65536x8x256_S256x400_S65536x8x400_2_0_01_1_n_n.rhsIdx i q 1).val = (i 2).val := by
  unfold DotDims.rhsIdx
  rw [dif_neg (show ¬(1 : Fin S256x400.rank) ∈ dot_S65536x8x256_S256x400_S65536x8x400_2_0_01_1_n_n.rhsBatch by decide),
    dif_pos (show (1 : Fin S256x400.rank) ∈ dot_S65536x8x256_S256x400_S65536x8x400_2_0_01_1_n_n.rhsNonContracting by decide)]
  rfl

/-- The actor's second product: [65536 × 8 × 256] by [256 × 400], the last axis contracted. -/
theorem dot_256_400 (x : Arr Ideal S65536x8x256) (W : Arr Ideal S256x400) (b : Fin 65536) (n : Fin 8) (e : Fin 400) :
    Host.dotGeneral (F := Ideal) dot_S65536x8x256_S256x400_S65536x8x400_2_0_01_1_n_n none x W (ix3 b n e)
      = ∑ k : Fin 256, x (ix3 b n k) * W (ix2 k e) := by
  simp only [Host.dotGeneral]
  rw [Ideal.dotGeneral_apply, ← Equiv.sum_comp (ValueIdx.contrEquiv1 dot_S65536x8x256_S256x400_S65536x8x400_2_0_01_1_n_n 256 rfl rfl).symm]
  refine Finset.sum_congr rfl fun k _ => ?_
  have hk := ValueIdx.contrEquiv1_symm_val dot_S65536x8x256_S256x400_S65536x8x400_2_0_01_1_n_n 256 rfl rfl k
  have el : dot_S65536x8x256_S256x400_S65536x8x400_2_0_01_1_n_n.lhsIdx (ix3 b n e) ((ValueIdx.contrEquiv1 dot_S65536x8x256_S256x400_S65536x8x400_2_0_01_1_n_n 256 rfl rfl).symm k) = ix3 b n k :=
    funext fun a => Fin.ext (by
      match a with
      | ⟨0, _⟩ => exact lhs_c_0 _ _
      | ⟨1, _⟩ => exact lhs_c_1 _ _
      | ⟨2, _⟩ => exact (lhs_c_2 _ _).trans hk)
  have er : dot_S65536x8x256_S256x400_S65536x8x400_2_0_01_1_n_n.rhsIdx (ix3 b n e) ((ValueIdx.contrEquiv1 dot_S65536x8x256_S256x400_S65536x8x400_2_0_01_1_n_n 256 rfl rfl).symm k) = ix2 k e :=
    funext fun a => Fin.ext (by
      match a with
      | ⟨0, _⟩ => exact (rhs_c_0 _ _).trans hk
      | ⟨1, _⟩ => exact rhs_c_1 _ _)
  rw [el, er]

private theorem lhs_d_0 (i : S65536x256.Idx) (q : dot_S65536x400_S400x256_S65536x256_1_0_0_1_n_n.contr.Idx) :
    (dot_S65536x400_S400x256_S65536x256_1_0_0_1_n_n.lhsIdx i q 0).val = (i 0).val := by
  unfold DotDims.lhsIdx
  rw [dif_neg (show ¬(0 : Fin S65536x400.rank) ∈ dot_S65536x400_S400x256_S65536x256_1_0_0_1_n_n.lhsBatch by decide),
    dif_pos (show (0 : Fin S65536x400.rank) ∈ dot_S65536x400_S400x256_S65536x256_1_0_0_1_n_n.lhsNonContracting by decide)]
  rfl
private theorem lhs_d_1 (i : S65536x256.Idx) (q : dot_S65536x400_S400x256_S65536x256_1_0_0_1_n_n.contr.Idx) :
    (dot_S65536x400_S400x256_S65536x256_1_0_0_1_n_n.lhsIdx i q 1).val = (q ⟨0, by decide⟩).val :=
  dot_S65536x400_S400x256_S65536x256_1_0_0_1_n_n.lhsIdx_val_of_single rfl i q
private theorem rhs_d_0 (i : S65536x256.Idx) (q : dot_S65536x400_S400x256_S65536x256_1_0_0_1_n_n.contr.Idx) :
    (dot_S65536x400_S400x256_S65536x256_1_0_0_1_n_n.rhsIdx i q 0).val = (q ⟨0, by decide⟩).val :=
  dot_S65536x400_S400x256_S65536x256_1_0_0_1_n_n.rhsIdx_val_of_single rfl i q
private theorem rhs_d_1 (i : S65536x256.Idx) (q : dot_S65536x400_S400x256_S65536x256_1_0_0_1_n_n.contr.Idx) :
    (dot_S65536x400_S400x256_S65536x256_1_0_0_1_n_n.rhsIdx i q 1).val = (i 1).val := by
  unfold DotDims.rhsIdx
  rw [dif_neg (show ¬(1 : Fin S400x256.rank) ∈ dot_S65536x400_S400x256_S65536x256_1_0_0_1_n_n.rhsBatch by decide),
    dif_pos (show (1 : Fin S400x256.rank) ∈ dot_S65536x400_S400x256_S65536x256_1_0_0_1_n_n.rhsNonContracting by decide)]
  rfl

/-- The policy head's first product: [65536 × 400] by [400 × 256]. -/
theorem dot_400_256 (x : Arr Ideal S65536x400) (W : Arr Ideal S400x256) (b : Fin 65536) (e : Fin 256) :
    Host.dotGeneral (F := Ideal) dot_S65536x400_S400x256_S65536x256_1_0_0_1_n_n none x W (ix2 b e)
      = ∑ k : Fin 400, x (ix2 b k) * W (ix2 k e) := by
  simp only [Host.dotGeneral]
  rw [Ideal.dotGeneral_apply, ← Equiv.sum_comp (ValueIdx.contrEquiv1 dot_S65536x400_S400x256_S65536x256_1_0_0_1_n_n 400 rfl rfl).symm]
  refine Finset.sum_congr rfl fun k _ => ?_
  have hk := ValueIdx.contrEquiv1_symm_val dot_S65536x400_S400x256_S65536x256_1_0_0_1_n_n 400 rfl rfl k
  have el : dot_S65536x400_S400x256_S65536x256_1_0_0_1_n_n.lhsIdx (ix2 b e) ((ValueIdx.contrEquiv1 dot_S65536x400_S400x256_S65536x256_1_0_0_1_n_n 400 rfl rfl).symm k) = ix2 b k :=
    funext fun a => Fin.ext (by
      match a with
      | ⟨0, _⟩ => exact lhs_d_0 _ _
      | ⟨1, _⟩ => exact (lhs_d_1 _ _).trans hk)
  have er : dot_S65536x400_S400x256_S65536x256_1_0_0_1_n_n.rhsIdx (ix2 b e) ((ValueIdx.contrEquiv1 dot_S65536x400_S400x256_S65536x256_1_0_0_1_n_n 400 rfl rfl).symm k) = ix2 k e :=
    funext fun a => Fin.ext (by
      match a with
      | ⟨0, _⟩ => exact (rhs_d_0 _ _).trans hk
      | ⟨1, _⟩ => exact rhs_d_1 _ _)
  rw [el, er]

private theorem lhs_e_0 (i : S65536x256.Idx) (q : dot_S65536x256_S256x256_S65536x256_1_0_0_1_n_n.contr.Idx) :
    (dot_S65536x256_S256x256_S65536x256_1_0_0_1_n_n.lhsIdx i q 0).val = (i 0).val := by
  unfold DotDims.lhsIdx
  rw [dif_neg (show ¬(0 : Fin S65536x256.rank) ∈ dot_S65536x256_S256x256_S65536x256_1_0_0_1_n_n.lhsBatch by decide),
    dif_pos (show (0 : Fin S65536x256.rank) ∈ dot_S65536x256_S256x256_S65536x256_1_0_0_1_n_n.lhsNonContracting by decide)]
  rfl
private theorem lhs_e_1 (i : S65536x256.Idx) (q : dot_S65536x256_S256x256_S65536x256_1_0_0_1_n_n.contr.Idx) :
    (dot_S65536x256_S256x256_S65536x256_1_0_0_1_n_n.lhsIdx i q 1).val = (q ⟨0, by decide⟩).val :=
  dot_S65536x256_S256x256_S65536x256_1_0_0_1_n_n.lhsIdx_val_of_single rfl i q
private theorem rhs_e_0 (i : S65536x256.Idx) (q : dot_S65536x256_S256x256_S65536x256_1_0_0_1_n_n.contr.Idx) :
    (dot_S65536x256_S256x256_S65536x256_1_0_0_1_n_n.rhsIdx i q 0).val = (q ⟨0, by decide⟩).val :=
  dot_S65536x256_S256x256_S65536x256_1_0_0_1_n_n.rhsIdx_val_of_single rfl i q
private theorem rhs_e_1 (i : S65536x256.Idx) (q : dot_S65536x256_S256x256_S65536x256_1_0_0_1_n_n.contr.Idx) :
    (dot_S65536x256_S256x256_S65536x256_1_0_0_1_n_n.rhsIdx i q 1).val = (i 1).val := by
  unfold DotDims.rhsIdx
  rw [dif_neg (show ¬(1 : Fin S256x256.rank) ∈ dot_S65536x256_S256x256_S65536x256_1_0_0_1_n_n.rhsBatch by decide),
    dif_pos (show (1 : Fin S256x256.rank) ∈ dot_S65536x256_S256x256_S65536x256_1_0_0_1_n_n.rhsNonContracting by decide)]
  rfl

/-- The policy head's second product: [65536 × 256] by [256 × 256]. -/
theorem dot_256_256 (x : Arr Ideal S65536x256) (W : Arr Ideal S256x256) (b : Fin 65536) (e : Fin 256) :
    Host.dotGeneral (F := Ideal) dot_S65536x256_S256x256_S65536x256_1_0_0_1_n_n none x W (ix2 b e)
      = ∑ k : Fin 256, x (ix2 b k) * W (ix2 k e) := by
  simp only [Host.dotGeneral]
  rw [Ideal.dotGeneral_apply, ← Equiv.sum_comp (ValueIdx.contrEquiv1 dot_S65536x256_S256x256_S65536x256_1_0_0_1_n_n 256 rfl rfl).symm]
  refine Finset.sum_congr rfl fun k _ => ?_
  have hk := ValueIdx.contrEquiv1_symm_val dot_S65536x256_S256x256_S65536x256_1_0_0_1_n_n 256 rfl rfl k
  have el : dot_S65536x256_S256x256_S65536x256_1_0_0_1_n_n.lhsIdx (ix2 b e) ((ValueIdx.contrEquiv1 dot_S65536x256_S256x256_S65536x256_1_0_0_1_n_n 256 rfl rfl).symm k) = ix2 b k :=
    funext fun a => Fin.ext (by
      match a with
      | ⟨0, _⟩ => exact lhs_e_0 _ _
      | ⟨1, _⟩ => exact (lhs_e_1 _ _).trans hk)
  have er : dot_S65536x256_S256x256_S65536x256_1_0_0_1_n_n.rhsIdx (ix2 b e) ((ValueIdx.contrEquiv1 dot_S65536x256_S256x256_S65536x256_1_0_0_1_n_n 256 rfl rfl).symm k) = ix2 k e :=
    funext fun a => Fin.ext (by
      match a with
      | ⟨0, _⟩ => exact (rhs_e_0 _ _).trans hk
      | ⟨1, _⟩ => exact rhs_e_1 _ _)
  rw [el, er]

private theorem lhs_f_0 (i : S65536x8.Idx) (q : dot_S65536x256_S256x8_S65536x8_1_0_0_1_n_n.contr.Idx) :
    (dot_S65536x256_S256x8_S65536x8_1_0_0_1_n_n.lhsIdx i q 0).val = (i 0).val := by
  unfold DotDims.lhsIdx
  rw [dif_neg (show ¬(0 : Fin S65536x256.rank) ∈ dot_S65536x256_S256x8_S65536x8_1_0_0_1_n_n.lhsBatch by decide),
    dif_pos (show (0 : Fin S65536x256.rank) ∈ dot_S65536x256_S256x8_S65536x8_1_0_0_1_n_n.lhsNonContracting by decide)]
  rfl
private theorem lhs_f_1 (i : S65536x8.Idx) (q : dot_S65536x256_S256x8_S65536x8_1_0_0_1_n_n.contr.Idx) :
    (dot_S65536x256_S256x8_S65536x8_1_0_0_1_n_n.lhsIdx i q 1).val = (q ⟨0, by decide⟩).val :=
  dot_S65536x256_S256x8_S65536x8_1_0_0_1_n_n.lhsIdx_val_of_single rfl i q
private theorem rhs_f_0 (i : S65536x8.Idx) (q : dot_S65536x256_S256x8_S65536x8_1_0_0_1_n_n.contr.Idx) :
    (dot_S65536x256_S256x8_S65536x8_1_0_0_1_n_n.rhsIdx i q 0).val = (q ⟨0, by decide⟩).val :=
  dot_S65536x256_S256x8_S65536x8_1_0_0_1_n_n.rhsIdx_val_of_single rfl i q
private theorem rhs_f_1 (i : S65536x8.Idx) (q : dot_S65536x256_S256x8_S65536x8_1_0_0_1_n_n.contr.Idx) :
    (dot_S65536x256_S256x8_S65536x8_1_0_0_1_n_n.rhsIdx i q 1).val = (i 1).val := by
  unfold DotDims.rhsIdx
  rw [dif_neg (show ¬(1 : Fin S256x8.rank) ∈ dot_S65536x256_S256x8_S65536x8_1_0_0_1_n_n.rhsBatch by decide),
    dif_pos (show (1 : Fin S256x8.rank) ∈ dot_S65536x256_S256x8_S65536x8_1_0_0_1_n_n.rhsNonContracting by decide)]
  rfl

/-- The policy head's last product: [65536 × 256] by [256 × 8]. -/
theorem dot_256_8 (x : Arr Ideal S65536x256) (W : Arr Ideal S256x8) (b : Fin 65536) (e : Fin 8) :
    Host.dotGeneral (F := Ideal) dot_S65536x256_S256x8_S65536x8_1_0_0_1_n_n none x W (ix2 b e)
      = ∑ k : Fin 256, x (ix2 b k) * W (ix2 k e) := by
  simp only [Host.dotGeneral]
  rw [Ideal.dotGeneral_apply, ← Equiv.sum_comp (ValueIdx.contrEquiv1 dot_S65536x256_S256x8_S65536x8_1_0_0_1_n_n 256 rfl rfl).symm]
  refine Finset.sum_congr rfl fun k _ => ?_
  have hk := ValueIdx.contrEquiv1_symm_val dot_S65536x256_S256x8_S65536x8_1_0_0_1_n_n 256 rfl rfl k
  have el : dot_S65536x256_S256x8_S65536x8_1_0_0_1_n_n.lhsIdx (ix2 b e) ((ValueIdx.contrEquiv1 dot_S65536x256_S256x8_S65536x8_1_0_0_1_n_n 256 rfl rfl).symm k) = ix2 b k :=
    funext fun a => Fin.ext (by
      match a with
      | ⟨0, _⟩ => exact lhs_f_0 _ _
      | ⟨1, _⟩ => exact (lhs_f_1 _ _).trans hk)
  have er : dot_S65536x256_S256x8_S65536x8_1_0_0_1_n_n.rhsIdx (ix2 b e) ((ValueIdx.contrEquiv1 dot_S65536x256_S256x8_S65536x8_1_0_0_1_n_n 256 rfl rfl).symm k) = ix2 k e :=
    funext fun a => Fin.ext (by
      match a with
      | ⟨0, _⟩ => exact (rhs_f_0 _ _).trans hk
      | ⟨1, _⟩ => exact rhs_f_1 _ _)
  rw [el, er]

/-- The gate's bias, broadcast to [65536 × 50]. -/
theorem bias2_50 (v : Arr Ideal S50) (b : Fin 65536) (e : Fin 50) :
    broadcastInDim S65536x50 ![0, 1] bcast_S1x50_S65536x50_0_1 (broadcastInDim S1x50 ![1] bcast_S50_S1x50_1 v) (ix2 b e)
      = v (ix1 e) := by
  refine (broadcastInDim_apply ![0, 1] bcast_S1x50_S65536x50_0_1 _ (ix2 b e) (ix2 (0 : Fin 1) e) ?_).trans
    (broadcastInDim_apply ![1] bcast_S50_S1x50_1 v (ix2 (0 : Fin 1) e) (ix1 e) ?_)
  · intro a
    match a with
    | ⟨0, _⟩ => rfl
    | ⟨1, _⟩ => rfl
  · intro a
    match a with
    | ⟨0, _⟩ => rfl

/-- The actor's first bias, broadcast to [65536 × 8 × 256]. -/
theorem bias3_256 (v : Arr Ideal S256) (b : Fin 65536) (n : Fin 8) (e : Fin 256) :
    broadcastInDim S65536x8x256 ![0, 1, 2] bcast_S1x1x256_S65536x8x256_0_1_2 (broadcastInDim S1x1x256 ![2] bcast_S256_S1x1x256_2 v) (ix3 b n e)
      = v (ix1 e) := by
  refine (broadcastInDim_apply ![0, 1, 2] bcast_S1x1x256_S65536x8x256_0_1_2 _ (ix3 b n e) (ix3 (0 : Fin 1) (0 : Fin 1) e) ?_).trans
    (broadcastInDim_apply ![2] bcast_S256_S1x1x256_2 v (ix3 (0 : Fin 1) (0 : Fin 1) e) (ix1 e) ?_)
  · intro a
    match a with
    | ⟨0, _⟩ => rfl
    | ⟨1, _⟩ => rfl
    | ⟨2, _⟩ => rfl
  · intro a
    match a with
    | ⟨0, _⟩ => rfl

/-- The actor's second bias, broadcast to [65536 × 8 × 400]. -/
theorem bias3_400 (v : Arr Ideal S400) (b : Fin 65536) (n : Fin 8) (e : Fin 400) :
    broadcastInDim S65536x8x400 ![0, 1, 2] bcast_S1x1x400_S65536x8x400_0_1_2 (broadcastInDim S1x1x400 ![2] bcast_S400_S1x1x400_2 v) (ix3 b n e)
      = v (ix1 e) := by
  refine (broadcastInDim_apply ![0, 1, 2] bcast_S1x1x400_S65536x8x400_0_1_2 _ (ix3 b n e) (ix3 (0 : Fin 1) (0 : Fin 1) e) ?_).trans
    (broadcastInDim_apply ![2] bcast_S400_S1x1x400_2 v (ix3 (0 : Fin 1) (0 : Fin 1) e) (ix1 e) ?_)
  · intro a
    match a with
    | ⟨0, _⟩ => rfl
    | ⟨1, _⟩ => rfl
    | ⟨2, _⟩ => rfl
  · intro a
    match a with
    | ⟨0, _⟩ => rfl

/-- A policy-head bias, broadcast to [65536 × 256]. -/
theorem bias2_256 (v : Arr Ideal S256) (b : Fin 65536) (e : Fin 256) :
    broadcastInDim S65536x256 ![0, 1] bcast_S1x256_S65536x256_0_1 (broadcastInDim S1x256 ![1] bcast_S256_S1x256_1 v) (ix2 b e)
      = v (ix1 e) := by
  refine (broadcastInDim_apply ![0, 1] bcast_S1x256_S65536x256_0_1 _ (ix2 b e) (ix2 (0 : Fin 1) e) ?_).trans
    (broadcastInDim_apply ![1] bcast_S256_S1x256_1 v (ix2 (0 : Fin 1) e) (ix1 e) ?_)
  · intro a
    match a with
    | ⟨0, _⟩ => rfl
    | ⟨1, _⟩ => rfl
  · intro a
    match a with
    | ⟨0, _⟩ => rfl

/-- The output bias, broadcast to [65536 × 8]. -/
theorem bias2_8 (v : Arr Ideal S8) (b : Fin 65536) (e : Fin 8) :
    broadcastInDim S65536x8 ![0, 1] bcast_S1x8_S65536x8_0_1 (broadcastInDim S1x8 ![1] bcast_S8_S1x8_1 v) (ix2 b e)
      = v (ix1 e) := by
  refine (broadcastInDim_apply ![0, 1] bcast_S1x8_S65536x8_0_1 _ (ix2 b e) (ix2 (0 : Fin 1) e) ?_).trans
    (broadcastInDim_apply ![1] bcast_S8_S1x8_1 v (ix2 (0 : Fin 1) e) (ix1 e) ?_)
  · intro a
    match a with
    | ⟨0, _⟩ => rfl
    | ⟨1, _⟩ => rfl
  · intro a
    match a with
    | ⟨0, _⟩ => rfl

/-- The gate repeated along the object axis. -/
theorem gate_bcast (a : Arr Ideal S65536x50) (b : Fin 65536) (n : Fin 8) (d : Fin 50) :
    broadcastInDim S65536x8x50 ![0, 1, 2] bcast_S65536x1x50_S65536x8x50_0_1_2
      (broadcastInDim S65536x1x50 ![0, 2] bcast_S65536x50_S65536x1x50_0_2 a) (ix3 b n d) = a (ix2 b d) := by
  refine (broadcastInDim_apply ![0, 1, 2] bcast_S65536x1x50_S65536x8x50_0_1_2 _ (ix3 b n d) (ix3 b (0 : Fin 1) d) ?_).trans
    (broadcastInDim_apply ![0, 2] bcast_S65536x50_S65536x1x50_0_2 a (ix3 b (0 : Fin 1) d) (ix2 b d) ?_)
  · intro c
    match c with
    | ⟨0, _⟩ => rfl
    | ⟨1, _⟩ => rfl
    | ⟨2, _⟩ => rfl
  · intro c
    match c with
    | ⟨0, _⟩ => rfl
    | ⟨1, _⟩ => rfl

/-- A scalar constant broadcast to [65536 × 50]. -/
theorem splat_65536x50 (w : BitVec 32) (i : S65536x50.Idx) :
    (broadcastInDim S65536x50 ![] bcast_S_S65536x50 (constant (F := Ideal) S_ .f32 w) : Arr Ideal S65536x50) i = Ideal.ofBits .f32 w := by
  rfl

/-- A scalar constant broadcast to [65536 × 8 × 256]. -/
theorem splat_65536x8x256 (w : BitVec 32) (i : S65536x8x256.Idx) :
    (broadcastInDim S65536x8x256 ![] bcast_S_S65536x8x256 (constant (F := Ideal) S_ .f32 w) : Arr Ideal S65536x8x256) i = Ideal.ofBits .f32 w := by
  rfl

/-- A scalar constant broadcast to [65536 × 8 × 400]. -/
theorem splat_65536x8x400 (w : BitVec 32) (i : S65536x8x400.Idx) :
    (broadcastInDim S65536x8x400 ![] bcast_S_S65536x8x400 (constant (F := Ideal) S_ .f32 w) : Arr Ideal S65536x8x400) i = Ideal.ofBits .f32 w := by
  rfl

/-- A scalar constant broadcast to [65536 × 256]. -/
theorem splat_65536x256 (w : BitVec 32) (i : S65536x256.Idx) :
    (broadcastInDim S65536x256 ![] bcast_S_S65536x256 (constant (F := Ideal) S_ .f32 w) : Arr Ideal S65536x256) i = Ideal.ofBits .f32 w := by
  rfl

/-- The pooling: the sum over the object axis, from zero, is the sum of the eight objects' entries. -/
theorem pooledArr_apply (y : Arr Ideal S65536x8x400) (b : Fin 65536) (k : Fin 400) :
    pooledArr y (ix2 b k) = ∑ n : Fin 8, y (ix3 b n k) := by
  unfold pooledArr
  simp only [Host.reduceAdd]
  refine (Ideal.hostReduceAdd_single reducesTo_S65536x8x400_S65536x400_d1
    (by decide : S65536x8x400.Reduces [1] S65536x400) y _ (ix2 b k)).trans ?_
  rw [show (constant (F := Ideal) S_ .f32 0x00000000#32) (Shape.Idx.first h_S_) = Ideal.ofBits .f32 0x00000000#32 from rfl,
    Ideal.ofBits_zero_f32, zero_add]
  refine Finset.sum_congr rfl fun n _ => ?_
  refine congrArg y (funext fun a => Fin.ext ?_)
  match a with
  | ⟨0, _⟩ => rfl
  | ⟨1, _⟩ => rfl
  | ⟨2, _⟩ => rfl

end Cert.ReferenceIdeal.RefValue

end
-- ==== Proof.RefFeat.lean ====
/-
  The reference's per-object inputs read at an index.

  Entry (b, n, d) of the [65536 × 8 × 50] array of per-object inputs is the observation at row b and column
  `featCol n d`: for d < 20 a body column (the body columns are the same for every object), for d ≥ 20 the column
  the table lists for object n at position d − 20, which the gather reads.
-/
import proofs.«177284_j28552942584470_1_alg».proof.Proof.RefTerm
import proofs.«177284_j28552942584470_1_alg».proof.Proof.RowSpec
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Cert.ReferenceIdeal Cert.ReferenceIdeal.Gen Idealize.ShloMosaic Idealize.ShloMosaic.ValueIdx

/-- The column the table lists for object `n` at position `k`: positions 0 … 14 are the object's position columns
    `10 + 15 n + k`, positions 15 … 29 its velocity columns `140 + 15 n + (k − 15)`. -/
private def tabCol (n k : Nat) : Nat := if k < 15 then 10 + 15 * n + k else 125 + 15 * n + k

private theorem tabCol_lt (n k : Nat) (hn : n < 8) (hk : k < 30) : tabCol n k < 260 := by
  unfold tabCol; split <;> omega

/-- The table's 240 words, position by position (row-major: position `30 n + k` is row `n`, entry `k`). -/
private theorem lit0_eq : ∀ p : Fin 240, lit0 p = BitVec.ofNat 32 (tabCol (p.val / 30) (p.val % 30)) := by
  decide

/-- The table at row `n`, entry `k`. -/
private theorem colTable_apply (n : Fin 8) (k : Fin 30) :
    colTable (ix2 n k) = BitVec.ofNat 32 (tabCol n.val k.val) := by
  unfold colTable
  have hv : (S8x30.rowMajor (ix2 n k)).val = n.val * 30 + k.val := Shape.rowMajor_val_two (ix2 n k)
  have hk := k.isLt
  have h1 : (n.val * 30 + k.val) / 30 = n.val := by omega
  have h2 : (n.val * 30 + k.val) % 30 = k.val := by omega
  refine (lit0_eq (S8x30.rowMajor (ix2 n k))).trans ?_
  rw [hv, h1, h2]

/-- The start indices at `(n, k, 0)`: the table's entry, which is not negative, so the wrap by 260 is not taken. -/
private theorem startIdx_apply (n : Fin 8) (k : Fin 30) (z : Fin 1) :
    startIdx (ix3 n k z) = BitVec.ofNat 32 (tabCol n.val k.val) := by
  have hc := tabCol_lt n.val k.val n.isLt k.isLt
  have hb : ∀ v : IVec S8x30 32,
      broadcastInDim S8x30x1 ![0, 1] bcast_S8x30_S8x30x1_0_1 v (ix3 n k z) = v (ix2 n k) := by
    intro v
    simp only [broadcastInDim]
    congr 1
    funext a
    match a with
    | ⟨0, _⟩ =>
      apply Fin.ext
      split
      · next h1 => change 8 = 1 at h1; omega
      · rfl
    | ⟨1, _⟩ =>
      apply Fin.ext
      split
      · next h1 => change 30 = 1 at h1; omega
      · rfl
  unfold startIdx
  refine (hb _).trans ?_
  show Scalar.select (IntOp.cmpi .slt (colTable (ix2 n k)) 0#32) (IntOp.addi (colTable (ix2 n k)) 260#32)
      (colTable (ix2 n k)) = _
  rw [colTable_apply]
  have hne : ¬ IntOp.cmpi .slt (BitVec.ofNat 32 (tabCol n.val k.val)) 0#32 = 1#1 := by
    rw [StableHlo.Predicate.slt_iff_toNat (by simp [BitVec.toNat_ofNat]; omega) (by decide)]
    simp
  rw [eq_zero_of_ne_one hne, select_zero]

/-- The gather at `(b, n, k)`: the observation at row `b` (the offset axis) and the column the table lists for object
    `n` at position `k` (the collapsed, start-indexed axis; the entry is at most 259, so the clamp keeps it). -/
private theorem gather_apply (o : Arr Ideal S65536x260) (b : Fin 65536) (n : Fin 8) (k : Fin 30) :
    Host.gather gather_S65536x260_S8x30x1_S65536x8x30_0_1_n_n_1_2_655361 o startIdx (ix3 b n k)
      = o (ix2 b ⟨tabCol n.val k.val, tabCol_lt n.val k.val n.isLt k.isLt⟩) := by
  have hc := tabCol_lt n.val k.val n.isLt k.isLt
  unfold Host.gather
  congr 1
  funext a
  match a with
  | ⟨0, _⟩ =>
    apply Fin.ext
    show gather_S65536x260_S8x30x1_S65536x8x30_0_1_n_n_1_2_655361.start (ix3 b n k) startIdx ⟨0, _⟩
        + gather_S65536x260_S8x30x1_S65536x8x30_0_1_n_n_1_2_655361.batchCoord (ix3 b n k) ⟨0, _⟩
        + gather_S65536x260_S8x30x1_S65536x8x30_0_1_n_n_1_2_655361.offCoord (ix3 b n k) ⟨0, _⟩ = b.val
    have hs : gather_S65536x260_S8x30x1_S65536x8x30_0_1_n_n_1_2_655361.start (ix3 b n k) startIdx ⟨0, by decide⟩ = 0 := by
      unfold GatherDims.start
      exact dif_neg (by decide)
    have hbt : gather_S65536x260_S8x30x1_S65536x8x30_0_1_n_n_1_2_655361.batchCoord (ix3 b n k) ⟨0, by decide⟩ = 0 :=
      GatherDims.batchCoord_eq_zero _ _ _ List.not_mem_nil
    have ho : gather_S65536x260_S8x30x1_S65536x8x30_0_1_n_n_1_2_655361.offCoord (ix3 b n k) ⟨0, by decide⟩ = b.val := by
      unfold GatherDims.offCoord
      rw [dif_pos (by decide)]
      rfl
    rw [hs, hbt, ho]; omega
  | ⟨1, _⟩ =>
    apply Fin.ext
    show gather_S65536x260_S8x30x1_S65536x8x30_0_1_n_n_1_2_655361.start (ix3 b n k) startIdx ⟨1, _⟩
        + gather_S65536x260_S8x30x1_S65536x8x30_0_1_n_n_1_2_655361.batchCoord (ix3 b n k) ⟨1, _⟩
        + gather_S65536x260_S8x30x1_S65536x8x30_0_1_n_n_1_2_655361.offCoord (ix3 b n k) ⟨1, _⟩ = tabCol n.val k.val
    have hm : (⟨1, by decide⟩ : Fin S65536x260.rank) ∈ gather_S65536x260_S8x30x1_S65536x8x30_0_1_n_n_1_2_655361.startIndexMap :=
      List.mem_singleton.mpr rfl
    have hsi : gather_S65536x260_S8x30x1_S65536x8x30_0_1_n_n_1_2_655361.siIdx (ix3 b n k)
        ⟨List.idxOf (⟨1, by decide⟩ : Fin S65536x260.rank) gather_S65536x260_S8x30x1_S65536x8x30_0_1_n_n_1_2_655361.startIndexMap,
          List.idxOf_lt_length_iff.2 hm⟩ = ix3 n k (0 : Fin 1) := by
      funext c; refine Fin.ext ?_
      match c with
      | ⟨0, _⟩ => rfl
      | ⟨1, _⟩ => rfl
      | ⟨2, _⟩ => rfl
    have hs : gather_S65536x260_S8x30x1_S65536x8x30_0_1_n_n_1_2_655361.start (ix3 b n k) startIdx ⟨1, by decide⟩
        = tabCol n.val k.val := by
      unfold GatherDims.start
      rw [dif_pos hm, hsi, startIdx_apply, StableHlo.Predicate.toInt_ofNat_small _ (by omega)]
      show min (tabCol n.val k.val) (260 - 1) = _
      omega
    have hbt : gather_S65536x260_S8x30x1_S65536x8x30_0_1_n_n_1_2_655361.batchCoord (ix3 b n k) ⟨1, by decide⟩ = 0 :=
      GatherDims.batchCoord_eq_zero _ _ _ List.not_mem_nil
    have ho : gather_S65536x260_S8x30x1_S65536x8x30_0_1_n_n_1_2_655361.offCoord (ix3 b n k) ⟨1, by decide⟩ = 0 :=
      GatherDims.offCoord_eq_zero _ _ _ (by decide)
    rw [hs, hbt, ho]; omega

/-- The body columns at `(b, d)`, `d < 10`: the observation's column `d` (the slice at column offset 0). -/
private theorem bodyArr_apply_lo (o : Arr Ideal S65536x260) (b : Fin 65536) (d : Fin 20) (hd : d.val < 10) :
    bodyArr o (ix2 b d) = o (ix2 b ⟨d.val, by omega⟩) := by
  unfold bodyArr
  refine (concatenate_pair_apply_left (s₁ := S65536x10) (s₂ := S65536x10) (1 : Fin S65536x20.rank) _ _ _ (ix2 b d) rfl (ix2 b ⟨d.val, hd⟩) (fun c => ?_)).trans ?_
  · match c with
    | ⟨0, _⟩ => rfl
    | ⟨1, _⟩ => rfl
  · refine extractStridedSlice_apply _ _ _ _ (ix2 b ⟨d.val, by omega⟩) (fun c => ?_)
    match c with
    | ⟨0, _⟩ => show b.val = 0 + b.val; omega
    | ⟨1, _⟩ => show d.val = 0 + d.val; omega

/-- The body columns at `(b, d)`, `10 ≤ d < 20`: the observation's column `d + 120` (the slice at column offset 130). -/
private theorem bodyArr_apply_hi (o : Arr Ideal S65536x260) (b : Fin 65536) (d : Fin 20) (hd : 10 ≤ d.val) :
    bodyArr o (ix2 b d) = o (ix2 b ⟨d.val + 120, by have := d.isLt; omega⟩) := by
  have hlt := d.isLt
  unfold bodyArr
  refine (concatenate_pair_apply_right (s₁ := S65536x10) (s₂ := S65536x10) (1 : Fin S65536x20.rank) _ _ _ (ix2 b d) rfl rfl (ix2 b ⟨d.val - 10, by omega⟩)
    (fun c hc => ?_) ?_).trans ?_
  · match c with
    | ⟨0, _⟩ => rfl
    | ⟨1, _⟩ => exact absurd rfl hc
  · show d.val - 10 + 10 = d.val; omega
  · refine extractStridedSlice_apply _ _ _ _ (ix2 b ⟨d.val + 120, by omega⟩) (fun c => ?_)
    match c with
    | ⟨0, _⟩ => show b.val = 0 + b.val; omega
    | ⟨1, _⟩ => show d.val + 120 = 130 + (d.val - 10); omega

/-- The body columns repeated along the object axis: entry `(b, n, d)` is the body columns' entry `(b, d)`. -/
private theorem bodyBcast_apply (x : Arr Ideal S65536x20) (b : Fin 65536) (n : Fin 8) (d : Fin 20) :
    broadcastInDim S65536x8x20 ![0, 1, 2] bcast_S65536x1x20_S65536x8x20_0_1_2
      (broadcastInDim S65536x1x20 ![0, 2] bcast_S65536x20_S65536x1x20_0_2 x) (ix3 b n d) = x (ix2 b d) := by
  simp only [broadcastInDim]
  congr 1
  funext a
  match a with
  | ⟨0, _⟩ =>
    apply Fin.ext
    split
    · next h1 => change 65536 = 1 at h1; omega
    · split
      · next h2 => change 65536 = 1 at h2; omega
      · rfl
  | ⟨1, _⟩ =>
    apply Fin.ext
    split
    · next h1 => change 20 = 1 at h1; omega
    · split
      · next h2 => change 20 = 1 at h2; omega
      · rfl

/-- The per-object inputs at (b, n, d): the observation row b at the column object n's entry d reads. -/
theorem featArr_apply (o : Arr Ideal S65536x260) (b : Fin 65536) (n : Fin 8) (d : Fin 50) :
    featArr o (ix3 b n d) = o (ix2 b (RowSpec.featCol n d)) := by
  have hd := d.isLt
  have hn := n.isLt
  unfold featArr
  by_cases h1 : d.val < 20
  · -- the first piece: the body columns, the same for every object
    refine (concatenate_pair_apply_left (s₁ := S65536x8x20) (s₂ := S65536x8x30) (2 : Fin S65536x8x50.rank) _ _ _ (ix3 b n d) rfl (ix3 b n ⟨d.val, h1⟩)
      (fun c => ?_)).trans ?_
    · match c with
      | ⟨0, _⟩ => rfl
      | ⟨1, _⟩ => rfl
      | ⟨2, _⟩ => rfl
    refine (bodyBcast_apply _ b n ⟨d.val, h1⟩).trans ?_
    by_cases h0 : d.val < 10
    · refine (bodyArr_apply_lo o b ⟨d.val, h1⟩ h0).trans ?_
      refine congrArg (fun c => o (ix2 b c)) (Fin.ext ?_)
      unfold RowSpec.featCol
      rw [dif_pos h0]
    · refine (bodyArr_apply_hi o b ⟨d.val, h1⟩ (by show 10 ≤ d.val; omega)).trans ?_
      refine congrArg (fun c => o (ix2 b c)) (Fin.ext ?_)
      unfold RowSpec.featCol
      rw [dif_neg h0, dif_pos h1]
  · -- the second piece: the gather, at position d − 20 of the object's table row
    refine (concatenate_pair_apply_right (s₁ := S65536x8x20) (s₂ := S65536x8x30) (2 : Fin S65536x8x50.rank) _ _ _ (ix3 b n d) rfl rfl
      (ix3 b n ⟨d.val - 20, by omega⟩) (fun c hc => ?_) ?_).trans ?_
    · match c with
      | ⟨0, _⟩ => rfl
      | ⟨1, _⟩ => rfl
      | ⟨2, _⟩ => exact absurd rfl hc
    · show d.val - 20 + 20 = d.val; omega
    refine (gather_apply o b n ⟨d.val - 20, by omega⟩).trans ?_
    refine congrArg (fun c => o (ix2 b c)) (Fin.ext ?_)
    show tabCol n.val (d.val - 20) = (RowSpec.featCol n d).val
    unfold RowSpec.featCol tabCol
    by_cases h2 : d.val < 35
    · rw [dif_neg (by omega), dif_neg h1, dif_pos h2, if_pos (by omega)]
      show 10 + 15 * n.val + (d.val - 20) = 15 * n.val + d.val - 10
      omega
    · rw [dif_neg (by omega), dif_neg h1, dif_neg h2, if_neg (by omega)]
      show 125 + 15 * n.val + (d.val - 20) = 15 * n.val + d.val + 105
      omega

end Cert.ReferenceIdeal.RefValue

end
-- ==== Proof.RefRow.lean ====
/-
  The reference's result, read at an index, is the row function.

  Stage by stage, each array of Proof/RefTerm.lean holds at row b the corresponding stage of Proof/RowSpec.lean
  applied to row b of the observations and row b of the goal features; so the result array is `RowSpec.arrayOut`.
-/
import proofs.«177284_j28552942584470_1_alg».proof.Proof.RefTerm
import proofs.«177284_j28552942584470_1_alg».proof.Proof.RefLayers
import proofs.«177284_j28552942584470_1_alg».proof.Proof.RefFeat
import proofs.«177284_j28552942584470_1_alg».proof.Proof.RowSpec

noncomputable section

namespace Cert.ReferenceIdeal.RefValue

open Cert.ReferenceIdeal Cert.ReferenceIdeal.Gen Idealize.ShloMosaic Idealize.ShloMosaic.ValueIdx

/-! ## The host's elementwise operations read at an index, on the extended reals -/

section HostAt
variable {s : Shape}

/-- The host's quotient at an index is the quotient of the entries. -/
private theorem hostDivf_at (a c : FVec Ideal s .f32) (i : s.Idx) : Host.divf a c i = Ideal.div (a i) (c i) := rfl
/-- The host's exponential at an index is the exponential of the entry. -/
private theorem hostExp_at (a : FVec Ideal s .f32) (i : s.Idx) : Host.exp a i = Ideal.exp (a i) := rfl
/-- The host's negation at an index is the negation of the entry. -/
private theorem hostNegf_at (a : FVec Ideal s .f32) (i : s.Idx) : Host.negf a i = -(a i) := rfl
/-- The host's hyperbolic tangent at an index is that of the entry. -/
private theorem hostTanh_at (a : FVec Ideal s .f32) (i : s.Idx) : Host.tanh a i = Ideal.tanh (a i) := rfl

end HostAt

/-! ## The stages, each read at an index -/

section Stages
variable (o : Arr Ideal S65536x260) (g : Arr Ideal S65536x100) (Wc : Arr Ideal S100x50) (bc : Arr Ideal S50)
    (Wa0 : Arr Ideal S50x256) (ba0 : Arr Ideal S256) (Wa1 : Arr Ideal S256x400) (ba1 : Arr Ideal S400)
    (Wp0 : Arr Ideal S400x256) (bp0 : Arr Ideal S256) (Wp1 : Arr Ideal S256x256) (bp1 : Arr Ideal S256)
    (Wp2 : Arr Ideal S256x8) (bp2 : Arr Ideal S8)

local notation "PP" => RowSpec.paramsOf Wc bc Wa0 ba0 Wa1 ba1 Wp0 bp0 Wp1 bp1 Wp2 bp2

/-- The gate at (b, d) is the row function's gate of goal row b. -/
private theorem gate_at (b : Fin 65536) (d : Fin 50) :
    gateArr g Wc bc (ix2 b d) = RowSpec.gate PP (fun c => g (ix2 b c)) d := by
  unfold gateArr
  rw [hostDivf_at, addf_apply, hostExp_at, hostNegf_at, addf_apply, splat_65536x50, dot_100_50, bias2_50,
    RowSpec.one_f32]
  rfl

/-- The gated inputs at (b, n, d) are object n's gated input of rows b. -/
private theorem gated_at (b : Fin 65536) (n : Fin 8) (d : Fin 50) :
    gatedArr o g Wc bc (ix3 b n d)
      = RowSpec.objIn PP (fun c => o (ix2 b c)) (fun c => g (ix2 b c)) n d := by
  unfold gatedArr
  rw [mulf_apply, featArr_apply, gate_bcast, gate_at g Wc bc Wa0 ba0 Wa1 ba1 Wp0 bp0 Wp1 bp1 Wp2 bp2]
  rfl

/-- The actor's first layer at (b, n, e). -/
private theorem hidden_at (b : Fin 65536) (n : Fin 8) (e : Fin 256) :
    hiddenArr (gatedArr o g Wc bc) Wa0 ba0 (ix3 b n e)
      = RowSpec.hidden PP (fun c => o (ix2 b c)) (fun c => g (ix2 b c)) n e := by
  unfold hiddenArr
  rw [maximumf_apply, addf_apply, dot_50_256, bias3_256, splat_65536x8x256, Ideal.ofBits_zero_f32]
  refine congrArg₂ max (congrArg₂ (· + ·) (Finset.sum_congr rfl fun k _ => ?_) rfl) rfl
  rw [gated_at o g Wc bc Wa0 ba0 Wa1 ba1 Wp0 bp0 Wp1 bp1 Wp2 bp2]
  rfl

/-- The actor's second layer at (b, n, k). -/
private theorem actor_at (b : Fin 65536) (n : Fin 8) (k : Fin 400) :
    actorArr (hiddenArr (gatedArr o g Wc bc) Wa0 ba0) Wa1 ba1 (ix3 b n k)
      = RowSpec.actor PP (fun c => o (ix2 b c)) (fun c => g (ix2 b c)) n k := by
  unfold actorArr
  rw [maximumf_apply, addf_apply, dot_256_400, bias3_400, splat_65536x8x400, Ideal.ofBits_zero_f32]
  refine congrArg₂ max (congrArg₂ (· + ·) (Finset.sum_congr rfl fun e _ => ?_) rfl) rfl
  rw [hidden_at o g Wc bc Wa0 ba0 Wa1 ba1 Wp0 bp0 Wp1 bp1 Wp2 bp2]
  rfl

/-- The pooled array at (b, k): the sum of the eight objects' second-layer entries. -/
private theorem pooled_at (b : Fin 65536) (k : Fin 400) :
    pooledArr (actorArr (hiddenArr (gatedArr o g Wc bc) Wa0 ba0) Wa1 ba1) (ix2 b k)
      = RowSpec.pooled PP (fun c => o (ix2 b c)) (fun c => g (ix2 b c)) k := by
  rw [pooledArr_apply]
  exact Finset.sum_congr rfl fun n _ => actor_at o g Wc bc Wa0 ba0 Wa1 ba1 Wp0 bp0 Wp1 bp1 Wp2 bp2 b n k

/-- The policy head's first layer at (b, e). -/
private theorem pi0_at (b : Fin 65536) (e : Fin 256) :
    pi0Arr (pooledArr (actorArr (hiddenArr (gatedArr o g Wc bc) Wa0 ba0) Wa1 ba1)) Wp0 bp0 (ix2 b e)
      = RowSpec.pi0 PP (fun c => o (ix2 b c)) (fun c => g (ix2 b c)) e := by
  unfold pi0Arr
  rw [maximumf_apply, addf_apply, dot_400_256, bias2_256, splat_65536x256, Ideal.ofBits_zero_f32]
  refine congrArg₂ max (congrArg₂ (· + ·) (Finset.sum_congr rfl fun k _ => ?_) rfl) rfl
  rw [pooled_at o g Wc bc Wa0 ba0 Wa1 ba1 Wp0 bp0 Wp1 bp1 Wp2 bp2]
  rfl

/-- The policy head's second layer at (b, e). -/
private theorem pi1_at (b : Fin 65536) (e : Fin 256) :
    pi1Arr (pi0Arr (pooledArr (actorArr (hiddenArr (gatedArr o g Wc bc) Wa0 ba0) Wa1 ba1)) Wp0 bp0) Wp1 bp1 (ix2 b e)
      = RowSpec.pi1 PP (fun c => o (ix2 b c)) (fun c => g (ix2 b c)) e := by
  unfold pi1Arr
  rw [maximumf_apply, addf_apply, dot_256_256, bias2_256, splat_65536x256, Ideal.ofBits_zero_f32]
  refine congrArg₂ max (congrArg₂ (· + ·) (Finset.sum_congr rfl fun k _ => ?_) rfl) rfl
  rw [pi0_at o g Wc bc Wa0 ba0 Wa1 ba1 Wp0 bp0 Wp1 bp1 Wp2 bp2]
  rfl

/-- The output at (b, j). -/
private theorem out_at (b : Fin 65536) (j : Fin 8) :
    outArr (pi1Arr (pi0Arr (pooledArr (actorArr (hiddenArr (gatedArr o g Wc bc) Wa0 ba0) Wa1 ba1)) Wp0 bp0) Wp1 bp1)
        Wp2 bp2 (ix2 b j)
      = RowSpec.rowOut PP (fun c => o (ix2 b c)) (fun c => g (ix2 b c)) j := by
  unfold outArr
  rw [hostTanh_at, addf_apply, dot_256_8, bias2_8]
  refine congrArg Ideal.tanh (congrArg₂ (· + ·) (Finset.sum_congr rfl fun k _ => ?_) rfl)
  rw [pi1_at o g Wc bc Wa0 ba0 Wa1 ba1 Wp0 bp0 Wp1 bp1 Wp2 bp2]
  rfl

end Stages

/-- The reference's result array is the row function, row by row. -/
theorem refOut_eq (o : Arr Ideal S65536x260) (g : Arr Ideal S65536x100) (Wc : Arr Ideal S100x50) (bc : Arr Ideal S50)
    (Wa0 : Arr Ideal S50x256) (ba0 : Arr Ideal S256) (Wa1 : Arr Ideal S256x400) (ba1 : Arr Ideal S400)
    (Wp0 : Arr Ideal S400x256) (bp0 : Arr Ideal S256) (Wp1 : Arr Ideal S256x256) (bp1 : Arr Ideal S256)
    (Wp2 : Arr Ideal S256x8) (bp2 : Arr Ideal S8) :
    refOut o g Wc bc Wa0 ba0 Wa1 ba1 Wp0 bp0 Wp1 bp1 Wp2 bp2
      = RowSpec.arrayOut (RowSpec.paramsOf Wc bc Wa0 ba0 Wa1 ba1 Wp0 bp0 Wp1 bp1 Wp2 bp2) o g := by
  funext i
  obtain ⟨b, j, rfl⟩ : ∃ (b : Fin 65536) (j : Fin 8), i = ix2 b j := ⟨i 0, i 1, eq_ix2 i⟩
  rw [RowSpec.arrayOut_apply]
  exact out_at o g Wc bc Wa0 ba0 Wa1 ba1 Wp0 bp0 Wp1 bp1 Wp2 bp2 b j

end Cert.ReferenceIdeal.RefValue

end
-- ==== Proof.lean ====
/-
  The proof of `Cert.Claim`: the three frames, the (empty) idealization ledger, and the equality of the idealized
  kernel's and the idealized reference's results on the extended reals.

  Both programs compute, for every row b of the batch, `RowSpec.rowOut` of row b of the observations and row b of
  the goal features (Proof/RowSpec.lean): an attention gate σ(g · W_c + b_c); for each of eight objects the gated
  50 columns of the observation pushed through two affine layers with relu; the sum over the objects; and a policy
  head of three affine layers with relu, relu and tanh. The kernel computes it on 64 blocks of 1024 rows with the
  object loop unrolled and the pooled sum accumulated from zero (Proof/KernelRow.lean, Proof/KernelArray.lean);
  the reference on the whole batch at once, with the objects' columns gathered through a table and the pooled sum
  taken by one reduction (Proof/RefRun.lean, Proof/RefRow.lean). The two differ by the blocking, by the order of the
  pooled sum (addition on the extended reals is associative and commutative), and by the spelling of the logistic
  function; no finiteness of the inputs is used.
-/
import proofs.«177284_j28552942584470_1_alg».proof.Defs
import proofs.«177284_j28552942584470_1_alg».proof.Proof.Gen.Kernel
import proofs.«177284_j28552942584470_1_alg».proof.Proof.Gen.Kernel.Frame
import proofs.«177284_j28552942584470_1_alg».proof.Proof.Gen.KernelIdeal
import proofs.«177284_j28552942584470_1_alg».proof.Proof.Gen.KernelIdeal.Frame
import proofs.«177284_j28552942584470_1_alg».proof.Proof.Gen.ReferenceIdeal
import proofs.«177284_j28552942584470_1_alg».proof.Proof.Gen.Pre_finite_inputs
import proofs.«177284_j28552942584470_1_alg».proof.Proof.KernelArray
import proofs.«177284_j28552942584470_1_alg».proof.Proof.RefRun
import proofs.«177284_j28552942584470_1_alg».proof.Proof.RefRow

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- Both runs end with the result array at the row function of the arguments, which agree. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7, e8, e9, e10, e11, e12, e13⟩ := hagree c
  rw [e0, e1, e2, e3, e4, e5, e6, e7, e8, e9, e10, e11, e12, e13, Cert.ReferenceIdeal.RefValue.refOut_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
